-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x2000x481x2 : Shape := ⟨5, ![32, 1, 2000, 481, 2]⟩
abbrev S32x5x2000x96x2 : Shape := ⟨5, ![32, 5, 2000, 96, 2]⟩
abbrev S_ : Shape := ⟨0, ![]⟩

class Facts : Prop where
  bcast_S_S32x1x2000x481x2 : S_.BroadcastsInDim S32x1x2000x481x2 (![] : Fin 0 → Fin S32x1x2000x481x2.rank)
  reducesTo_S32x1x2000x481x2_S_d0_1_2_3_4 : S32x1x2000x481x2.ReducesTo [0, 1, 2, 3, 4] S_
  h_S_ : 0 < S_.numel
  bcast_S_S32x5x2000x96x2 : S_.BroadcastsInDim S32x5x2000x96x2 (![] : Fin 0 → Fin S32x5x2000x96x2.rank)
  reducesTo_S32x5x2000x96x2_S_d0_1_2_3_4 : S32x5x2000x96x2.ReducesTo [0, 1, 2, 3, 4] S_

variable [Facts]

def fn {F : FTy → Type} [FloatOps F] (main_arg0 : FVec F S32x1x2000x481x2 .f32) (main_arg1 : FVec F S32x5x2000x96x2 .f32) : IVec S_ 1 :=
  let main_v0 : FVec F S32x1x2000x481x2 .f32 := Host.absf main_arg0
  let main_cst : FVec F S_ .f32 := constant S_ .f32 0x7F800000#32
  let main_v1 : FVec F S32x1x2000x481x2 .f32 := broadcastInDim S32x1x2000x481x2 ![] bcast_S_S32x1x2000x481x2 main_cst
  let main_v2 : IVec S32x1x2000x481x2 1 := cmpf .olt main_v0 main_v1
  let main_c : IVec S_ 1 := constantI S_ 1 1#1
  let main_v3 : IVec S_ 1 := (fun x v => Host.reduce IntOp.andi x v reducesTo_S32x1x2000x481x2_S_d0_1_2_3_4 h_S_) main_v2 main_c
  let main_v4 : FVec F S32x5x2000x96x2 .f32 := Host.absf main_arg1
  let main_cst_0 : FVec F S_ .f32 := constant S_ .f32 0x7F800000#32
  let main_v5 : FVec F S32x5x2000x96x2 .f32 := broadcastInDim S32x5x2000x96x2 ![] bcast_S_S32x5x2000x96x2 main_cst_0
  let main_v6 : IVec S32x5x2000x96x2 1 := cmpf .olt main_v4 main_v5
  let main_c_1 : IVec S_ 1 := constantI S_ 1 1#1
  let main_v7 : IVec S_ 1 := (fun x v => Host.reduce IntOp.andi x v reducesTo_S32x5x2000x96x2_S_d0_1_2_3_4 h_S_) main_v6 main_c_1
  let main_v8 : IVec S_ 1 := andi main_v3 main_v7
  main_v8
-- ==== Kernel.lean ====
abbrev S32x1x2000x481x2 : Shape := ⟨5, ![32, 1, 2000, 481, 2]⟩
abbrev S32x5x2000x96x2 : Shape := ⟨5, ![32, 5, 2000, 96, 2]⟩
abbrev S32x1x2000x962 : Shape := ⟨4, ![32, 1, 2000, 962]⟩
abbrev S32x5x2000x192 : Shape := ⟨4, ![32, 5, 2000, 192]⟩
abbrev S4x1x200x256 : Shape := ⟨4, ![4, 1, 200, 256]⟩
abbrev S4x5x200x192 : Shape := ⟨4, ![4, 5, 200, 192]⟩
abbrev S4x4x192 : Shape := ⟨3, ![4, 4, 192]⟩
abbrev S4x200x256 : Shape := ⟨3, ![4, 200, 256]⟩
abbrev S4x200x192 : Shape := ⟨3, ![4, 200, 192]⟩
abbrev S4x200x64 : Shape := ⟨3, ![4, 200, 64]⟩
abbrev S4x204x192 : Shape := ⟨3, ![4, 204, 192]⟩
abbrev S4x1x200x192 : Shape := ⟨4, ![4, 1, 200, 192]⟩
abbrev S4x1x200x64 : Shape := ⟨4, ![4, 1, 200, 64]⟩

abbrev nBuf : Space → Nat
  | .hbm => 6
  | .vmem => 7
  | .smem => 0
  | _ => 0

abbrev bufTy : (tb : Table) → Fin (tcTables nBuf tb) → BufTy
  | .hbm, ⟨0, _⟩ => ⟨S32x1x2000x481x2, .f32⟩
  | .hbm, ⟨1, _⟩ => ⟨S32x5x2000x96x2, .f32⟩
  | .hbm, ⟨2, _⟩ => ⟨S32x1x2000x962, .f32⟩
  | .hbm, ⟨3, _⟩ => ⟨S32x5x2000x192, .f32⟩
  | .hbm, ⟨4, _⟩ => ⟨S32x1x2000x962, .f32⟩
  | .hbm, ⟨5, _⟩ => ⟨S32x1x2000x481x2, .f32⟩
  | .local _ .vmem, ⟨0, _⟩ => ⟨S4x1x200x256, .f32⟩
  | .local _ .vmem, ⟨1, _⟩ => ⟨S4x1x200x256, .f32⟩
  | .local _ .vmem, ⟨2, _⟩ => ⟨S4x5x200x192, .f32⟩
  | .local _ .vmem, ⟨3, _⟩ => ⟨S4x5x200x192, .f32⟩
  | .local _ .vmem, ⟨4, _⟩ => ⟨S4x1x200x256, .f32⟩
  | .local _ .vmem, ⟨5, _⟩ => ⟨S4x1x200x256, .f32⟩
  | .local _ .vmem, ⟨6, _⟩ => ⟨S4x4x192, .f32⟩
  | _, _ => ⟨S32x1x2000x481x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S4x1x200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x5x200x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x200x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S32x1x2000x481x2_S32x1x2000x962 : S32x1x2000x481x2.ShapeCasts S32x1x2000x962
  shapeCasts_S32x5x2000x96x2_S32x5x2000x192 : S32x5x2000x96x2.ShapeCasts S32x5x2000x192
  inb_S4x4x192_S4x4x192_0_0_0 : ∀ a, (![0, 0, 0] : Fin 3 → Nat) a + S4x4x192.size a ≤ S4x4x192.size a
  h_S4x4x192 : 0 < S4x4x192.numel
  shapeCasts_S4x4x192_S4x4x192 : S4x4x192.ShapeCasts S4x4x192
  inb_S4x1x200x256_S4x1x200x256_0_0_0_0 : ∀ a, (![0, 0, 0, 0] : Fin 4 → Nat) a + S4x1x200x256.size a ≤ S4x1x200x256.size a
  h_S4x1x200x256 : 0 < S4x1x200x256.numel
  shapeCasts_S4x1x200x256_S4x200x256 : S4x1x200x256.ShapeCasts S4x200x256
  slices_S4x200x256_o0_0_0_S4x200x192 : S4x200x256.Slices ![0, 0, 0] S4x200x192
  slices_S4x200x256_o0_0_192_S4x200x64 : S4x200x256.Slices ![0, 0, 192] S4x200x64
  concatenates_S4x4x192_S4x200x192_S4x204x192_d1 : Shape.Concatenates [S4x4x192, S4x200x192] S4x204x192 1
  iota_S4x200x192_d2_w32 : S4x200x192.Iotas .tc 32 [2]
  slices_S4x204x192_o0_0_0_S4x200x192 : S4x204x192.Slices ![0, 0, 0] S4x200x192
  inb_S4x5x200x192_S4x1x200x192_0_0_0_0 : ∀ a, (![0, 0, 0, 0] : Fin 4 → Nat) a + S4x1x200x192.size a ≤ S4x5x200x192.size a
  h_S4x1x200x192 : 0 < S4x1x200x192.numel
  shapeCasts_S4x1x200x192_S4x200x192 : S4x1x200x192.ShapeCasts S4x200x192
  rotates_S4x200x192_d2 : S4x200x192.Rotates 2 none
  slices_S4x204x192_o0_1_0_S4x200x192 : S4x204x192.Slices ![0, 1, 0] S4x200x192
  inb_S4x5x200x192_S4x1x200x192_0_1_0_0 : ∀ a, (![0, 1, 0, 0] : Fin 4 → Nat) a + S4x1x200x192.size a ≤ S4x5x200x192.size a
  slices_S4x204x192_o0_2_0_S4x200x192 : S4x204x192.Slices ![0, 2, 0] S4x200x192
  inb_S4x5x200x192_S4x1x200x192_0_2_0_0 : ∀ a, (![0, 2, 0, 0] : Fin 4 → Nat) a + S4x1x200x192.size a ≤ S4x5x200x192.size a
  slices_S4x204x192_o0_3_0_S4x200x192 : S4x204x192.Slices ![0, 3, 0] S4x200x192
  inb_S4x5x200x192_S4x1x200x192_0_3_0_0 : ∀ a, (![0, 3, 0, 0] : Fin 4 → Nat) a + S4x1x200x192.size a ≤ S4x5x200x192.size a
  slices_S4x204x192_o0_4_0_S4x200x192 : S4x204x192.Slices ![0, 4, 0] S4x200x192
  inb_S4x5x200x192_S4x1x200x192_0_4_0_0 : ∀ a, (![0, 4, 0, 0] : Fin 4 → Nat) a + S4x1x200x192.size a ≤ S4x5x200x192.size a
  slices_S4x200x192_o0_196_0_S4x4x192 : S4x200x192.Slices ![0, 196, 0] S4x4x192
  inb_S4x1x200x256_S4x1x200x192_0_0_0_0 : ∀ a, (![0, 0, 0, 0] : Fin 4 → Nat) a + S4x1x200x192.size a ≤ S4x1x200x256.size a
  shapeCasts_S4x200x192_S4x1x200x192 : S4x200x192.ShapeCasts S4x1x200x192
  inb_S4x1x200x256_S4x1x200x64_0_0_0_192 : ∀ a, (![0, 0, 0, 192] : Fin 4 → Nat) a + S4x1x200x64.size a ≤ S4x1x200x256.size a
  h_S4x1x200x64 : 0 < S4x1x200x64.numel
  shapeCasts_S4x1x200x64_S4x200x64 : S4x1x200x64.ShapeCasts S4x200x64
  shapeCasts_S4x200x64_S4x1x200x64 : S4x200x64.ShapeCasts S4x1x200x64
  shapeCasts_S32x1x2000x962_S32x1x2000x481x2 : S32x1x2000x962.ShapeCasts S32x1x2000x481x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x1x200x256.size a < S32x1x2000x962.size a
  hwx0_0 : ∀ i : grid0.Coords, EltTy.bits .f32 = 32 ∨ (Rect.unit (s := S32x1x2000x962) (fun a => cc0_transform_0 i a * S4x1x200x256.size a) (fun a => (Pipeline.Clip.of (cc0_transform_0 i a) (S4x1x200x256.size a) (S32x1x2000x962.size a)).extent (S4x1x200x256.size a)) fun a => Pipeline.Clip.inb (Pipeline.Clip.ok_of (hstart0_0 i a))).WholeWords (EltTy.packing .f32)
  hwxs0_0 : ∀ i : grid0.Coords, EltTy.bits .f32 = 32 ∨ (Rect.unit (s := S4x1x200x256) (fun _ => 0) (fun a => (Pipeline.Clip.of (cc0_transform_0 i a) (S4x1x200x256.size a) (S32x1x2000x962.size a)).extent (S4x1x200x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x5x200x192.size a ≤ S32x5x2000x192.size a
  hwx0_1 : ∀ i : grid0.Coords, EltTy.bits .f32 = 32 ∨ (Rect.block (s := S32x5x2000x192) S4x5x200x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4x1x200x256.size a < S32x1x2000x962.size a
  hwx0_2 : ∀ i : grid0.Coords, EltTy.bits .f32 = 32 ∨ (Rect.unit (s := S32x1x2000x962) (fun a => cc0_transform_2 i a * S4x1x200x256.size a) (fun a => (Pipeline.Clip.of (cc0_transform_2 i a) (S4x1x200x256.size a) (S32x1x2000x962.size a)).extent (S4x1x200x256.size a)) fun a => Pipeline.Clip.inb (Pipeline.Clip.ok_of (hstart0_2 i a))).WholeWords (EltTy.packing .f32)
  hwxs0_2 : ∀ i : grid0.Coords, EltTy.bits .f32 = 32 ∨ (Rect.unit (s := S4x1x200x256) (fun _ => 0) (fun a => (Pipeline.Clip.of (cc0_transform_2 i a) (S4x1x200x256.size a) (S32x1x2000x962.size a)).extent (S4x1x200x256.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_v0) S4x1x200x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S4x5x200x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v2) S4x1x200x256.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S32x1x2000x481x2 : Shape := ⟨5, ![32, 1, 2000, 481, 2]⟩
abbrev S32x5x2000x96x2 : Shape := ⟨5, ![32, 5, 2000, 96, 2]⟩
abbrev S32x1x2000x96x1 : Shape := ⟨5, ![32, 1, 2000, 96, 1]⟩
abbrev S32x1x2000x96 : Shape := ⟨4, ![32, 1, 2000, 96]⟩
abbrev S_ : Shape := ⟨0, ![]⟩
abbrev S32x1x2004x96 : Shape := ⟨4, ![32, 1, 2004, 96]⟩
abbrev S1x32x1x2000x96 : Shape := ⟨5, ![1, 32, 1, 2000, 96]⟩
abbrev S5x32x1x2000x96 : Shape := ⟨5, ![5, 32, 1, 2000, 96]⟩
abbrev S32x5x2000x96x1 : Shape := ⟨5, ![32, 5, 2000, 96, 1]⟩
abbrev S32x5x2000x96 : Shape := ⟨4, ![32, 5, 2000, 96]⟩
abbrev S5x32x2000x96 : Shape := ⟨4, ![5, 32, 2000, 96]⟩
abbrev S32x1x2000x96x2 : Shape := ⟨5, ![32, 1, 2000, 96, 2]⟩
abbrev S1 : Shape := ⟨1, ![1]⟩

abbrev nBuf : Space → Nat
  | .hbm => 58
  | .vmem => 0
  | .smem => 0
  | _ => 0

abbrev bufTy : (tb : Table) → Fin (tcTables nBuf tb) → BufTy
  | .hbm, ⟨0, _⟩ => ⟨S32x1x2000x481x2, .f32⟩
  | .hbm, ⟨1, _⟩ => ⟨S32x5x2000x96x2, .f32⟩
  | .hbm, ⟨2, _⟩ => ⟨S32x1x2000x96x1, .f32⟩
  | .hbm, ⟨3, _⟩ => ⟨S32x1x2000x96, .f32⟩
  | .hbm, ⟨4, _⟩ => ⟨S32x1x2000x96x1, .f32⟩
  | .hbm, ⟨5, _⟩ => ⟨S32x1x2000x96, .f32⟩
  | .hbm, ⟨6, _⟩ => ⟨S_, .i32⟩
  | .hbm, ⟨7, _⟩ => ⟨S_, .f32⟩
  | .hbm, ⟨8, _⟩ => ⟨S32x1x2004x96, .f32⟩
  | .hbm, ⟨9, _⟩ => ⟨S_, .i32⟩
  | .hbm, ⟨10, _⟩ => ⟨S_, .f32⟩
  | .hbm, ⟨11, _⟩ => ⟨S32x1x2004x96, .f32⟩
  | .hbm, ⟨12, _⟩ => ⟨S32x1x2000x96, .f32⟩
  | .hbm, ⟨13, _⟩ => ⟨S32x1x2000x96, .f32⟩
  | .hbm, ⟨14, _⟩ => ⟨S32x1x2000x96, .f32⟩
  | .hbm, ⟨15, _⟩ => ⟨S32x1x2000x96, .f32⟩
  | .hbm, ⟨16, _⟩ => ⟨S32x1x2000x96, .f32⟩
  | .hbm, ⟨17, _⟩ => ⟨S1x32x1x2000x96, .f32⟩
  | .hbm, ⟨18, _⟩ => ⟨S1x32x1x2000x96, .f32⟩
  | .hbm, ⟨19, _⟩ => ⟨S1x32x1x2000x96, .f32⟩
  | .hbm, ⟨20, _⟩ => ⟨S1x32x1x2000x96, .f32⟩
  | .hbm, ⟨21, _⟩ => ⟨S1x32x1x2000x96, .f32⟩
  | .hbm, ⟨22, _⟩ => ⟨S5x32x1x2000x96, .f32⟩
  | .hbm, ⟨23, _⟩ => ⟨S32x1x2000x96, .f32⟩
  | .hbm, ⟨24, _⟩ => ⟨S32x1x2000x96, .f32⟩
  | .hbm, ⟨25, _⟩ => ⟨S32x1x2000x96, .f32⟩
  | .hbm, ⟨26, _⟩ => ⟨S32x1x2000x96, .f32⟩
  | .hbm, ⟨27, _⟩ => ⟨S32x1x2000x96, .f32⟩
  | .hbm, ⟨28, _⟩ => ⟨S1x32x1x2000x96, .f32⟩
  | .hbm, ⟨29, _⟩ => ⟨S1x32x1x2000x96, .f32⟩
  | .hbm, ⟨30, _⟩ => ⟨S1x32x1x2000x96, .f32⟩
  | .hbm, ⟨31, _⟩ => ⟨S1x32x1x2000x96, .f32⟩
  | .hbm, ⟨32, _⟩ => ⟨S1x32x1x2000x96, .f32⟩
  | .hbm, ⟨33, _⟩ => ⟨S5x32x1x2000x96, .f32⟩
  | .hbm, ⟨34, _⟩ => ⟨S32x5x2000x96x1, .f32⟩
  | .hbm, ⟨35, _⟩ => ⟨S32x5x2000x96, .f32⟩
  | .hbm, ⟨36, _⟩ => ⟨S5x32x2000x96, .f32⟩
  | .hbm, ⟨37, _⟩ => ⟨S5x32x1x2000x96, .f32⟩
  | .hbm, ⟨38, _⟩ => ⟨S32x5x2000x96x1, .f32⟩
  | .hbm, ⟨39, _⟩ => ⟨S32x5x2000x96, .f32⟩
  | .hbm, ⟨40, _⟩ => ⟨S5x32x2000x96, .f32⟩
  | .hbm, ⟨41, _⟩ => ⟨S5x32x1x2000x96, .f32⟩
  | .hbm, ⟨42, _⟩ => ⟨S5x32x1x2000x96, .f32⟩
  | .hbm, ⟨43, _⟩ => ⟨S5x32x1x2000x96, .f32⟩
  | .hbm, ⟨44, _⟩ => ⟨S5x32x1x2000x96, .f32⟩
  | .hbm, ⟨45, _⟩ => ⟨S_, .f32⟩
  | .hbm, ⟨46, _⟩ => ⟨S32x1x2000x96, .f32⟩
  | .hbm, ⟨47, _⟩ => ⟨S5x32x1x2000x96, .f32⟩
  | .hbm, ⟨48, _⟩ => ⟨S5x32x1x2000x96, .f32⟩
  | .hbm, ⟨49, _⟩ => ⟨S5x32x1x2000x96, .f32⟩
  | .hbm, ⟨50, _⟩ => ⟨S_, .f32⟩
  | .hbm, ⟨51, _⟩ => ⟨S32x1x2000x96, .f32⟩
  | .hbm, ⟨52, _⟩ => ⟨S32x1x2000x96x1, .f32⟩
  | .hbm, ⟨53, _⟩ => ⟨S32x1x2000x96x1, .f32⟩
  | .hbm, ⟨54, _⟩ => ⟨S32x1x2000x96x2, .f32⟩
  | .hbm, ⟨55, _⟩ => ⟨S_, .i32⟩
  | .hbm, ⟨56, _⟩ => ⟨S1, .i32⟩
  | .hbm, ⟨57, _⟩ => ⟨S32x1x2000x481x2, .f32⟩
  | _, _ => ⟨S32x1x2000x481x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_1 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_c_2 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]

class Facts₀ : Prop where
  slices_S32x1x2000x481x2_S32x1x2000x96x1_0_0_0_0_0 : S32x1x2000x481x2.Slices ![0, 0, 0, 0, 0] S32x1x2000x96x1
  shapeCasts_S32x1x2000x96x1_S32x1x2000x96 : S32x1x2000x96x1.ShapeCasts S32x1x2000x96
  slices_S32x1x2000x481x2_S32x1x2000x96x1_0_0_0_0_1 : S32x1x2000x481x2.Slices ![0, 0, 0, 0, 1] S32x1x2000x96x1
  pads_S32x1x2000x96_S32x1x2004x96_000_000_400_000 : S32x1x2000x96.Pads (![0, 0, 4, 0] : Fin 4 → Nat) ![0, 0, 0, 0] ![0, 0, 0, 0] S32x1x2004x96
  h_S_ : 0 < S_.numel
  slices_S32x1x2004x96_S32x1x2000x96_0_0_0_0 : S32x1x2004x96.Slices ![0, 0, 0, 0] S32x1x2000x96
  slices_S32x1x2004x96_S32x1x2000x96_0_0_1_0 : S32x1x2004x96.Slices ![0, 0, 1, 0] S32x1x2000x96
  slices_S32x1x2004x96_S32x1x2000x96_0_0_2_0 : S32x1x2004x96.Slices ![0, 0, 2, 0] S32x1x2000x96
  slices_S32x1x2004x96_S32x1x2000x96_0_0_3_0 : S32x1x2004x96.Slices ![0, 0, 3, 0] S32x1x2000x96
  slices_S32x1x2004x96_S32x1x2000x96_0_0_4_0 : S32x1x2004x96.Slices ![0, 0, 4, 0] S32x1x2000x96
  bcast_S32x1x2000x96_S1x32x1x2000x96_1_2_3_4 : S32x1x2000x96.BroadcastsInDim S1x32x1x2000x96 (![1, 2, 3, 4] : Fin 4 → Fin S1x32x1x2000x96.rank)
  concatenates_S1x32x1x2000x96_S1x32x1x2000x96_S1x32x1x2000x96_S1x32x1x2000x96_S1x32x1x2000x96_S5x32x1x2000x96_d0 : Shape.Concatenates [S1x32x1x2000x96, S1x32x1x2000x96, S1x32x1x2000x96, S1x32x1x2000x96, S1x32x1x2000x96] S5x32x1x2000x96 0
  slices_S32x5x2000x96x2_S32x5x2000x96x1_0_0_0_0_0 : S32x5x2000x96x2.Slices ![0, 0, 0, 0, 0] S32x5x2000x96x1
  shapeCasts_S32x5x2000x96x1_S32x5x2000x96 : S32x5x2000x96x1.ShapeCasts S32x5x2000x96
  transposes_S32x5x2000x96_S5x32x2000x96_1_0_2_3 : S32x5x2000x96.Transposes [1, 0, 2, 3] S5x32x2000x96
  bcast_S5x32x2000x96_S5x32x1x2000x96_0_1_3_4 : S5x32x2000x96.BroadcastsInDim S5x32x1x2000x96 (![0, 1, 3, 4] : Fin 4 → Fin S5x32x1x2000x96.rank)
  slices_S32x5x2000x96x2_S32x5x2000x96x1_0_0_0_0_1 : S32x5x2000x96x2.Slices ![0, 0, 0, 0, 1] S32x5x2000x96x1
  reducesTo_S5x32x1x2000x96_S32x1x2000x96_d0 : S5x32x1x2000x96.ReducesTo [0] S32x1x2000x96
  bcast_S32x1x2000x96_S32x1x2000x96x1_0_1_2_3 : S32x1x2000x96.BroadcastsInDim S32x1x2000x96x1 (![0, 1, 2, 3] : Fin 4 → Fin S32x1x2000x96x1.rank)
  concatenates_S32x1x2000x96x1_S32x1x2000x96x1_S32x1x2000x96x2_d4 : Shape.Concatenates [S32x1x2000x96x1, S32x1x2000x96x1] S32x1x2000x96x2 4
  bcast_S_S1 : S_.BroadcastsInDim S1 (![] : Fin 0 → Fin S1.rank)
  scatter_S32x1x2000x481x2_S1_S32x1x2000x96x2_01234_n_3_0_wf : ScatterDims.WF S32x1x2000x481x2 S1 S32x1x2000x96x2 [0, 1, 2, 3, 4] [] [3] 0

variable [Facts₀]

def scatter_S32x1x2000x481x2_S1_S32x1x2000x96x2_01234_n_3_0 : ScatterDims S32x1x2000x481x2 S1 S32x1x2000x96x2 where
  updateWindowDims := [0, 1, 2, 3, 4]
  insertedWindowDims := []
  scatterDimsToOperandDims := [3]
  indexVectorDim := 0
  wf := scatter_S32x1x2000x481x2_S1_S32x1x2000x96x2_01234_n_3_0_wf

class Facts : Prop extends Facts₀ where

variable [Facts]
-- ==== Proof.K.Runs.lean ====
/-
  What the two runs of the kernel body share: the body's one branch condition (the carry is cleared at the first
  frame block of each batch block, `ti = 0`), decided over the grid; the staging and scratch memrefs a point is
  called with; the region invariant with the carry scratch as a memref; and that neither the spectrogram's input
  window nor the output window is ever cut (their 256-lane block at lane block 0 lies inside the 962 lanes).
-/
import proofs.«422068_j29231547416739_3_alg».proof.Proof.Gen.Kernel.Frame
import proofs.«422068_j29231547416739_3_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's branch condition: the frame-block coordinate is zero. -/
abbrev cond0_0 (i : grid0.Coords) : Prop :=
  (Scalar.cmpi .ne (Scalar.extui (Scalar.cmpi .eq (BitVec.ofNat 32 (i 1).val) 0#32)) 0#32) = 1#1

/-- It holds exactly at the first of each ten consecutive points (ten frame blocks per batch block). -/
theorem hcond0_0 : ∀ t : Fin cfg0.N, cond0_0 (grid0.coords t) ↔ t.val % 10 = 0 :=
  (by decide +kernel : ∀ t : Fin grid0.N, cond0_0 (grid0.coords t) ↔ t.val % 10 = 0)

/-- Each window's current staging memref at point `t`, and its wholeness. -/
abbrev ms0_0 (t : Fin cfg0.N) : Memref sig .tc .vmem S4x1x200x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x5x200x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x200x256 .f32 := win0_2.stage (cfg0.slots t 2)
abbrev hs0_2 (t : Fin cfg0.N) : (ms0_2 t).IsWhole := hstage0_2 ((cfg0.slots t 2).cast nbuf0_2)
/-- The carry scratch: the last four frames of the band, kept from one frame block to the next. -/
abbrev scM0_0 : Memref sig .tc .vmem S4x4x192 .f32 := Memref.whole cc0_scratch0
/-- The scratch as a view: what it holds is stated through it. -/
abbrev VS0_0 : View sig .tc .vmem S4x4x192 .f32 := scM0_0.view
/-- One staging buffer of the output window, through which its contents are stated. -/
abbrev VO0_2 : View sig .tc .vmem S4x1x200x256 .f32 := (Memref.whole cc0_stg2_0 : Memref sig .tc .vmem S4x1x200x256 .f32).view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The spectrogram's input window is never cut: its block of 256 lanes at lane block 0 lies inside the array. -/
theorem hclip0_0 (i : grid0.Coords) (a : Fin 4) : win0_0.clip i a = none := by
  have h0 := (i 0).isLt; have h1 := (i 1).isLt
  show Pipeline.Clip.of (cc0_transform_0 i a) (S4x1x200x256.size a) (S32x1x2000x962.size a) = none
  unfold Pipeline.Clip.of
  refine if_pos ?_
  match a with
  | ⟨0, _⟩ => show ((BitVec.ofNat 32 (i 0).val).toNat + 1) * 4 ≤ 32; simp only [BitVec.toNat_ofNat]; change (i 0).val < 8 at h0; omega
  | ⟨1, _⟩ => show ((0#32 : BitVec 32).toNat + 1) * 1 ≤ 1; decide
  | ⟨2, _⟩ => show ((BitVec.ofNat 32 (i 1).val).toNat + 1) * 200 ≤ 2000; simp only [BitVec.toNat_ofNat]; change (i 1).val < 10 at h1; omega
  | ⟨3, _⟩ => show ((0#32 : BitVec 32).toNat + 1) * 256 ≤ 962; decide

/-- Nor is the output window. -/
theorem hclip0_2 (i : grid0.Coords) (a : Fin 4) : win0_2.clip i a = none := by
  have h0 := (i 0).isLt; have h1 := (i 1).isLt
  show Pipeline.Clip.of (cc0_transform_2 i a) (S4x1x200x256.size a) (S32x1x2000x962.size a) = none
  unfold Pipeline.Clip.of
  refine if_pos ?_
  match a with
  | ⟨0, _⟩ => show ((BitVec.ofNat 32 (i 0).val).toNat + 1) * 4 ≤ 32; simp only [BitVec.toNat_ofNat]; change (i 0).val < 8 at h0; omega
  | ⟨1, _⟩ => show ((0#32 : BitVec 32).toNat + 1) * 1 ≤ 1; decide
  | ⟨2, _⟩ => show ((BitVec.ofNat 32 (i 1).val).toNat + 1) * 200 ≤ 2000; simp only [BitVec.toNat_ofNat]; change (i 1).val < 10 at h1; omega
  | ⟨3, _⟩ => show ((0#32 : BitVec 32).toNat + 1) * 256 ≤ 962; decide

end Cert.Kernel.Hand

end
-- ==== Proof.K.RunA.lean ====
/-
  The kernel body run on any whole staging memrefs, at a point where the carry is cleared first.
-/
import proofs.«422068_j29231547416739_3_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at a point that CLEARS the carry (the first frame block of a batch block): what its stores leave in the
    output's staging memref and in the carry scratch, as pieces (last first), with the proof that on whole staging
    memrefs — the two inputs' at their contents, the output's and the scratch at anything — the body runs to the
    continuation holding the inputs' as they were and the other two with those pieces written. -/
noncomputable def kernelRun0_A (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : cond0_0 i)
    (x0 : Vec F S4x1x200x256 .f32) (x1 : Vec F S4x5x200x192 .f32) :
    Σ' (L2 : List (View.Piece (Elt F) S4x1x200x256 .f32)), { LS0 : List (View.Piece (Elt F) S4x4x192 .f32) //
      ∀ (xo2 : Vec F S4x1x200x256 .f32) (xs0 : Vec F S4x4x192 .f32) (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__df_kernel i arg2 harg2 arg3 harg3 arg4 harg4 arg5 harg5) K } := by
  refine ⟨?_, ?_, fun xo2 xs0 E K => ?run⟩
  case run =>
    simp only [cc0__df_kernel_eq_skeleton]; unfold cc0__df_kernel_skel
    simp only [k0_part3_eq_skeleton]; unfold k0_part3_skel
    simp only [k0_part1_eq_skeleton, k0_part2_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.RunB.lean ====
/-
  The kernel body run on any whole staging memrefs, at a point where the carry of the point before is used.
-/
import proofs.«422068_j29231547416739_3_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at a point that KEEPS the carry (every later frame block of a batch block): the same, with the scratch
    arriving at the contents `xs0` the point before left, which the pieces of the output depend on. -/
noncomputable def kernelRun0_B (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : ¬cond0_0 i)
    (x0 : Vec F S4x1x200x256 .f32) (x1 : Vec F S4x5x200x192 .f32) (xs0 : Vec F S4x4x192 .f32) :
    Σ' (L2 : List (View.Piece (Elt F) S4x1x200x256 .f32)), { LS0 : List (View.Piece (Elt F) S4x4x192 .f32) //
      ∀ (xo2 : Vec F S4x1x200x256 .f32) (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__df_kernel i arg2 harg2 arg3 harg3 arg4 harg4 arg5 harg5) K } := by
  refine ⟨?_, ?_, fun xo2 E K => ?run⟩
  case run =>
    simp only [cc0__df_kernel_eq_skeleton]; unfold cc0__df_kernel_skel
    simp only [k0_part3_eq_skeleton]; unfold k0_part3_skel
    simp only [k0_part1_eq_skeleton, k0_part2_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Frame.lean ====
/-
  The frame of the program: what the output's staging buffer and the carry scratch hold after each grid point
  (by recursion on the point: a point that is not the first of its batch block reads the carry the point before
  left), the pipeline's proof data, the body obligation from the two runs of the body, the run of @main and the
  frame claim. Written for any float instance.
-/
import proofs.«422068_j29231547416739_3_alg».proof.Proof.K.RunA
import proofs.«422068_j29231547416739_3_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves, as contents -/

/-- The clearing run's pieces for the output tile its block: the 192 filtered lanes and the 64 lanes passed through. -/
theorem cover0_A_2 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : cond0_0 i) (x0 : Vec F S4x1x200x256 .f32) (x1 : Vec F S4x5x200x192 .f32) (y : S4x1x200x256.Idx) :
    ∃ pc ∈ (kernelRun0_A c i arg2 harg2 arg3 harg3 arg4 harg4 arg5 harg5 hc0 x0 x1).1, y ∈ pc.1.set :=
  View.cover_of_tiledBy (kernelRun0_A c i arg2 harg2 arg3 harg3 arg4 harg4 arg5 harg5 hc0 x0 x1).1 ![4, 1, 200, 64] (by sl_kernel_rfl) y

/-- What the clearing run leaves in the output's staging buffer: its pieces read back. -/
def out0_A_2 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : cond0_0 i) (x0 : Vec F S4x1x200x256 .f32) (x1 : Vec F S4x5x200x192 .f32) : Vec F S4x1x200x256 .f32 :=
  VO0_2.read (Elt F) (VO0_2.writes (Elt F) VO0_2.junk (kernelRun0_A c i arg2 harg2 arg3 harg3 arg4 harg4 arg5 harg5 hc0 x0 x1).1)

/-- The clearing run's pieces for the carry scratch cover it. -/
theorem scover0_A_0 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : cond0_0 i) (x0 : Vec F S4x1x200x256 .f32) (x1 : Vec F S4x5x200x192 .f32) (y : S4x4x192.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S4x4x192.size (by sl_kernel_rfl) y

/-- What the clearing run leaves in the carry scratch. -/
def sout0_A_0 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : cond0_0 i) (x0 : Vec F S4x1x200x256 .f32) (x1 : Vec F S4x5x200x192 .f32) : Vec F S4x4x192 .f32 :=
  VS0_0.read (Elt F) (VS0_0.writes (Elt F) VS0_0.junk (kernelRun0_A c i arg2 harg2 arg3 harg3 arg4 harg4 arg5 harg5 hc0 x0 x1).2.1)

/-- The keeping run's pieces for the output tile its block. -/
theorem cover0_B_2 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : ¬cond0_0 i) (x0 : Vec F S4x1x200x256 .f32) (x1 : Vec F S4x5x200x192 .f32) (xs0 : Vec F S4x4x192 .f32) (y : S4x1x200x256.Idx) :
    ∃ pc ∈ (kernelRun0_B c i arg2 harg2 arg3 harg3 arg4 harg4 arg5 harg5 hc0 x0 x1 xs0).1, y ∈ pc.1.set :=
  View.cover_of_tiledBy (kernelRun0_B c i arg2 harg2 arg3 harg3 arg4 harg4 arg5 harg5 hc0 x0 x1 xs0).1 ![4, 1, 200, 64] (by sl_kernel_rfl) y

/-- What the keeping run leaves in the output's staging buffer. -/
def out0_B_2 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : ¬cond0_0 i) (x0 : Vec F S4x1x200x256 .f32) (x1 : Vec F S4x5x200x192 .f32) (xs0 : Vec F S4x4x192 .f32) : Vec F S4x1x200x256 .f32 :=
  VO0_2.read (Elt F) (VO0_2.writes (Elt F) VO0_2.junk (kernelRun0_B c i arg2 harg2 arg3 harg3 arg4 harg4 arg5 harg5 hc0 x0 x1 xs0).1)

/-- The keeping run's pieces for the carry scratch cover it. -/
theorem scover0_B_0 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : ¬cond0_0 i) (x0 : Vec F S4x1x200x256 .f32) (x1 : Vec F S4x5x200x192 .f32) (xs0 : Vec F S4x4x192 .f32) (y : S4x4x192.Idx) :
    ∃ pc ∈ (kernelRun0_B c i arg2 harg2 arg3 harg3 arg4 harg4 arg5 harg5 hc0 x0 x1 xs0).2.1, y ∈ pc.1.set :=
  View.cover_of_tiledL (kernelRun0_B c i arg2 harg2 arg3 harg3 arg4 harg4 arg5 harg5 hc0 x0 x1 xs0).2.1 S4x4x192.size (by sl_kernel_rfl) y

/-- What the keeping run leaves in the carry scratch. -/
def sout0_B_0 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : ¬cond0_0 i) (x0 : Vec F S4x1x200x256 .f32) (x1 : Vec F S4x5x200x192 .f32) (xs0 : Vec F S4x4x192 .f32) : Vec F S4x4x192 .f32 :=
  VS0_0.read (Elt F) (VS0_0.writes (Elt F) VS0_0.junk (kernelRun0_B c i arg2 harg2 arg3 harg3 arg4 harg4 arg5 harg5 hc0 x0 x1 xs0).2.1)

/-! ## What the buffers hold point by point -/

/-- The windows' arrays as the region finds them. -/
abbrev A0 (c : Dev nD) (w : Fin cfg0.W) : Buf (Elt F) ((cfg0.win w).arr.view.loc (c.tc : Thread nD τ)) := V m c (Pipeline.arrRef spec0 w)

/-- What the spectrogram window's staging buffer holds at point `t`: its block there (the window is fetched at every
    point and never cut). -/
def X0 (c : Dev nD) (t : Fin cfg0.N) : Vec F S4x1x200x256 .f32 := Pipeline.heldIn cfg0 (A0 m c) 0 t.val t.isLt

/-- What the output's staging buffer and the carry scratch hold after the body at position `n`: at the first point of a
    batch block the clearing run's contents; at any other the keeping run's, over the carry the point before left. -/
def outsAt0 (c : Dev nD) : (n : ℕ) → n < cfg0.N → Vec F S4x1x200x256 .f32 × Vec F S4x4x192 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (X0 m c ⟨0, hn⟩) (iblk m c 1 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (X0 m c ⟨0, hn⟩) (iblk m c 1 ⟨0, hn⟩))
  | n + 1, hn =>
    if h0 : (n + 1) % 10 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (X0 m c ⟨n + 1, hn⟩) (iblk m c 1 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (X0 m c ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (X0 m c ⟨n + 1, hn⟩) (iblk m c 1 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (X0 m c ⟨n + 1, hn⟩) (iblk m c 1 ⟨n + 1, hn⟩) (outsAt0 c n (Nat.lt_of_succ_lt hn)).2)

/-- `outsAt0` at a point that clears the carry. -/
theorem outsAt0_A (c : Dev nD) (t : Fin cfg0.N) (h0 : t.val % 10 = 0) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (X0 m c t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (X0 m c t) (iblk m c 1 t)) := by
  obtain ⟨n, hn⟩ := t
  cases n with
  | zero => exact rfl
  | succ n => exact (dif_pos h0).trans rfl

/-- `outsAt0` at a point that keeps it: over what the point before left. -/
theorem outsAt0_B (c : Dev nD) (t : Fin cfg0.N) (h0 : ¬t.val % 10 = 0) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (X0 m c t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (X0 m c t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the class's (the scratch at anything); afterwards
    the carry scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => X0 m c t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = X0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- The spectrogram window's buffer holds its block at every point (never cut, the body only reads it). -/
theorem before0_0 (c : Dev nD) (t : Fin cfg0.N) (d) : (dats m 0 c).before 0 t d = X0 m c t :=
  Pipeline.Dat.before_eq_heldIn (dats m 0 c) 0 rfl (fun _ => rfl) (fun i a => hclip0_0 i a) (fun t => after0_0 m c t) t d

/-- The coefficient window's buffer holds its block at every point. -/
theorem before0_1 (c : Dev nD) (t : Fin cfg0.N) (d) : (dats m 0 c).before 1 t d = iblk m c 1 t :=
  before0_1_of m (dats m 0 c) (A_eq m c 1) (after0_1 m c) t d

/-- The output's buffer is fresh at every point (written back at each). -/
theorem before0_2 (c : Dev nD) (t : Fin cfg0.N) (d) : (dats m 0 c).before 2 t d = d :=
  Pipeline.Dat.before_out_reset (dats m 0 c) 2 rfl t
    (by by_cases hz : t.val = 0
        · exact .inl hz
        · exact .inr ⟨hz, flush0_2 _⟩) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks, the output's anything; the point's position among the
    ten of its batch block says which run applies; the invariant hands the body the carry the point before left (anything at the
    very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  by_cases h0 : t.val % 10 = 0
  · rw [outsAt0_A m c t h0]
    unfold out0_A_2 sout0_A_0; (try dsimp only)
    by_cases hz : t.val = 0
    · rw [PhiS_castSucc m c t, PhiS_zero m c _ _ hz, PhiA0_eq]
      iintro ⟨⟨⟨%ds, HS0⟩, Hg⟩, Ho, ⟨%d0, H0⟩, ⟨%d1, H1⟩, ⟨%d2, H2⟩⟩
      iapply ((kernelRun0_A c (grid0.coords t) _ _ _ _ _ _ _ _ ((hcond0_0 t).mpr h0) (X0 m c t) (iblk m c 1 t)).2.2 d2 ds Set.univ _)
      isplitl [H0]; · iexact H0
      isplitl [H1]; · iexact H1
      isplitl [H2]; · iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (X0 m c t) (iblk m c 1 t)).2.2 d2 _ Set.univ _)
      isplitl [H0]; · iexact H0
      isplitl [H1]; · iexact H1
      isplitl [H2]; · iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · rw [outsAt0_B m c t h0]
    unfold out0_B_2 sout0_B_0; (try dsimp only)
    have hz : t.val ≠ 0 := fun hz => h0 (by rw [hz])
    rw [PhiS_castSucc m c t, PhiS_pos m c _ _ hz]
    iintro ⟨⟨HS0, Hg⟩, Ho, ⟨%d0, H0⟩, ⟨%d1, H1⟩, ⟨%d2, H2⟩⟩
    iapply ((kernelRun0_B c (grid0.coords t) _ _ _ _ _ _ _ _ (fun h => h0 ((hcond0_0 t).mp h)) (X0 m c t) (iblk m c 1 t) _).2.2 d2 Set.univ _)
    isplitl [H0]; · iexact H0
    isplitl [H1]; · iexact H1
    isplitl [H2]; · iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 80 := N_0; omega), PhiA0_eq]
  iintro ⟨HS0, Hg⟩
  isplitl [HS0]
  · iexists _; iexact HS0
  iexact Hg

/-! ## The run and the frame -/

set_option backward.isDefEq.respectTransparency.types false in
/-- Every weakly fair execution of @main terminates, every array of the pipeline ending at what the library computes from
    the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any float instance: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Runs.lean ====
/-
  What the two runs of the kernel body share: the body's one branch condition (the carry is cleared at the first
  frame block of each batch block, `ti = 0`), decided over the grid; the staging and scratch memrefs a point is
  called with; the region invariant with the carry scratch as a memref; and that neither the spectrogram's input
  window nor the output window is ever cut (their 256-lane block at lane block 0 lies inside the 962 lanes).
-/
import proofs.«422068_j29231547416739_3_alg».proof.Proof.Gen.KernelIdeal.Frame
import proofs.«422068_j29231547416739_3_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's branch condition: the frame-block coordinate is zero. -/
abbrev cond0_0 (i : grid0.Coords) : Prop :=
  (Scalar.cmpi .ne (Scalar.extui (Scalar.cmpi .eq (BitVec.ofNat 32 (i 1).val) 0#32)) 0#32) = 1#1

/-- It holds exactly at the first of each ten consecutive points (ten frame blocks per batch block). -/
theorem hcond0_0 : ∀ t : Fin cfg0.N, cond0_0 (grid0.coords t) ↔ t.val % 10 = 0 :=
  (by decide +kernel : ∀ t : Fin grid0.N, cond0_0 (grid0.coords t) ↔ t.val % 10 = 0)

/-- Each window's current staging memref at point `t`, and its wholeness. -/
abbrev ms0_0 (t : Fin cfg0.N) : Memref sig .tc .vmem S4x1x200x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x5x200x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x200x256 .f32 := win0_2.stage (cfg0.slots t 2)
abbrev hs0_2 (t : Fin cfg0.N) : (ms0_2 t).IsWhole := hstage0_2 ((cfg0.slots t 2).cast nbuf0_2)
/-- The carry scratch: the last four frames of the band, kept from one frame block to the next. -/
abbrev scM0_0 : Memref sig .tc .vmem S4x4x192 .f32 := Memref.whole cc0_scratch0
/-- The scratch as a view: what it holds is stated through it. -/
abbrev VS0_0 : View sig .tc .vmem S4x4x192 .f32 := scM0_0.view
/-- One staging buffer of the output window, through which its contents are stated. -/
abbrev VO0_2 : View sig .tc .vmem S4x1x200x256 .f32 := (Memref.whole cc0_stg2_0 : Memref sig .tc .vmem S4x1x200x256 .f32).view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The spectrogram's input window is never cut: its block of 256 lanes at lane block 0 lies inside the array. -/
theorem hclip0_0 (i : grid0.Coords) (a : Fin 4) : win0_0.clip i a = none := by
  have h0 := (i 0).isLt; have h1 := (i 1).isLt
  show Pipeline.Clip.of (cc0_transform_0 i a) (S4x1x200x256.size a) (S32x1x2000x962.size a) = none
  unfold Pipeline.Clip.of
  refine if_pos ?_
  match a with
  | ⟨0, _⟩ => show ((BitVec.ofNat 32 (i 0).val).toNat + 1) * 4 ≤ 32; simp only [BitVec.toNat_ofNat]; change (i 0).val < 8 at h0; omega
  | ⟨1, _⟩ => show ((0#32 : BitVec 32).toNat + 1) * 1 ≤ 1; decide
  | ⟨2, _⟩ => show ((BitVec.ofNat 32 (i 1).val).toNat + 1) * 200 ≤ 2000; simp only [BitVec.toNat_ofNat]; change (i 1).val < 10 at h1; omega
  | ⟨3, _⟩ => show ((0#32 : BitVec 32).toNat + 1) * 256 ≤ 962; decide

/-- Nor is the output window. -/
theorem hclip0_2 (i : grid0.Coords) (a : Fin 4) : win0_2.clip i a = none := by
  have h0 := (i 0).isLt; have h1 := (i 1).isLt
  show Pipeline.Clip.of (cc0_transform_2 i a) (S4x1x200x256.size a) (S32x1x2000x962.size a) = none
  unfold Pipeline.Clip.of
  refine if_pos ?_
  match a with
  | ⟨0, _⟩ => show ((BitVec.ofNat 32 (i 0).val).toNat + 1) * 4 ≤ 32; simp only [BitVec.toNat_ofNat]; change (i 0).val < 8 at h0; omega
  | ⟨1, _⟩ => show ((0#32 : BitVec 32).toNat + 1) * 1 ≤ 1; decide
  | ⟨2, _⟩ => show ((BitVec.ofNat 32 (i 1).val).toNat + 1) * 200 ≤ 2000; simp only [BitVec.toNat_ofNat]; change (i 1).val < 10 at h1; omega
  | ⟨3, _⟩ => show ((0#32 : BitVec 32).toNat + 1) * 256 ≤ 962; decide

end Cert.KernelIdeal.Hand

end
-- ==== Proof.KI.RunA.lean ====
/-
  The kernel body run on any whole staging memrefs, at a point where the carry is cleared first.
-/
import proofs.«422068_j29231547416739_3_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at a point that CLEARS the carry (the first frame block of a batch block): what its stores leave in the
    output's staging memref and in the carry scratch, as pieces (last first), with the proof that on whole staging
    memrefs — the two inputs' at their contents, the output's and the scratch at anything — the body runs to the
    continuation holding the inputs' as they were and the other two with those pieces written. -/
noncomputable def kernelRun0_A (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : cond0_0 i)
    (x0 : Vec F S4x1x200x256 .f32) (x1 : Vec F S4x5x200x192 .f32) :
    Σ' (L2 : List (View.Piece (Elt F) S4x1x200x256 .f32)), { LS0 : List (View.Piece (Elt F) S4x4x192 .f32) //
      ∀ (xo2 : Vec F S4x1x200x256 .f32) (xs0 : Vec F S4x4x192 .f32) (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__df_kernel i arg2 harg2 arg3 harg3 arg4 harg4 arg5 harg5) K } := by
  refine ⟨?_, ?_, fun xo2 xs0 E K => ?run⟩
  case run =>
    simp only [cc0__df_kernel_eq_skeleton]; unfold cc0__df_kernel_skel
    simp only [k0_part3_eq_skeleton]; unfold k0_part3_skel
    simp only [k0_part1_eq_skeleton, k0_part2_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.RunB.lean ====
/-
  The kernel body run on any whole staging memrefs, at a point where the carry of the point before is used.
-/
import proofs.«422068_j29231547416739_3_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at a point that KEEPS the carry (every later frame block of a batch block): the same, with the scratch
    arriving at the contents `xs0` the point before left, which the pieces of the output depend on. -/
noncomputable def kernelRun0_B (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : ¬cond0_0 i)
    (x0 : Vec F S4x1x200x256 .f32) (x1 : Vec F S4x5x200x192 .f32) (xs0 : Vec F S4x4x192 .f32) :
    Σ' (L2 : List (View.Piece (Elt F) S4x1x200x256 .f32)), { LS0 : List (View.Piece (Elt F) S4x4x192 .f32) //
      ∀ (xo2 : Vec F S4x1x200x256 .f32) (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__df_kernel i arg2 harg2 arg3 harg3 arg4 harg4 arg5 harg5) K } := by
  refine ⟨?_, ?_, fun xo2 E K => ?run⟩
  case run =>
    simp only [cc0__df_kernel_eq_skeleton]; unfold cc0__df_kernel_skel
    simp only [k0_part3_eq_skeleton]; unfold k0_part3_skel
    simp only [k0_part1_eq_skeleton, k0_part2_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Frame.lean ====
/-
  The frame of the program: what the output's staging buffer and the carry scratch hold after each grid point
  (by recursion on the point: a point that is not the first of its batch block reads the carry the point before
  left), the pipeline's proof data, the body obligation from the two runs of the body, the run of @main and the
  frame claim. Written for any float instance.
-/
import proofs.«422068_j29231547416739_3_alg».proof.Proof.KI.RunA
import proofs.«422068_j29231547416739_3_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves, as contents -/

/-- The clearing run's pieces for the output tile its block: the 192 filtered lanes and the 64 lanes passed through. -/
theorem cover0_A_2 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : cond0_0 i) (x0 : Vec F S4x1x200x256 .f32) (x1 : Vec F S4x5x200x192 .f32) (y : S4x1x200x256.Idx) :
    ∃ pc ∈ (kernelRun0_A c i arg2 harg2 arg3 harg3 arg4 harg4 arg5 harg5 hc0 x0 x1).1, y ∈ pc.1.set :=
  View.cover_of_tiledBy (kernelRun0_A c i arg2 harg2 arg3 harg3 arg4 harg4 arg5 harg5 hc0 x0 x1).1 ![4, 1, 200, 64] (by sl_kernel_rfl) y

/-- What the clearing run leaves in the output's staging buffer: its pieces read back. -/
def out0_A_2 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : cond0_0 i) (x0 : Vec F S4x1x200x256 .f32) (x1 : Vec F S4x5x200x192 .f32) : Vec F S4x1x200x256 .f32 :=
  VO0_2.read (Elt F) (VO0_2.writes (Elt F) VO0_2.junk (kernelRun0_A c i arg2 harg2 arg3 harg3 arg4 harg4 arg5 harg5 hc0 x0 x1).1)

/-- The clearing run's pieces for the carry scratch cover it. -/
theorem scover0_A_0 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : cond0_0 i) (x0 : Vec F S4x1x200x256 .f32) (x1 : Vec F S4x5x200x192 .f32) (y : S4x4x192.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S4x4x192.size (by sl_kernel_rfl) y

/-- What the clearing run leaves in the carry scratch. -/
def sout0_A_0 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : cond0_0 i) (x0 : Vec F S4x1x200x256 .f32) (x1 : Vec F S4x5x200x192 .f32) : Vec F S4x4x192 .f32 :=
  VS0_0.read (Elt F) (VS0_0.writes (Elt F) VS0_0.junk (kernelRun0_A c i arg2 harg2 arg3 harg3 arg4 harg4 arg5 harg5 hc0 x0 x1).2.1)

/-- The keeping run's pieces for the output tile its block. -/
theorem cover0_B_2 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : ¬cond0_0 i) (x0 : Vec F S4x1x200x256 .f32) (x1 : Vec F S4x5x200x192 .f32) (xs0 : Vec F S4x4x192 .f32) (y : S4x1x200x256.Idx) :
    ∃ pc ∈ (kernelRun0_B c i arg2 harg2 arg3 harg3 arg4 harg4 arg5 harg5 hc0 x0 x1 xs0).1, y ∈ pc.1.set :=
  View.cover_of_tiledBy (kernelRun0_B c i arg2 harg2 arg3 harg3 arg4 harg4 arg5 harg5 hc0 x0 x1 xs0).1 ![4, 1, 200, 64] (by sl_kernel_rfl) y

/-- What the keeping run leaves in the output's staging buffer. -/
def out0_B_2 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : ¬cond0_0 i) (x0 : Vec F S4x1x200x256 .f32) (x1 : Vec F S4x5x200x192 .f32) (xs0 : Vec F S4x4x192 .f32) : Vec F S4x1x200x256 .f32 :=
  VO0_2.read (Elt F) (VO0_2.writes (Elt F) VO0_2.junk (kernelRun0_B c i arg2 harg2 arg3 harg3 arg4 harg4 arg5 harg5 hc0 x0 x1 xs0).1)

/-- The keeping run's pieces for the carry scratch cover it. -/
theorem scover0_B_0 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : ¬cond0_0 i) (x0 : Vec F S4x1x200x256 .f32) (x1 : Vec F S4x5x200x192 .f32) (xs0 : Vec F S4x4x192 .f32) (y : S4x4x192.Idx) :
    ∃ pc ∈ (kernelRun0_B c i arg2 harg2 arg3 harg3 arg4 harg4 arg5 harg5 hc0 x0 x1 xs0).2.1, y ∈ pc.1.set :=
  View.cover_of_tiledL (kernelRun0_B c i arg2 harg2 arg3 harg3 arg4 harg4 arg5 harg5 hc0 x0 x1 xs0).2.1 S4x4x192.size (by sl_kernel_rfl) y

/-- What the keeping run leaves in the carry scratch. -/
def sout0_B_0 (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : ¬cond0_0 i) (x0 : Vec F S4x1x200x256 .f32) (x1 : Vec F S4x5x200x192 .f32) (xs0 : Vec F S4x4x192 .f32) : Vec F S4x4x192 .f32 :=
  VS0_0.read (Elt F) (VS0_0.writes (Elt F) VS0_0.junk (kernelRun0_B c i arg2 harg2 arg3 harg3 arg4 harg4 arg5 harg5 hc0 x0 x1 xs0).2.1)

/-! ## What the buffers hold point by point -/

/-- The windows' arrays as the region finds them. -/
abbrev A0 (c : Dev nD) (w : Fin cfg0.W) : Buf (Elt F) ((cfg0.win w).arr.view.loc (c.tc : Thread nD τ)) := V m c (Pipeline.arrRef spec0 w)

/-- What the spectrogram window's staging buffer holds at point `t`: its block there (the window is fetched at every
    point and never cut). -/
def X0 (c : Dev nD) (t : Fin cfg0.N) : Vec F S4x1x200x256 .f32 := Pipeline.heldIn cfg0 (A0 m c) 0 t.val t.isLt

/-- What the output's staging buffer and the carry scratch hold after the body at position `n`: at the first point of a
    batch block the clearing run's contents; at any other the keeping run's, over the carry the point before left. -/
def outsAt0 (c : Dev nD) : (n : ℕ) → n < cfg0.N → Vec F S4x1x200x256 .f32 × Vec F S4x4x192 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (X0 m c ⟨0, hn⟩) (iblk m c 1 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (X0 m c ⟨0, hn⟩) (iblk m c 1 ⟨0, hn⟩))
  | n + 1, hn =>
    if h0 : (n + 1) % 10 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (X0 m c ⟨n + 1, hn⟩) (iblk m c 1 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (X0 m c ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (X0 m c ⟨n + 1, hn⟩) (iblk m c 1 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (X0 m c ⟨n + 1, hn⟩) (iblk m c 1 ⟨n + 1, hn⟩) (outsAt0 c n (Nat.lt_of_succ_lt hn)).2)

/-- `outsAt0` at a point that clears the carry. -/
theorem outsAt0_A (c : Dev nD) (t : Fin cfg0.N) (h0 : t.val % 10 = 0) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (X0 m c t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (X0 m c t) (iblk m c 1 t)) := by
  obtain ⟨n, hn⟩ := t
  cases n with
  | zero => exact rfl
  | succ n => exact (dif_pos h0).trans rfl

/-- `outsAt0` at a point that keeps it: over what the point before left. -/
theorem outsAt0_B (c : Dev nD) (t : Fin cfg0.N) (h0 : ¬t.val % 10 = 0) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (X0 m c t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (X0 m c t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the class's (the scratch at anything); afterwards
    the carry scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => X0 m c t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = X0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- The spectrogram window's buffer holds its block at every point (never cut, the body only reads it). -/
theorem before0_0 (c : Dev nD) (t : Fin cfg0.N) (d) : (dats m 0 c).before 0 t d = X0 m c t :=
  Pipeline.Dat.before_eq_heldIn (dats m 0 c) 0 rfl (fun _ => rfl) (fun i a => hclip0_0 i a) (fun t => after0_0 m c t) t d

/-- The coefficient window's buffer holds its block at every point. -/
theorem before0_1 (c : Dev nD) (t : Fin cfg0.N) (d) : (dats m 0 c).before 1 t d = iblk m c 1 t :=
  before0_1_of m (dats m 0 c) (A_eq m c 1) (after0_1 m c) t d

/-- The output's buffer is fresh at every point (written back at each). -/
theorem before0_2 (c : Dev nD) (t : Fin cfg0.N) (d) : (dats m 0 c).before 2 t d = d :=
  Pipeline.Dat.before_out_reset (dats m 0 c) 2 rfl t
    (by by_cases hz : t.val = 0
        · exact .inl hz
        · exact .inr ⟨hz, flush0_2 _⟩) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks, the output's anything; the point's position among the
    ten of its batch block says which run applies; the invariant hands the body the carry the point before left (anything at the
    very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  by_cases h0 : t.val % 10 = 0
  · rw [outsAt0_A m c t h0]
    unfold out0_A_2 sout0_A_0; (try dsimp only)
    by_cases hz : t.val = 0
    · rw [PhiS_castSucc m c t, PhiS_zero m c _ _ hz, PhiA0_eq]
      iintro ⟨⟨⟨%ds, HS0⟩, Hg⟩, Ho, ⟨%d0, H0⟩, ⟨%d1, H1⟩, ⟨%d2, H2⟩⟩
      iapply ((kernelRun0_A c (grid0.coords t) _ _ _ _ _ _ _ _ ((hcond0_0 t).mpr h0) (X0 m c t) (iblk m c 1 t)).2.2 d2 ds Set.univ _)
      isplitl [H0]; · iexact H0
      isplitl [H1]; · iexact H1
      isplitl [H2]; · iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (X0 m c t) (iblk m c 1 t)).2.2 d2 _ Set.univ _)
      isplitl [H0]; · iexact H0
      isplitl [H1]; · iexact H1
      isplitl [H2]; · iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · rw [outsAt0_B m c t h0]
    unfold out0_B_2 sout0_B_0; (try dsimp only)
    have hz : t.val ≠ 0 := fun hz => h0 (by rw [hz])
    rw [PhiS_castSucc m c t, PhiS_pos m c _ _ hz]
    iintro ⟨⟨HS0, Hg⟩, Ho, ⟨%d0, H0⟩, ⟨%d1, H1⟩, ⟨%d2, H2⟩⟩
    iapply ((kernelRun0_B c (grid0.coords t) _ _ _ _ _ _ _ _ (fun h => h0 ((hcond0_0 t).mp h)) (X0 m c t) (iblk m c 1 t) _).2.2 d2 Set.univ _)
    isplitl [H0]; · iexact H0
    isplitl [H1]; · iexact H1
    isplitl [H2]; · iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 80 := N_0; omega), PhiA0_eq]
  iintro ⟨HS0, Hg⟩
  isplitl [HS0]
  · iexists _; iexact HS0
  iexact Hg

/-! ## The run and the frame -/

set_option backward.isDefEq.respectTransparency.types false in
/-- Every weakly fair execution of @main terminates, every array of the pipeline ending at what the library computes from
    the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any float instance: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Pieces.lean ====
/-
  What each run of the body leaves, in closed form over what it loaded: the output block is the filtered band beside
  the block's own last 64 lanes, and the carry scratch ends at the last four frames of the block's band — after a
  point that first cleared the carry, the band was filtered over a zero carry.
-/
import proofs.«422068_j29231547416739_3_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Tap `n` of the coefficient block, as the body loads it. -/
abbrev tap0 (x1 : Vec F S4x5x200x192 .f32) : Vec F S4x1x200x192 .f32 :=
  View.ld x1 (Rect.unit (s := S4x5x200x192) ![0, 0, 0, 0] S4x1x200x192.size inb_S4x5x200x192_S4x1x200x192_0_0_0_0)
abbrev tap1 (x1 : Vec F S4x5x200x192 .f32) : Vec F S4x1x200x192 .f32 :=
  View.ld x1 (Rect.unit (s := S4x5x200x192) ![0, 1, 0, 0] S4x1x200x192.size inb_S4x5x200x192_S4x1x200x192_0_1_0_0)
abbrev tap2 (x1 : Vec F S4x5x200x192 .f32) : Vec F S4x1x200x192 .f32 :=
  View.ld x1 (Rect.unit (s := S4x5x200x192) ![0, 2, 0, 0] S4x1x200x192.size inb_S4x5x200x192_S4x1x200x192_0_2_0_0)
abbrev tap3 (x1 : Vec F S4x5x200x192 .f32) : Vec F S4x1x200x192 .f32 :=
  View.ld x1 (Rect.unit (s := S4x5x200x192) ![0, 3, 0, 0] S4x1x200x192.size inb_S4x5x200x192_S4x1x200x192_0_3_0_0)
abbrev tap4 (x1 : Vec F S4x5x200x192 .f32) : Vec F S4x1x200x192 .f32 :=
  View.ld x1 (Rect.unit (s := S4x5x200x192) ![0, 4, 0, 0] S4x1x200x192.size inb_S4x5x200x192_S4x1x200x192_0_4_0_0)

/-- The payload stored into the first 192 lanes of the output block, as a function of what the body loaded: the
    spectrogram block, the carry and the coefficient block. -/
def outPay (x0 : Vec F S4x1x200x256 .f32) (S : Vec F S4x4x192 .f32) (x1 : Vec F S4x5x200x192 .f32) : Vec F S4x1x200x192 .f32 :=
  k0_pay15 (F := F) (k0_pay5 x0 S) k0_pay6
    (k0_pay9 (k0_pay5 x0 S) k0_pay6 (k0_pay7 x0 S (tap0 x1)) (k0_pay8 x0 S) (tap1 x1) (tap2 x1))
    (k0_pay10 (k0_pay5 x0 S)) (k0_pay11 (tap3 x1)) (k0_pay12 k0_pay6 (tap3 x1)) (k0_pay13 (tap3 x1)) (tap4 x1)

/-- The whole output block a point leaves: the filtered band in lanes 0‥191, the block's own lanes 192‥255 beside it. -/
def outBlk (x0 : Vec F S4x1x200x256 .f32) (S : Vec F S4x4x192 .f32) (x1 : Vec F S4x5x200x192 .f32) : Vec F S4x1x200x256 .f32 :=
  View.canon [(⟨Rect.unit (s := S4x1x200x256) ![0, 0, 0, 192] S4x1x200x64.size inb_S4x1x200x256_S4x1x200x64_0_0_0_192, k0_pay16 (k0_pay4 x0)⟩ : View.Piece (Elt F) S4x1x200x256 .f32),
    ⟨Rect.unit (s := S4x1x200x256) ![0, 0, 0, 0] S4x1x200x192.size inb_S4x1x200x256_S4x1x200x192_0_0_0_0, outPay x0 S x1⟩]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- A point that keeps the carry leaves the output block computed from its two blocks and the carry it was handed. -/
theorem out0_B_2_eq (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : ¬cond0_0 i)
    (x0 : Vec F S4x1x200x256 .f32) (x1 : Vec F S4x5x200x192 .f32) (xs0 : Vec F S4x4x192 .f32) :
    out0_B_2 c i arg2 harg2 arg3 harg3 arg4 harg4 arg5 harg5 hc0 x0 x1 xs0 = outBlk x0 xs0 x1 := by
  unfold out0_B_2
  rw [View.read_writes_eq_canon _ _ _ (cover0_B_2 c i arg2 harg2 arg3 harg3 arg4 harg4 arg5 harg5 hc0 x0 x1 xs0)]
  unfold kernelRun0_B; dsimp only
  sl_unfold_words
  simp only [View.readAt_eq_ld, harg2.read_unread, harg3.read_unread, harg5.read_unread, View.ld_unit_zero (S := S4x1x200x256) hz4, View.ld_unit_zero (S := S4x4x192) hz3, View.readCov_unit_zero (S := S4x4x192) _ hz3]
  rfl

/-- and in the scratch the last four frames of its block's band. -/
theorem sout0_B_0_eq (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : ¬cond0_0 i)
    (x0 : Vec F S4x1x200x256 .f32) (x1 : Vec F S4x5x200x192 .f32) (xs0 : Vec F S4x4x192 .f32) :
    sout0_B_0 c i arg2 harg2 arg3 harg3 arg4 harg4 arg5 harg5 hc0 x0 x1 xs0 = k0_pay14 (k0_pay3 x0) := by
  unfold sout0_B_0
  rw [View.read_writes_eq_canon _ _ _ (scover0_B_0 c i arg2 harg2 arg3 harg3 arg4 harg4 arg5 harg5 hc0 x0 x1 xs0)]
  unfold kernelRun0_B; dsimp only
  sl_unfold_words
  rw [View.canon_unit_zero (S := S4x4x192) hz3]
  simp only [View.readAt_eq_ld, harg2.read_unread, harg3.read_unread, harg5.read_unread, View.ld_unit_zero (S := S4x1x200x256) hz4, View.ld_unit_zero (S := S4x4x192) hz3, View.readCov_unit_zero (S := S4x4x192) _ hz3]

/-- A point that clears the carry leaves the output block computed over the zero carry, -/
theorem out0_A_2_eq (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : cond0_0 i)
    (x0 : Vec F S4x1x200x256 .f32) (x1 : Vec F S4x5x200x192 .f32) :
    out0_A_2 c i arg2 harg2 arg3 harg3 arg4 harg4 arg5 harg5 hc0 x0 x1 = outBlk x0 (k0_pay1 (F := F)) x1 := by
  unfold out0_A_2
  rw [View.read_writes_eq_canon _ _ _ (cover0_A_2 c i arg2 harg2 arg3 harg3 arg4 harg4 arg5 harg5 hc0 x0 x1)]
  unfold kernelRun0_A; dsimp only
  sl_unfold_words
  simp only [View.readAt_eq_ld, harg2.read_unread, harg3.read_unread, harg5.read_unread, View.ld_unit_zero (S := S4x1x200x256) hz4, View.ld_unit_zero (S := S4x4x192) hz3, View.readCov_unit_zero (S := S4x4x192) _ hz3]
  rfl

/-- and in the scratch the last four frames of its block's band. -/
theorem sout0_A_0_eq (c : Dev nD) (i : grid0.Coords) (arg2 : Memref sig .tc .vmem S4x1x200x256 .f32) (harg2 : arg2.IsWhole) (arg3 : Memref sig .tc .vmem S4x5x200x192 .f32) (harg3 : arg3.IsWhole) (arg4 : Memref sig .tc .vmem S4x1x200x256 .f32) (harg4 : arg4.IsWhole) (arg5 : Memref sig .tc .vmem S4x4x192 .f32) (harg5 : arg5.IsWhole) (hc0 : cond0_0 i)
    (x0 : Vec F S4x1x200x256 .f32) (x1 : Vec F S4x5x200x192 .f32) :
    sout0_A_0 c i arg2 harg2 arg3 harg3 arg4 harg4 arg5 harg5 hc0 x0 x1 = k0_pay14 (k0_pay3 x0) := by
  unfold sout0_A_0
  rw [View.read_writes_eq_canon _ _ _ (scover0_A_0 c i arg2 harg2 arg3 harg3 arg4 harg4 arg5 harg5 hc0 x0 x1)]
  unfold kernelRun0_A; dsimp only
  sl_unfold_words
  rw [View.canon_cons_unit_zero (S := S4x4x192) hz3]
  simp only [View.readAt_eq_ld, harg2.read_unread, harg3.read_unread, harg5.read_unread, View.ld_unit_zero (S := S4x1x200x256) hz4, View.ld_unit_zero (S := S4x4x192) hz3, View.readCov_unit_zero (S := S4x4x192) _ hz3]

end Cert.KernelIdeal.Hand

end
-- ==== Proof.KI.Lanes.lean ====
/-
  The arithmetic one grid point does, read lane by lane on the extended reals.

  A block of the spectrogram is [4 batches, 1, 200 frames, 256 lanes]: lane 2k is the real part and lane 2k+1 the
  imaginary part of bin k, and the first 192 lanes are the 96 filtered bins. The body stacks the four carried frames
  `S` in front of the block's 200 (`ext`), and for each of the five taps `n` multiplies frame `r + n` of that stack
  by tap `n` of the coefficient block [4, 5, 200, 192], as complex numbers, by pairing each lane with its partner
  (a lane rotation by one either way, chosen by the lane's parity). Summed over the taps, an even lane holds
  Σₙ (xr·cr − xi·ci) and an odd lane Σₙ (xr·ci + xi·cr).
-/
import proofs.«422068_j29231547416739_3_alg».proof.Proof.Gen.KernelIdeal.Skeleton
import Idealize.ShloMosaic.PureOps.Ideal
import Idealize.ShloMosaic.Lib.ValueIdx
import Idealize.ShloMosaic.Lib.Pipeline.Value
import Idealize.ShloMosaic.Lib.Pipeline.FrameBody
import Idealize.ShloMosaic.Lib.KernelVsHost

set_option maxRecDepth 16384

noncomputable section

namespace Cert.KernelIdeal.Lanes

open Cert.KernelIdeal Cert.KernelIdeal.Gen
open Idealize.ShloMosaic Idealize.ShloMosaic.ValueIdx

/-- The carried frames stacked in front of the block's: row `j < 4` is carried frame `j`, row `j ≥ 4` is frame `j - 4` of
    the block's band (its first 192 lanes). -/
def ext (x0 : Vec Ideal S4x1x200x256 .f32) (S : Vec Ideal S4x4x192 .f32) (b : Fin 4) (j : Fin 204) (l : Fin 192) : EReal :=
  if h : j.val < 4 then S (ix3 b (⟨j.val, h⟩ : Fin 4) l)
  else x0 (ix4 b (0 : Fin 1) (⟨j.val - 4, by omega⟩ : Fin 200) (⟨l.val, by omega⟩ : Fin 256))

/-- What lane `l` of frame `r` of batch `b` of the filtered band holds: the complex sum over the five taps. -/
def laneOut (x0 : Vec Ideal S4x1x200x256 .f32) (S : Vec Ideal S4x4x192 .f32) (x1 : Vec Ideal S4x5x200x192 .f32)
    (b : Fin 4) (r : Fin 200) (l : Fin 192) : EReal :=
  if hl : l.val % 2 = 0 then
    ∑ n : Fin 5, (ext x0 S b (⟨r.val + n.val, by omega⟩ : Fin 204) l * x1 (ix4 b n r l)
      - ext x0 S b (⟨r.val + n.val, by omega⟩ : Fin 204) (⟨l.val + 1, by omega⟩ : Fin 192) * x1 (ix4 b n r (⟨l.val + 1, by omega⟩ : Fin 192)))
  else
    ∑ n : Fin 5, (ext x0 S b (⟨r.val + n.val, by omega⟩ : Fin 204) (⟨l.val - 1, by omega⟩ : Fin 192) * x1 (ix4 b n r l)
      + ext x0 S b (⟨r.val + n.val, by omega⟩ : Fin 204) l * x1 (ix4 b n r (⟨l.val - 1, by omega⟩ : Fin 192)))

/-- Tap `n` of the coefficient block, as the body loads it. -/
abbrev tap0 (x1 : Vec Ideal S4x5x200x192 .f32) : Vec Ideal S4x1x200x192 .f32 :=
  View.ld x1 (Rect.unit (s := S4x5x200x192) ![0, 0, 0, 0] S4x1x200x192.size inb_S4x5x200x192_S4x1x200x192_0_0_0_0)
abbrev tap1 (x1 : Vec Ideal S4x5x200x192 .f32) : Vec Ideal S4x1x200x192 .f32 :=
  View.ld x1 (Rect.unit (s := S4x5x200x192) ![0, 1, 0, 0] S4x1x200x192.size inb_S4x5x200x192_S4x1x200x192_0_1_0_0)
abbrev tap2 (x1 : Vec Ideal S4x5x200x192 .f32) : Vec Ideal S4x1x200x192 .f32 :=
  View.ld x1 (Rect.unit (s := S4x5x200x192) ![0, 2, 0, 0] S4x1x200x192.size inb_S4x5x200x192_S4x1x200x192_0_2_0_0)
abbrev tap3 (x1 : Vec Ideal S4x5x200x192 .f32) : Vec Ideal S4x1x200x192 .f32 :=
  View.ld x1 (Rect.unit (s := S4x5x200x192) ![0, 3, 0, 0] S4x1x200x192.size inb_S4x5x200x192_S4x1x200x192_0_3_0_0)
abbrev tap4 (x1 : Vec Ideal S4x5x200x192 .f32) : Vec Ideal S4x1x200x192 .f32 :=
  View.ld x1 (Rect.unit (s := S4x5x200x192) ![0, 4, 0, 0] S4x1x200x192.size inb_S4x5x200x192_S4x1x200x192_0_4_0_0)

/-- The payload the body stores into the first 192 lanes of the output block, as a function of what it loaded: the
    spectrogram block `x0`, the carry `S` and the coefficient block `x1`. -/
def outPay (x0 : Vec Ideal S4x1x200x256 .f32) (S : Vec Ideal S4x4x192 .f32) (x1 : Vec Ideal S4x5x200x192 .f32) :
    Vec Ideal S4x1x200x192 .f32 :=
  k0_pay15 (F := Ideal) (k0_pay5 x0 S) k0_pay6
    (k0_pay9 (k0_pay5 x0 S) k0_pay6 (k0_pay7 x0 S (tap0 x1)) (k0_pay8 x0 S) (tap1 x1) (tap2 x1))
    (k0_pay10 (k0_pay5 x0 S)) (k0_pay11 (tap3 x1)) (k0_pay12 k0_pay6 (tap3 x1)) (k0_pay13 (tap3 x1)) (tap4 x1)

/-- The cleared carry is zero. -/
theorem cleared_apply (i : S4x4x192.Idx) : k0_pay1 (F := Ideal) i = (0 : EReal) := by
  unfold k0_pay1
  show shapeCast S4x4x192 (broadcast S4x4x192 (Scalar.ofBits .f32 0x00000000#32 : Ideal .f32)) shapeCasts_S4x4x192_S4x4x192 i = 0
  rw [shapeCast_self]
  exact Ideal.ofBits_zero_f32

/-- The block with its unit axis dropped reads the block. -/
theorem pay2_apply (x0 : Vec Ideal S4x1x200x256 .f32) (b : Fin 4) (r : Fin 200) (m : Fin 256) :
    k0_pay2 (F := Ideal) x0 (ix3 b r m) = x0 (ix4 b (0 : Fin 1) r m) := by
  unfold k0_pay2
  refine shapeCast_apply x0 _ _ _ ?_
  rw [Shape.rowMajor_val_four, Shape.rowMajor_val_three]
  show ((b.val * 1 + 0) * 200 + r.val) * 256 + m.val = (b.val * 200 + r.val) * 256 + m.val
  omega

/-- The band of the block: its first 192 lanes. -/
theorem pay3_apply (x0 : Vec Ideal S4x1x200x256 .f32) (b : Fin 4) (r : Fin 200) (l : Fin 192) :
    k0_pay3 (F := Ideal) x0 (ix3 b r l) = x0 (ix4 b (0 : Fin 1) r (⟨l.val, by omega⟩ : Fin 256)) := by
  unfold k0_pay3
  refine (extractStridedSlice_apply _ _ _ _ (ix3 b r (⟨l.val, by omega⟩ : Fin 256)) (fun ax => by
    match ax with
    | ⟨0, _⟩ => exact (Nat.zero_add _).symm
    | ⟨1, _⟩ => exact (Nat.zero_add _).symm
    | ⟨2, _⟩ => exact (Nat.zero_add _).symm)).trans ?_
  exact pay2_apply x0 b r _

/-- The 64 lanes beside the band. -/
theorem pay4_apply (x0 : Vec Ideal S4x1x200x256 .f32) (b : Fin 4) (r : Fin 200) (q : Fin 64) :
    k0_pay4 (F := Ideal) x0 (ix3 b r q) = x0 (ix4 b (0 : Fin 1) r (⟨192 + q.val, by omega⟩ : Fin 256)) := by
  unfold k0_pay4
  refine (extractStridedSlice_apply _ _ _ _ (ix3 b r (⟨192 + q.val, by omega⟩ : Fin 256)) (fun ax => by
    match ax with
    | ⟨0, _⟩ => exact (Nat.zero_add _).symm
    | ⟨1, _⟩ => exact (Nat.zero_add _).symm
    | ⟨2, _⟩ => rfl)).trans ?_
  exact pay2_apply x0 b r _

/-- The 64 lanes beside the band are stored back as loaded. -/
theorem pass_apply (x0 : Vec Ideal S4x1x200x256 .f32) (b : Fin 4) (r : Fin 200) (q : Fin 64) :
    k0_pay16 (F := Ideal) (k0_pay4 x0) (ix4 b (0 : Fin 1) r q) = x0 (ix4 b (0 : Fin 1) r (⟨192 + q.val, by omega⟩ : Fin 256)) := by
  unfold k0_pay16
  refine (shapeCast_apply (k0_pay4 x0) _ _ (ix3 b r q) ?_).trans (pay4_apply x0 b r q)
  rw [Shape.rowMajor_val_four, Shape.rowMajor_val_three]
  show (b.val * 200 + r.val) * 64 + q.val = ((b.val * 1 + 0) * 200 + r.val) * 64 + q.val
  omega

/-- The carry a point leaves: the last four frames of its block's band. -/
theorem carry_apply (x0 : Vec Ideal S4x1x200x256 .f32) (b : Fin 4) (j : Fin 4) (l : Fin 192) :
    k0_pay14 (F := Ideal) (k0_pay3 x0) (ix3 b j l) = x0 (ix4 b (0 : Fin 1) (⟨196 + j.val, by omega⟩ : Fin 200) (⟨l.val, by omega⟩ : Fin 256)) := by
  unfold k0_pay14
  show shapeCast S4x4x192 (extractStridedSlice S4x4x192 ![0, 196, 0] (k0_pay3 x0) slices_S4x200x192_o0_196_0_S4x4x192) shapeCasts_S4x4x192_S4x4x192 (ix3 b j l) = _
  rw [shapeCast_self]
  refine (extractStridedSlice_apply _ _ _ _ (ix3 b (⟨196 + j.val, by omega⟩ : Fin 200) l) (fun ax => by
    match ax with
    | ⟨0, _⟩ => exact (Nat.zero_add _).symm
    | ⟨1, _⟩ => rfl
    | ⟨2, _⟩ => exact (Nat.zero_add _).symm)).trans ?_
  exact pay3_apply x0 b _ l

/-- The stacked array read at `(b, j, l)`: a carried frame below row 4, a frame of the block's band from row 4 on. -/
theorem pay5_apply (x0 : Vec Ideal S4x1x200x256 .f32) (S : Vec Ideal S4x4x192 .f32) (b : Fin 4) (j : Fin 204) (l : Fin 192) :
    k0_pay5 (F := Ideal) x0 S (ix3 b j l) = ext x0 S b j l := by
  unfold k0_pay5 ext
  by_cases h : j.val < 4
  · rw [dif_pos h]
    exact concatenate_pair_apply_left (1 : Fin 3) S (k0_pay3 x0) concatenates_S4x4x192_S4x200x192_S4x204x192_d1 (ix3 b j l) rfl
      (ix3 b (⟨j.val, h⟩ : Fin 4) l) (fun a => by match a with | ⟨0, _⟩ => rfl | ⟨1, _⟩ => rfl | ⟨2, _⟩ => rfl)
  · rw [dif_neg h]
    refine (concatenate_pair_apply_right (1 : Fin 3) S (k0_pay3 x0) concatenates_S4x4x192_S4x200x192_S4x204x192_d1 (ix3 b j l) rfl rfl
      (ix3 b (⟨j.val - 4, by omega⟩ : Fin 200) l)
      (fun a ha => by match a with | ⟨0, _⟩ => rfl | ⟨1, _⟩ => exact absurd rfl ha | ⟨2, _⟩ => rfl) ?_).trans (pay3_apply x0 b _ l)
    show j.val - 4 + 4 = j.val
    omega

/-- The lowest bit of a lane number, compared with zero: the bit is set exactly on the even lanes. -/
theorem parity_bit (l : Nat) (hl : l < 192) :
    IntOp.cmpi .eq (IntOp.andi (BitVec.ofNat 32 l) 1#32) 0#32 = if l % 2 = 0 then 1#1 else 0#1 := by
  have h : IntOp.andi (BitVec.ofNat 32 l) 1#32 = BitVec.ofNat 32 (l % 2) := by
    unfold IntOp.andi
    apply BitVec.eq_of_toNat_eq
    rw [BitVec.toNat_and, BitVec.toNat_ofNat, BitVec.toNat_ofNat, BitVec.toNat_ofNat,
      Nat.mod_eq_of_lt (by omega : l < 2 ^ 32), Nat.mod_eq_of_lt (by omega : 1 < 2 ^ 32), Nat.and_one_is_mod,
      Nat.mod_eq_of_lt (by omega : l % 2 < 2 ^ 32)]
  rw [h]
  unfold IntOp.cmpi
  rcases Nat.mod_two_eq_zero_or_one l with h0 | h1
  · rw [h0, if_pos rfl]; rfl
  · rw [h1, if_neg (by decide)]; rfl

/-- The mask is set exactly on the even lanes. -/
theorem mask_apply (b : Fin 4) (r : Fin 200) (l : Fin 192) :
    k0_pay6 (ix3 b r l) = if l.val % 2 = 0 then 1#1 else 0#1 := by
  unfold k0_pay6
  show IntOp.cmpi .eq (IntOp.andi (iota .tc S4x200x192 32 [2] iota_S4x200x192_d2_w32 (ix3 b r l)) 1#32) 0#32 = _
  rw [iota_single_apply]
  exact parity_bit l.val l.isLt

/-- A rotation of the lanes by one reads the lane below. -/
theorem rot1_apply {α : Type} (v : S4x200x192.Idx → α) (b : Fin 4) (r : Fin 200) (l : Fin 192) (hl : 1 ≤ l.val) :
    dynamicRotate 2 1#32 none v rotates_S4x200x192_d2 (ix3 b r l) = v (ix3 b r (⟨l.val - 1, by omega⟩ : Fin 192)) := by
  refine dynamicRotate_apply _ _ v _ _ _ (fun a => ?_)
  match a with
  | ⟨0, h0⟩ => exact (if_neg (fun h => absurd (congrArg Fin.val h) (show ¬ (0 : Nat) = 2 by omega))).symm
  | ⟨1, h1⟩ => exact (if_neg (fun h => absurd (congrArg Fin.val h) (show ¬ (1 : Nat) = 2 by omega))).symm
  | ⟨2, h2⟩ =>
    rw [if_pos (show (⟨2, h2⟩ : Fin S4x200x192.rank) = 2 from rfl)]
    show l.val - 1 = (l.val + 192 - 1 % 192) % 192
    omega

/-- A rotation of the lanes by 191 reads the lane above. -/
theorem rot191_apply {α : Type} (v : S4x200x192.Idx → α) (b : Fin 4) (r : Fin 200) (l : Fin 192) (hl : l.val + 1 < 192) :
    dynamicRotate 2 191#32 none v rotates_S4x200x192_d2 (ix3 b r l) = v (ix3 b r (⟨l.val + 1, hl⟩ : Fin 192)) := by
  refine dynamicRotate_apply _ _ v _ _ _ (fun a => ?_)
  match a with
  | ⟨0, h0⟩ => exact (if_neg (fun h => absurd (congrArg Fin.val h) (show ¬ (0 : Nat) = 2 by omega))).symm
  | ⟨1, h1⟩ => exact (if_neg (fun h => absurd (congrArg Fin.val h) (show ¬ (1 : Nat) = 2 by omega))).symm
  | ⟨2, h2⟩ =>
    rw [if_pos (show (⟨2, h2⟩ : Fin S4x200x192.rank) = 2 from rfl)]
    show l.val + 1 = (l.val + 192 - 191 % 192) % 192
    omega

/-- One tap's update of the accumulator: the window times the coefficients with each lane's real part in both lanes of
    its pair, plus the window with each pair's lanes swapped times the coefficients' imaginary parts, negated on the
    even lanes. -/
def step (acc W c : FVec Ideal S4x200x192 .f32) : FVec Ideal S4x200x192 .f32 :=
  addf (addf acc (mulf W (select k0_pay6 c (dynamicRotate 2 1#32 none c rotates_S4x200x192_d2))))
    (mulf (select k0_pay6 (dynamicRotate 2 191#32 none W rotates_S4x200x192_d2) (dynamicRotate 2 1#32 none W rotates_S4x200x192_d2))
      (select k0_pay6 (subf (broadcast S4x200x192 (Scalar.ofBits .f32 0x00000000#32)) (dynamicRotate 2 191#32 none c rotates_S4x200x192_d2)) c))

/-- On an even lane a tap adds the real part of the complex product. -/
theorem step_even (acc W c : FVec Ideal S4x200x192 .f32) (b : Fin 4) (r : Fin 200) (l : Fin 192) (hl : l.val % 2 = 0) :
    step acc W c (ix3 b r l) = acc (ix3 b r l) + (W (ix3 b r l) * c (ix3 b r l)
      - W (ix3 b r (⟨l.val + 1, by omega⟩ : Fin 192)) * c (ix3 b r (⟨l.val + 1, by omega⟩ : Fin 192))) := by
  have hm : k0_pay6 (ix3 b r l) = 1#1 := by rw [mask_apply, if_pos hl]
  have hl1 : l.val + 1 < 192 := by omega
  unfold step
  simp only [addf_apply, mulf_apply, subf_apply, select_apply, broadcast_apply, hm, select_one]
  rw [rot191_apply W b r l hl1, rot191_apply c b r l hl1]
  show acc _ + W _ * c _ + W _ * (Ideal.ofBits .f32 0x00000000#32 - c _) = _
  rw [Ideal.ofBits_zero_f32, zero_sub, mul_neg, add_assoc, ← sub_eq_add_neg]

/-- On an odd lane a tap adds the imaginary part of the complex product. -/
theorem step_odd (acc W c : FVec Ideal S4x200x192 .f32) (b : Fin 4) (r : Fin 200) (l : Fin 192) (hl : ¬ l.val % 2 = 0) :
    step acc W c (ix3 b r l) = acc (ix3 b r l) + (W (ix3 b r (⟨l.val - 1, by omega⟩ : Fin 192)) * c (ix3 b r l)
      + W (ix3 b r l) * c (ix3 b r (⟨l.val - 1, by omega⟩ : Fin 192))) := by
  have hm : k0_pay6 (ix3 b r l) = 0#1 := by rw [mask_apply, if_neg hl]
  have hl1 : 1 ≤ l.val := by omega
  unfold step
  simp only [addf_apply, mulf_apply, subf_apply, select_apply, broadcast_apply, hm, select_zero]
  rw [rot1_apply W b r l hl1, rot1_apply c b r l hl1]
  rw [add_assoc, add_comm (W (ix3 b r l) * _)]

/-- Window `n` of the stack: frames `n` to `n + 199`. -/
theorem win_apply (x0 : Vec Ideal S4x1x200x256 .f32) (S : Vec Ideal S4x4x192 .f32) (n : Nat) (hn : n ≤ 4)
    (h : S4x204x192.Slices ![0, n, 0] S4x200x192) (b : Fin 4) (r : Fin 200) (l : Fin 192) :
    extractStridedSlice S4x200x192 ![0, n, 0] (k0_pay5 (F := Ideal) x0 S) h (ix3 b r l)
      = ext x0 S b (⟨r.val + n, by omega⟩ : Fin 204) l := by
  refine (extractStridedSlice_apply _ _ _ _ (ix3 b (⟨r.val + n, by omega⟩ : Fin 204) l) (fun ax => by
    match ax with
    | ⟨0, _⟩ => exact (Nat.zero_add _).symm
    | ⟨1, _⟩ => exact Nat.add_comm _ _
    | ⟨2, _⟩ => exact (Nat.zero_add _).symm)).trans ?_
  exact pay5_apply x0 S b _ l

/-- A loaded tap with its unit axis dropped. -/
theorem coef_apply (t : Vec Ideal S4x1x200x192 .f32) (b : Fin 4) (r : Fin 200) (l : Fin 192) :
    shapeCast S4x200x192 t shapeCasts_S4x1x200x192_S4x200x192 (ix3 b r l) = t (ix4 b (0 : Fin 1) r l) := by
  refine shapeCast_apply t _ _ _ ?_
  rw [Shape.rowMajor_val_four, Shape.rowMajor_val_three]
  show ((b.val * 1 + 0) * 200 + r.val) * 192 + l.val = (b.val * 200 + r.val) * 192 + l.val
  omega

/-- Tap `n` as loaded is tap `n` of the coefficient block. -/
theorem tap_apply (x1 : Vec Ideal S4x5x200x192 .f32) (n : Fin 5)
    (inb : ∀ a, (![0, n.val, 0, 0] : Fin 4 → Nat) a + S4x1x200x192.size a ≤ S4x5x200x192.size a)
    (b : Fin 4) (r : Fin 200) (l : Fin 192) :
    View.ld x1 (Rect.unit (s := S4x5x200x192) ![0, n.val, 0, 0] S4x1x200x192.size inb) (ix4 b (0 : Fin 1) r l) = x1 (ix4 b n r l) := by
  refine congrArg x1 (funext fun a => Fin.ext ?_)
  match a with
  | ⟨0, _⟩ => show 0 + 1 * b.val = b.val; omega
  | ⟨1, _⟩ => show n.val + 1 * 0 = n.val; omega
  | ⟨2, _⟩ => show 0 + 1 * r.val = r.val; omega
  | ⟨3, _⟩ => show 0 + 1 * l.val = l.val; omega

/-- The payload is five taps' updates of the zero splat, with a unit axis added. -/
theorem outPay_read (x0 : Vec Ideal S4x1x200x256 .f32) (S : Vec Ideal S4x4x192 .f32) (x1 : Vec Ideal S4x5x200x192 .f32)
    (b : Fin 4) (r : Fin 200) (l : Fin 192) :
    outPay x0 S x1 (ix4 b (0 : Fin 1) r l) =
      step (step (step (step (step (broadcast S4x200x192 (Scalar.ofBits .f32 0x00000000#32))
        (extractStridedSlice S4x200x192 ![0, 0, 0] (k0_pay5 x0 S) slices_S4x204x192_o0_0_0_S4x200x192) (shapeCast S4x200x192 (tap0 x1) shapeCasts_S4x1x200x192_S4x200x192))
        (extractStridedSlice S4x200x192 ![0, 1, 0] (k0_pay5 x0 S) slices_S4x204x192_o0_1_0_S4x200x192) (shapeCast S4x200x192 (tap1 x1) shapeCasts_S4x1x200x192_S4x200x192))
        (extractStridedSlice S4x200x192 ![0, 2, 0] (k0_pay5 x0 S) slices_S4x204x192_o0_2_0_S4x200x192) (shapeCast S4x200x192 (tap2 x1) shapeCasts_S4x1x200x192_S4x200x192))
        (extractStridedSlice S4x200x192 ![0, 3, 0] (k0_pay5 x0 S) slices_S4x204x192_o0_3_0_S4x200x192) (shapeCast S4x200x192 (tap3 x1) shapeCasts_S4x1x200x192_S4x200x192))
        (extractStridedSlice S4x200x192 ![0, 4, 0] (k0_pay5 x0 S) slices_S4x204x192_o0_4_0_S4x200x192) (shapeCast S4x200x192 (tap4 x1) shapeCasts_S4x1x200x192_S4x200x192) (ix3 b r l) := by
  unfold outPay k0_pay15
  refine (shapeCast_apply _ _ _ (ix3 b r l) ?_).trans ?_
  · rw [Shape.rowMajor_val_three, Shape.rowMajor_val_four]
    show (b.val * 200 + r.val) * 192 + l.val = ((b.val * 1 + 0) * 200 + r.val) * 192 + l.val
    omega
  · rfl

/-- The filtered band, lane by lane. -/
theorem outPay_apply (x0 : Vec Ideal S4x1x200x256 .f32) (S : Vec Ideal S4x4x192 .f32) (x1 : Vec Ideal S4x5x200x192 .f32)
    (b : Fin 4) (r : Fin 200) (l : Fin 192) :
    outPay x0 S x1 (ix4 b (0 : Fin 1) r l) = laneOut x0 S x1 b r l := by
  rw [outPay_read]
  have hW0 : ∀ l' : Fin 192, (extractStridedSlice S4x200x192 ![0, 0, 0] (k0_pay5 x0 S) slices_S4x204x192_o0_0_0_S4x200x192) (ix3 b r l')
      = ext x0 S b (⟨r.val + (0 : Fin 5).val, by omega⟩ : Fin 204) l' := fun l' => win_apply x0 S 0 (by omega) _ b r l'
  have hC0 : ∀ l' : Fin 192, (shapeCast S4x200x192 (tap0 x1) shapeCasts_S4x1x200x192_S4x200x192) (ix3 b r l') = x1 (ix4 b (0 : Fin 5) r l') :=
    fun l' => (coef_apply _ b r l').trans (tap_apply x1 0 _ b r l')
  have hW1 : ∀ l' : Fin 192, (extractStridedSlice S4x200x192 ![0, 1, 0] (k0_pay5 x0 S) slices_S4x204x192_o0_1_0_S4x200x192) (ix3 b r l')
      = ext x0 S b (⟨r.val + (1 : Fin 5).val, by omega⟩ : Fin 204) l' := fun l' => win_apply x0 S 1 (by omega) _ b r l'
  have hC1 : ∀ l' : Fin 192, (shapeCast S4x200x192 (tap1 x1) shapeCasts_S4x1x200x192_S4x200x192) (ix3 b r l') = x1 (ix4 b (1 : Fin 5) r l') :=
    fun l' => (coef_apply _ b r l').trans (tap_apply x1 1 _ b r l')
  have hW2 : ∀ l' : Fin 192, (extractStridedSlice S4x200x192 ![0, 2, 0] (k0_pay5 x0 S) slices_S4x204x192_o0_2_0_S4x200x192) (ix3 b r l')
      = ext x0 S b (⟨r.val + (2 : Fin 5).val, by omega⟩ : Fin 204) l' := fun l' => win_apply x0 S 2 (by omega) _ b r l'
  have hC2 : ∀ l' : Fin 192, (shapeCast S4x200x192 (tap2 x1) shapeCasts_S4x1x200x192_S4x200x192) (ix3 b r l') = x1 (ix4 b (2 : Fin 5) r l') :=
    fun l' => (coef_apply _ b r l').trans (tap_apply x1 2 _ b r l')
  have hW3 : ∀ l' : Fin 192, (extractStridedSlice S4x200x192 ![0, 3, 0] (k0_pay5 x0 S) slices_S4x204x192_o0_3_0_S4x200x192) (ix3 b r l')
      = ext x0 S b (⟨r.val + (3 : Fin 5).val, by omega⟩ : Fin 204) l' := fun l' => win_apply x0 S 3 (by omega) _ b r l'
  have hC3 : ∀ l' : Fin 192, (shapeCast S4x200x192 (tap3 x1) shapeCasts_S4x1x200x192_S4x200x192) (ix3 b r l') = x1 (ix4 b (3 : Fin 5) r l') :=
    fun l' => (coef_apply _ b r l').trans (tap_apply x1 3 _ b r l')
  have hW4 : ∀ l' : Fin 192, (extractStridedSlice S4x200x192 ![0, 4, 0] (k0_pay5 x0 S) slices_S4x204x192_o0_4_0_S4x200x192) (ix3 b r l')
      = ext x0 S b (⟨r.val + (4 : Fin 5).val, by omega⟩ : Fin 204) l' := fun l' => win_apply x0 S 4 (by omega) _ b r l'
  have hC4 : ∀ l' : Fin 192, (shapeCast S4x200x192 (tap4 x1) shapeCasts_S4x1x200x192_S4x200x192) (ix3 b r l') = x1 (ix4 b (4 : Fin 5) r l') :=
    fun l' => (coef_apply _ b r l').trans (tap_apply x1 4 _ b r l')
  have hZ : broadcast S4x200x192 (Scalar.ofBits .f32 0x00000000#32 : Ideal .f32) (ix3 b r l) = (0 : EReal) := Ideal.ofBits_zero_f32
  unfold laneOut
  by_cases hl : l.val % 2 = 0
  · rw [dif_pos hl, Fin.sum_univ_five, step_even _ _ _ b r l hl, step_even _ _ _ b r l hl, step_even _ _ _ b r l hl,
      step_even _ _ _ b r l hl, step_even _ _ _ b r l hl,
      hW0 l, hW0 ⟨l.val + 1, by omega⟩, hW1 l, hW1 ⟨l.val + 1, by omega⟩, hW2 l, hW2 ⟨l.val + 1, by omega⟩,
      hW3 l, hW3 ⟨l.val + 1, by omega⟩, hW4 l, hW4 ⟨l.val + 1, by omega⟩,
      hC0 l, hC0 ⟨l.val + 1, by omega⟩, hC1 l, hC1 ⟨l.val + 1, by omega⟩, hC2 l, hC2 ⟨l.val + 1, by omega⟩,
      hC3 l, hC3 ⟨l.val + 1, by omega⟩, hC4 l, hC4 ⟨l.val + 1, by omega⟩, hZ, zero_add]
  · rw [dif_neg hl, Fin.sum_univ_five, step_odd _ _ _ b r l hl, step_odd _ _ _ b r l hl, step_odd _ _ _ b r l hl,
      step_odd _ _ _ b r l hl, step_odd _ _ _ b r l hl,
      hW0 l, hW0 ⟨l.val - 1, by omega⟩, hW1 l, hW1 ⟨l.val - 1, by omega⟩, hW2 l, hW2 ⟨l.val - 1, by omega⟩,
      hW3 l, hW3 ⟨l.val - 1, by omega⟩, hW4 l, hW4 ⟨l.val - 1, by omega⟩,
      hC0 l, hC0 ⟨l.val - 1, by omega⟩, hC1 l, hC1 ⟨l.val - 1, by omega⟩, hC2 l, hC2 ⟨l.val - 1, by omega⟩,
      hC3 l, hC3 ⟨l.val - 1, by omega⟩, hC4 l, hC4 ⟨l.val - 1, by omega⟩, hZ, zero_add]

end Cert.KernelIdeal.Lanes

end
-- ==== Proof.Spec.lean ====
/-
  The deep-filter operator, as ONE function of the two argument arrays, index by index, on the extended reals.

  The spectrogram `x` is [batch 32, channel 1, frame 2000, bin 481, (re, im)], the filter `c` is
  [batch 32, tap 5, frame 2000, bin 96, (re, im)]. For each of the first 96 bins the result at frame `t` is the
  complex sum over the five taps `n` of  x[t + n - 4] · c[n, t]  (a causal window: frames before the first read
  as zero); every other bin of the spectrogram is passed through unchanged.
-/
import Idealize.ShloMosaic.PureOps.Ideal
import Idealize.ShloMosaic.Lib.ValueIdx

noncomputable section

namespace Cert.DeepFilter

open Idealize.ShloMosaic Idealize.ShloMosaic.ValueIdx

/-- The spectrogram's shape. -/
abbrev SX : Shape := ⟨5, ![32, 1, 2000, 481, 2]⟩
/-- The filter coefficients' shape. -/
abbrev SC : Shape := ⟨5, ![32, 5, 2000, 96, 2]⟩

/-- Tap `n` of the causal window at frame `t`: the spectrogram at frame `t + n - 4`, zero before the first frame. -/
def tap (x : SX.Idx → EReal) (b : Fin 32) (t : Fin 2000) (n : Fin 5) (f : Fin 481) (p : Fin 2) : EReal :=
  if h : 4 ≤ t.val + n.val then x (ix5 b (0 : Fin 1) (⟨t.val + n.val - 4, by omega⟩ : Fin 2000) f p) else 0

/-- The real part of the filtered bin: Σₙ (xr·cr − xi·ci). -/
def outRe (x : SX.Idx → EReal) (c : SC.Idx → EReal) (b : Fin 32) (t : Fin 2000) (f : Fin 96) : EReal :=
  ∑ n : Fin 5, (tap x b t n ⟨f.val, by omega⟩ 0 * c (ix5 b n t f 0) - tap x b t n ⟨f.val, by omega⟩ 1 * c (ix5 b n t f 1))

/-- The imaginary part of the filtered bin: Σₙ (xr·ci + xi·cr). -/
def outIm (x : SX.Idx → EReal) (c : SC.Idx → EReal) (b : Fin 32) (t : Fin 2000) (f : Fin 96) : EReal :=
  ∑ n : Fin 5, (tap x b t n ⟨f.val, by omega⟩ 0 * c (ix5 b n t f 1) + tap x b t n ⟨f.val, by omega⟩ 1 * c (ix5 b n t f 0))

/-- The whole result: the first 96 bins filtered, the rest of the spectrogram unchanged. -/
def G (x : SX.Idx → EReal) (c : SC.Idx → EReal) : SX.Idx → EReal := fun i =>
  if hf : (i 3).val < 96 then
    (if (i 4).val = 0 then outRe x c (i 0) (i 2) ⟨(i 3).val, hf⟩ else outIm x c (i 0) (i 2) ⟨(i 3).val, hf⟩)
  else x i

end Cert.DeepFilter

end
-- ==== Proof.Merged.lean ====
/-
  The deep-filter operator over the MERGED lane axis.

  The program works on the spectrogram with its last two axes merged, [32, 1, 2000, 962]: lane 2f is the real part
  and lane 2f+1 the imaginary part of bin f; likewise the coefficients as [32, 5, 2000, 192]. Here the operator is
  stated over those merged arrays, and shown to be the operator of Spec.lean read through the merge.
-/
import proofs.«422068_j29231547416739_3_alg».proof.Proof.Spec

noncomputable section

namespace Cert.DeepFilter

open Idealize.ShloMosaic Idealize.ShloMosaic.ValueIdx

/-- The merged spectrogram's shape. -/
abbrev SXm : Shape := ⟨4, ![32, 1, 2000, 962]⟩
/-- The merged coefficients' shape. -/
abbrev SCm : Shape := ⟨4, ![32, 5, 2000, 192]⟩

/-- Tap `n` of the causal window at frame `T`, lane `l` of the merged spectrogram: frame `T + n - 4`, zero before the first. -/
def tapM (a0 : SXm.Idx → EReal) (B : Fin 32) (T : Fin 2000) (n : Fin 5) (l : Fin 962) : EReal :=
  if h : 4 ≤ T.val + n.val then a0 (ix4 B (0 : Fin 1) (⟨T.val + n.val - 4, by omega⟩ : Fin 2000) l) else 0

/-- Lane `l < 192` of the filtered band: an even lane is the real part Σₙ (xr·cr − xi·ci) of its bin, an odd lane the
    imaginary part Σₙ (xr·ci + xi·cr). -/
def macM (a0 : SXm.Idx → EReal) (a1 : SCm.Idx → EReal) (B : Fin 32) (T : Fin 2000) (l : Fin 192) : EReal :=
  if hl : l.val % 2 = 0 then
    ∑ n : Fin 5, (tapM a0 B T n (⟨l.val, by omega⟩ : Fin 962) * a1 (ix4 B n T l)
      - tapM a0 B T n (⟨l.val + 1, by omega⟩ : Fin 962) * a1 (ix4 B n T (⟨l.val + 1, by omega⟩ : Fin 192)))
  else
    ∑ n : Fin 5, (tapM a0 B T n (⟨l.val - 1, by omega⟩ : Fin 962) * a1 (ix4 B n T l)
      + tapM a0 B T n (⟨l.val, by omega⟩ : Fin 962) * a1 (ix4 B n T (⟨l.val - 1, by omega⟩ : Fin 192)))

/-- The whole merged result: the first 192 lanes filtered, the others unchanged. -/
def Gm (a0 : SXm.Idx → EReal) (a1 : SCm.Idx → EReal) : SXm.Idx → EReal := fun i =>
  if hl : (i 3).val < 192 then macM a0 a1 (i 0) (i 2) ⟨(i 3).val, hl⟩ else a0 i

/-- The merge of the spectrogram's last two axes, on indices: (b, 0, t, f, p) ↦ (b, 0, t, 2f + p). -/
def mergeX (i : SX.Idx) : SXm.Idx :=
  ix4 (i 0) (0 : Fin 1) (i 2) (⟨2 * (i 3).val + (i 4).val, by have h3 : (i 3).val < 481 := (i 3).isLt; have h4 : (i 4).val < 2 := (i 4).isLt; omega⟩ : Fin 962)
/-- and its inverse: (b, 0, t, l) ↦ (b, 0, t, l / 2, l % 2). -/
def splitX (j : SXm.Idx) : SX.Idx :=
  ix5 (j 0) (0 : Fin 1) (j 2) (⟨(j 3).val / 2, by have h3 : (j 3).val < 962 := (j 3).isLt; omega⟩ : Fin 481) (⟨(j 3).val % 2, by omega⟩ : Fin 2)
/-- The same for the coefficients: (b, n, t, l) ↦ (b, n, t, l / 2, l % 2). -/
def splitC (j : SCm.Idx) : SC.Idx :=
  ix5 (j 0) (j 1) (j 2) (⟨(j 3).val / 2, by have h3 : (j 3).val < 192 := (j 3).isLt; omega⟩ : Fin 96) (⟨(j 3).val % 2, by omega⟩ : Fin 2)

/-- A tap of the merged spectrogram at lane `l` is the tap of the spectrogram at bin `l / 2`, part `l % 2`. -/
theorem tapM_split (x : SX.Idx → EReal) (b : Fin 32) (t : Fin 2000) (n : Fin 5) (l : Fin 962) (f : Fin 481) (p : Fin 2)
    (hf : l.val / 2 = f.val) (hp : l.val % 2 = p.val) :
    tapM (fun j => x (splitX j)) b t n l = tap x b t n f p := by
  unfold tapM tap
  by_cases h : 4 ≤ t.val + n.val
  · rw [dif_pos h, dif_pos h]
    refine congrArg x (funext fun a => Fin.ext ?_)
    match a with
    | ⟨0, _⟩ => rfl
    | ⟨1, _⟩ => rfl
    | ⟨2, _⟩ => rfl
    | ⟨3, _⟩ => exact hf
    | ⟨4, _⟩ => exact hp
  · rw [dif_neg h, dif_neg h]

/-- A merged coefficient at lane `l` is the coefficient at bin `l / 2`, part `l % 2`. -/
theorem coef_split (c : SC.Idx → EReal) (b : Fin 32) (n : Fin 5) (t : Fin 2000) (l : Fin 192) (f : Fin 96) (p : Fin 2)
    (hf : l.val / 2 = f.val) (hp : l.val % 2 = p.val) :
    c (splitC (ix4 b n t l)) = c (ix5 b n t f p) := by
  refine congrArg c (funext fun a => Fin.ext ?_)
  match a with
  | ⟨0, _⟩ => rfl
  | ⟨1, _⟩ => rfl
  | ⟨2, _⟩ => rfl
  | ⟨3, _⟩ => exact hf
  | ⟨4, _⟩ => exact hp

/-- Splitting the merge of an index gives the index back. -/
theorem splitX_mergeX (b : Fin 32) (u : Fin 1) (t : Fin 2000) (f : Fin 481) (p : Fin 2) :
    splitX (mergeX (ix5 b u t f p)) = ix5 b u t f p := by
  have hp : p.val < 2 := p.isLt
  have hu : u.val < 1 := u.isLt
  refine funext fun a => Fin.ext ?_
  match a with
  | ⟨0, _⟩ => rfl
  | ⟨1, _⟩ => show 0 = u.val; omega
  | ⟨2, _⟩ => rfl
  | ⟨3, _⟩ => show (2 * f.val + p.val) / 2 = f.val; omega
  | ⟨4, _⟩ => show (2 * f.val + p.val) % 2 = p.val; omega

/-- The merged operator of the merged arrays, read at the merge of an index, is the operator of Spec.lean there. -/
theorem Gm_merge (x : SX.Idx → EReal) (c : SC.Idx → EReal) (i : SX.Idx) :
    Gm (fun j => x (splitX j)) (fun j => c (splitC j)) (mergeX i) = G x c i := by
  obtain ⟨b, u, t, f, p, rfl⟩ : ∃ (b : Fin 32) (u : Fin 1) (t : Fin 2000) (f : Fin 481) (p : Fin 2), i = ix5 b u t f p :=
    ⟨_, _, _, _, _, eq_ix5 i⟩
  have hp2 : p.val < 2 := p.isLt
  have hf481 : f.val < 481 := f.isLt
  unfold Gm G
  show (if hl : 2 * f.val + p.val < 192 then
        macM (fun j => x (splitX j)) (fun j => c (splitC j)) b t ⟨2 * f.val + p.val, hl⟩
      else x (splitX (mergeX (ix5 b u t f p))))
    = if hf : f.val < 96 then (if p.val = 0 then outRe x c b t ⟨f.val, hf⟩ else outIm x c b t ⟨f.val, hf⟩)
      else x (ix5 b u t f p)
  by_cases hf : f.val < 96
  · have hl : 2 * f.val + p.val < 192 := by omega
    rw [dif_pos hl, dif_pos hf]
    unfold macM
    by_cases hp : p.val = 0
    · have hpar : (2 * f.val + p.val) % 2 = 0 := by omega
      rw [if_pos hp]
      show (if hq : (2 * f.val + p.val) % 2 = 0 then _ else _) = _
      rw [dif_pos hpar]
      unfold outRe
      refine Finset.sum_congr rfl fun n _ => ?_
      have hA := tapM_split x b t n (⟨2 * f.val + p.val, by omega⟩ : Fin 962) (⟨f.val, by omega⟩ : Fin 481) (0 : Fin 2)
        (by show (2 * f.val + p.val) / 2 = f.val; omega) (by show (2 * f.val + p.val) % 2 = 0; omega)
      have hB := coef_split c b n t (⟨2 * f.val + p.val, hl⟩ : Fin 192) (⟨f.val, hf⟩ : Fin 96) (0 : Fin 2)
        (by show (2 * f.val + p.val) / 2 = f.val; omega) (by show (2 * f.val + p.val) % 2 = 0; omega)
      have hC := tapM_split x b t n (⟨2 * f.val + p.val + 1, by omega⟩ : Fin 962) (⟨f.val, by omega⟩ : Fin 481) (1 : Fin 2)
        (by show (2 * f.val + p.val + 1) / 2 = f.val; omega) (by show (2 * f.val + p.val + 1) % 2 = 1; omega)
      have hD := coef_split c b n t (⟨2 * f.val + p.val + 1, by omega⟩ : Fin 192) (⟨f.val, hf⟩ : Fin 96) (1 : Fin 2)
        (by show (2 * f.val + p.val + 1) / 2 = f.val; omega) (by show (2 * f.val + p.val + 1) % 2 = 1; omega)
      exact congrArg₂ (· - ·) (congrArg₂ (· * ·) hA hB) (congrArg₂ (· * ·) hC hD)
    · have hp1 : p.val = 1 := by omega
      have hpar : ¬ (2 * f.val + p.val) % 2 = 0 := by omega
      rw [if_neg hp]
      show (if hq : (2 * f.val + p.val) % 2 = 0 then _ else _) = _
      rw [dif_neg hpar]
      unfold outIm
      refine Finset.sum_congr rfl fun n _ => ?_
      have hA := tapM_split x b t n (⟨2 * f.val + p.val - 1, by omega⟩ : Fin 962) (⟨f.val, by omega⟩ : Fin 481) (0 : Fin 2)
        (by show (2 * f.val + p.val - 1) / 2 = f.val; omega) (by show (2 * f.val + p.val - 1) % 2 = 0; omega)
      have hB := coef_split c b n t (⟨2 * f.val + p.val, hl⟩ : Fin 192) (⟨f.val, hf⟩ : Fin 96) (1 : Fin 2)
        (by show (2 * f.val + p.val) / 2 = f.val; omega) (by show (2 * f.val + p.val) % 2 = 1; omega)
      have hC := tapM_split x b t n (⟨2 * f.val + p.val, by omega⟩ : Fin 962) (⟨f.val, by omega⟩ : Fin 481) (1 : Fin 2)
        (by show (2 * f.val + p.val) / 2 = f.val; omega) (by show (2 * f.val + p.val) % 2 = 1; omega)
      have hD := coef_split c b n t (⟨2 * f.val + p.val - 1, by omega⟩ : Fin 192) (⟨f.val, hf⟩ : Fin 96) (0 : Fin 2)
        (by show (2 * f.val + p.val - 1) / 2 = f.val; omega) (by show (2 * f.val + p.val - 1) % 2 = 0; omega)
      exact congrArg₂ (· + ·) (congrArg₂ (· * ·) hA hB) (congrArg₂ (· * ·) hC hD)
  · have hl : ¬ 2 * f.val + p.val < 192 := by omega
    rw [dif_neg hl, dif_neg hf, splitX_mergeX]

end Cert.DeepFilter

end
-- ==== Proof.KI.Blocks.lean ====
/-
  The blocks a grid point works on, as parts of the whole arrays. Point `t` of the 8 × 10 grid is batch block
  `t / 10` and frame block `t % 10`: its spectrogram block is batches 4(t/10)‥, frames 200(t%10)‥, lanes 0‥255 of the
  merged spectrogram, its coefficient block the same batches and frames of the merged coefficients. The carry a
  point is handed is zero at the first frame block of a batch block, and otherwise the four frames just before its
  own block.
-/
import proofs.«422068_j29231547416739_3_alg».proof.Proof.KI.Pieces
import proofs.«422068_j29231547416739_3_alg».proof.Proof.KI.Lanes
import proofs.«422068_j29231547416739_3_alg».proof.Proof.Merged

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The printed index maps, decided over the grid. -/
theorem idx_facts : ∀ t : Fin cfg0.N,
    win0_0.index t (0 : Fin 4) = t.val / 10 ∧ win0_0.index t (1 : Fin 4) = 0 ∧ win0_0.index t (2 : Fin 4) = t.val % 10 ∧ win0_0.index t (3 : Fin 4) = 0
    ∧ win0_1.index t (0 : Fin 4) = t.val / 10 ∧ win0_1.index t (1 : Fin 4) = 0 ∧ win0_1.index t (2 : Fin 4) = t.val % 10 ∧ win0_1.index t (3 : Fin 4) = 0
    ∧ win0_2.index t (0 : Fin 4) = t.val / 10 ∧ win0_2.index t (1 : Fin 4) = 0 ∧ win0_2.index t (2 : Fin 4) = t.val % 10 ∧ win0_2.index t (3 : Fin 4) = 0 :=
  (by decide +kernel : ∀ t : Fin grid0.N, _)

theorem N_lt (t : Fin cfg0.N) : t.val < 80 := lt_of_lt_of_eq t.isLt (show cfg0.N = 80 from N_0)

/-- The spectrogram block at point `t`, element by element, off the merged spectrogram as the region finds it. -/
theorem X0_apply (c : Dev nD) (t : Fin cfg0.N) (bb : Fin 4) (r : Fin 200) (l : Fin 256) :
    X0 m c t (ix4 bb (0 : Fin 1) r l)
      = V m c main_v0 (ix4 (⟨4 * (t.val / 10) + bb.val, by have := N_lt t; omega⟩ : Fin 32) (0 : Fin 1)
          (⟨200 * (t.val % 10) + r.val, by omega⟩ : Fin 2000) (⟨l.val, by omega⟩ : Fin 962)) := by
  unfold X0
  rw [Pipeline.heldIn_of_fetch (A0 m c) 0 t (fetch0_0 t)]
  have hm : (cfg0.win 0).moved (grid0.coords t) (ix4 bb (0 : Fin 1) r l) = true :=
    ((cfg0.win 0).moved_iff _ _).mpr fun a => by
      have := ((ix4 bb (0 : Fin 1) r l : S4x1x200x256.Idx) a).isLt
      unfold Pipeline.Window.xsize; rw [hclip0_0 _ a]; exact this
  unfold Pipeline.Window.fill
  rw [dif_pos hm]
  obtain ⟨e0, e1, e2, e3, -⟩ := idx_facts t
  show V m c main_v0 (((cfg0.win 0).blk t).view.emb _) = _
  refine congrArg (V m c main_v0) ?_
  funext a; apply Fin.ext
  match a with
  | ⟨0, _⟩ => show win0_0.index t (0 : Fin 4) * 4 + 1 * bb.val = 4 * (t.val / 10) + bb.val; omega
  | ⟨1, _⟩ => show win0_0.index t (1 : Fin 4) * 1 + 1 * 0 = 0; omega
  | ⟨2, _⟩ => show win0_0.index t (2 : Fin 4) * 200 + 1 * r.val = 200 * (t.val % 10) + r.val; omega
  | ⟨3, _⟩ => show win0_0.index t (3 : Fin 4) * 256 + 1 * l.val = l.val; omega

/-- The coefficient block at point `t`, element by element, off the merged coefficients as the region finds them. -/
theorem X1_apply (c : Dev nD) (t : Fin cfg0.N) (bb : Fin 4) (n : Fin 5) (r : Fin 200) (l : Fin 192) :
    (iblk m c 1 t : Vec Ideal S4x5x200x192 .f32) (ix4 bb n r l)
      = V m c main_v1 (ix4 (⟨4 * (t.val / 10) + bb.val, by have := N_lt t; omega⟩ : Fin 32) n
          (⟨200 * (t.val % 10) + r.val, by omega⟩ : Fin 2000) l) := by
  obtain ⟨-, -, -, -, e0, e1, e2, e3, -⟩ := idx_facts t
  unfold iblk
  show V m c main_v1 (((cfg0.win 1).blk t).view.emb _) = _
  refine congrArg (V m c main_v1) ?_
  funext a; apply Fin.ext
  match a with
  | ⟨0, _⟩ => show win0_1.index t (0 : Fin 4) * 4 + 1 * bb.val = 4 * (t.val / 10) + bb.val; omega
  | ⟨1, _⟩ => show win0_1.index t (1 : Fin 4) * 5 + 1 * n.val = n.val; omega
  | ⟨2, _⟩ => show win0_1.index t (2 : Fin 4) * 200 + 1 * r.val = 200 * (t.val % 10) + r.val; omega
  | ⟨3, _⟩ => show win0_1.index t (3 : Fin 4) * 192 + 1 * l.val = l.val; omega

/-! ## The carry -/

/-- After any point the carry scratch holds the last four frames of that point's band. -/
theorem sc_eq (c : Dev nD) (t : Fin cfg0.N) : (outsAt0 m c t.val t.isLt).2 = k0_pay14 (k0_pay3 (X0 m c t)) := by
  by_cases h0 : t.val % 10 = 0
  · rw [outsAt0_A m c t h0]; dsimp only
    exact sout0_A_0_eq (F := Ideal) c _ _ _ _ _ _ _ _ _ _ _ _
  · rw [outsAt0_B m c t h0]; dsimp only
    exact sout0_B_0_eq (F := Ideal) c _ _ _ _ _ _ _ _ _ _ _ _ _

/-- The carry point `t` works with: zero at the first frame block of a batch block, else the last four frames of the
    band of the point before. -/
def carryIn (c : Dev nD) (t : Fin cfg0.N) : Vec Ideal S4x4x192 .f32 :=
  if t.val % 10 = 0 then k0_pay1 (F := Ideal)
  else k0_pay14 (k0_pay3 (X0 m c ⟨t.val - 1, Nat.lt_of_le_of_lt (Nat.sub_le _ _) t.isLt⟩))

/-- What a point leaves in the output's staging buffer: the output block of its two blocks and that carry. -/
theorem out_eq (c : Dev nD) (t : Fin cfg0.N) :
    (outsAt0 m c t.val t.isLt).1 = outBlk (X0 m c t) (carryIn m c t) (iblk m c 1 t) := by
  unfold carryIn
  by_cases h0 : t.val % 10 = 0
  · rw [outsAt0_A m c t h0, if_pos h0]; dsimp only
    exact out0_A_2_eq (F := Ideal) c _ _ _ _ _ _ _ _ _ _ _ _
  · rw [outsAt0_B m c t h0, if_neg h0]; dsimp only
    refine (out0_B_2_eq (F := Ideal) c _ _ _ _ _ _ _ _ _ _ _ _ _).trans ?_
    rw [sc_eq m c ⟨t.val - 1, Nat.lt_of_le_of_lt (Nat.sub_le _ _) t.isLt⟩]

/-- The five-frame causal window a point reads, in the merged spectrogram's own coordinates: the stacked carry and band
    at row `r + n` is the spectrogram at frame `T + n - 4` (`T` the frame of row `r`), and zero before the first frame. -/
theorem ext_eq (c : Dev nD) (t : Fin cfg0.N) (bb : Fin 4) (r : Fin 200) (n : Fin 5) (l : Fin 192) :
    Cert.KernelIdeal.Lanes.ext (X0 m c t) (carryIn m c t) bb (⟨r.val + n.val, by omega⟩ : Fin 204) l
      = Cert.DeepFilter.tapM (V m c main_v0) (⟨4 * (t.val / 10) + bb.val, by have := N_lt t; omega⟩ : Fin 32)
          (⟨200 * (t.val % 10) + r.val, by omega⟩ : Fin 2000) n (⟨l.val, by omega⟩ : Fin 962) := by
  have hN := N_lt t
  unfold Cert.KernelIdeal.Lanes.ext Cert.DeepFilter.tapM
  by_cases hj : r.val + n.val < 4
  · rw [dif_pos hj]
    unfold carryIn
    by_cases h0 : t.val % 10 = 0
    · rw [if_pos h0, Cert.KernelIdeal.Lanes.cleared_apply, dif_neg (by show ¬ 4 ≤ 200 * (t.val % 10) + r.val + n.val; omega)]
    · rw [if_neg h0, Cert.KernelIdeal.Lanes.carry_apply, X0_apply, dif_pos (by show 4 ≤ 200 * (t.val % 10) + r.val + n.val; omega)]
      refine congrArg (V m c main_v0) ?_
      funext a; apply Fin.ext
      match a with
      | ⟨0, _⟩ => show 4 * ((t.val - 1) / 10) + bb.val = 4 * (t.val / 10) + bb.val; omega
      | ⟨1, _⟩ => rfl
      | ⟨2, _⟩ => show 200 * ((t.val - 1) % 10) + (196 + (r.val + n.val)) = 200 * (t.val % 10) + r.val + n.val - 4; omega
      | ⟨3, _⟩ => rfl
  · rw [dif_neg hj, X0_apply, dif_pos (by show 4 ≤ 200 * (t.val % 10) + r.val + n.val; omega)]
    refine congrArg (V m c main_v0) ?_
    funext a; apply Fin.ext
    match a with
    | ⟨0, _⟩ => rfl
    | ⟨1, _⟩ => rfl
    | ⟨2, _⟩ => show 200 * (t.val % 10) + (r.val + n.val - 4) = 200 * (t.val % 10) + r.val + n.val - 4; omega
    | ⟨3, _⟩ => rfl

end Cert.KernelIdeal.Hand

end
-- ==== Proof.KI.OutBlk.lean ====
/-
  The output block a point leaves, read lane by lane: its first 192 lanes are the filtered band's, its last 64 the
  spectrogram block's own.
-/
import proofs.«422068_j29231547416739_3_alg».proof.Proof.KI.Pieces
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- A lane of the band reads the filtered payload. -/
theorem outBlk_apply_lo (x0 : Vec F S4x1x200x256 .f32) (S : Vec F S4x4x192 .f32) (x1 : Vec F S4x5x200x192 .f32)
    (b : Fin 4) (r : Fin 200) (l : Fin 192) :
    outBlk x0 S x1 (ix4 b (0 : Fin 1) r (⟨l.val, by omega⟩ : Fin 256)) = outPay x0 S x1 (ix4 b (0 : Fin 1) r l) := by
  unfold outBlk
  -- lane `l < 192` lies off the 64-lane rectangle, which starts at lane 192
  refine (View.canon_cons_of_not_mem _ _ ?_).trans ?_
  · show ix4 b (0 : Fin 1) r (⟨l.val, by omega⟩ : Fin 256)
        ∉ (Rect.unit (s := S4x1x200x256) ![0, 0, 0, 192] S4x1x200x64.size inb_S4x1x200x256_S4x1x200x64_0_0_0_192).set
    rw [Rect.mem_set_unit]
    intro h
    have hlt : 3 < S4x1x200x256.rank := by decide
    have h3 : 192 ≤ l.val := (h ⟨3, hlt⟩).1
    omega
  · -- and is the band rectangle's own lane `l`
    have e : ix4 b (0 : Fin 1) r (⟨l.val, by omega⟩ : Fin 256)
        = (Rect.unit (s := S4x1x200x256) ![0, 0, 0, 0] S4x1x200x192.size inb_S4x1x200x256_S4x1x200x192_0_0_0_0).emb (ix4 b (0 : Fin 1) r l) := by
      refine funext fun a => Fin.ext ?_
      match a with
      | ⟨0, _⟩ => show b.val = 0 + 1 * b.val; omega
      | ⟨1, _⟩ => show 0 = 0 + 1 * 0; omega
      | ⟨2, _⟩ => show r.val = 0 + 1 * r.val; omega
      | ⟨3, _⟩ => show l.val = 0 + 1 * l.val; omega
    rw [e]
    exact View.canon_cons_emb _ _ _ _

/-- A lane beside the band reads the block's own lane, stored back. -/
theorem outBlk_apply_hi (x0 : Vec F S4x1x200x256 .f32) (S : Vec F S4x4x192 .f32) (x1 : Vec F S4x5x200x192 .f32)
    (b : Fin 4) (r : Fin 200) (q : Fin 64) :
    outBlk x0 S x1 (ix4 b (0 : Fin 1) r (⟨192 + q.val, by omega⟩ : Fin 256)) = k0_pay16 (F := F) (k0_pay4 x0) (ix4 b (0 : Fin 1) r q) := by
  unfold outBlk
  -- lane `192 + q` is the 64-lane rectangle's own lane `q`
  have e : ix4 b (0 : Fin 1) r (⟨192 + q.val, by omega⟩ : Fin 256)
      = (Rect.unit (s := S4x1x200x256) ![0, 0, 0, 192] S4x1x200x64.size inb_S4x1x200x256_S4x1x200x64_0_0_0_192).emb (ix4 b (0 : Fin 1) r q) := by
    refine funext fun a => Fin.ext ?_
    match a with
    | ⟨0, _⟩ => show b.val = 0 + 1 * b.val; omega
    | ⟨1, _⟩ => show 0 = 0 + 1 * 0; omega
    | ⟨2, _⟩ => show r.val = 0 + 1 * r.val; omega
    | ⟨3, _⟩ => show 192 + q.val = 192 + 1 * q.val; omega
  rw [e]
  exact View.canon_cons_emb _ _ _ _

end Cert.KernelIdeal.Hand

end
-- ==== Proof.KI.Final.lean ====
/-
  The output array after the run. Each grid point writes back the first 256 lanes of its 4 × 200 tile of the merged
  output array; what it writes is that tile of the merged deep-filter operator of the merged spectrogram and
  coefficients: lanes 0‥191 are the five-tap complex sums, whose causal window is the stacked carry and band, and
  lanes 192‥255 are the spectrogram's own. The tiles cover lanes 0‥255 of every batch and frame, so the array ends
  at the merged operator there and at its region-entry contents on the lanes from 256 on.
-/
import proofs.«422068_j29231547416739_3_alg».proof.Proof.KI.Blocks
import proofs.«422068_j29231547416739_3_alg».proof.Proof.KI.OutBlk

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The merged operator of the arrays the region finds, as contents of the output array. -/
def Gfin (c : Dev nD) : Buf (Elt Ideal) ((cfg0.win 2).arr.view.loc (c.tc : Thread nD τ)) :=
  Cert.DeepFilter.Gm (V m c main_v0) (V m c main_v1)

/-- One lane of the band, as the point computes it, is that lane of the merged operator. -/
theorem lane_eq (c : Dev nD) (t : Fin cfg0.N) (bb : Fin 4) (r : Fin 200) (l : Fin 192) :
    Cert.KernelIdeal.Lanes.laneOut (X0 m c t) (carryIn m c t) (iblk m c 1 t) bb r l
      = Cert.DeepFilter.macM (V m c main_v0) (V m c main_v1) (⟨4 * (t.val / 10) + bb.val, by have := N_lt t; omega⟩ : Fin 32)
          (⟨200 * (t.val % 10) + r.val, by omega⟩ : Fin 2000) l := by
  unfold Cert.KernelIdeal.Lanes.laneOut Cert.DeepFilter.macM
  by_cases hp : l.val % 2 = 0
  · rw [dif_pos hp, dif_pos hp]
    refine Finset.sum_congr rfl fun n _ => ?_
    rw [ext_eq, ext_eq, X1_apply, X1_apply]
  · rw [dif_neg hp, dif_neg hp]
    refine Finset.sum_congr rfl fun n _ => ?_
    rw [ext_eq, ext_eq, X1_apply, X1_apply]

/-- WHAT POINT `t` WRITES BACK is its tile of the merged operator. -/
theorem flushed2_eq (c : Dev nD) (t : Fin cfg0.N) :
    (dats m 0 c).flushed 2 t = ((cfg0.win 2).blk t).view.read (Elt Ideal) (Gfin m c) := by
  show (cfg0.win 2).cut (grid0.coords t) ((dats m 0 c).after 2 t) = _
  rw [after0_2, out_eq]
  obtain ⟨-, -, -, -, -, -, -, -, e0, e1, e2, e3⟩ := idx_facts t
  have hN := N_lt t
  funext j
  have hj0 : (j 0).val < 4 := lt_of_lt_of_le (j 0).isLt (win0_2.xsize_le (grid0.coords t) 0)
  have hj1 : (j 1).val < 1 := lt_of_lt_of_le (j 1).isLt (win0_2.xsize_le (grid0.coords t) 1)
  have hj2 : (j 2).val < 200 := lt_of_lt_of_le (j 2).isLt (win0_2.xsize_le (grid0.coords t) 2)
  have hj3 : (j 3).val < 256 := lt_of_lt_of_le (j 3).isLt (win0_2.xsize_le (grid0.coords t) 3)
  show outBlk (X0 m c t) (carryIn m c t) (iblk m c 1 t) ((cfg0.win 2).xinj (grid0.coords t) j)
      = Gfin m c (((cfg0.win 2).blk t).view.emb j)
  have hemb : ((cfg0.win 2).blk t).view.emb j
      = (ix4 (⟨4 * (t.val / 10) + (j 0).val, by omega⟩ : Fin 32) (0 : Fin 1) (⟨200 * (t.val % 10) + (j 2).val, by omega⟩ : Fin 2000)
          (⟨(j 3).val, by omega⟩ : Fin 962) : S32x1x2000x962.Idx) := by
    funext a; apply Fin.ext
    match a with
    | ⟨0, _⟩ => show win0_2.index t (0 : Fin 4) * 4 + 1 * (j 0).val = 4 * (t.val / 10) + (j 0).val; omega
    | ⟨1, _⟩ => show win0_2.index t (1 : Fin 4) * 1 + 1 * (j 1).val = 0; omega
    | ⟨2, _⟩ => show win0_2.index t (2 : Fin 4) * 200 + 1 * (j 2).val = 200 * (t.val % 10) + (j 2).val; omega
    | ⟨3, _⟩ => show win0_2.index t (3 : Fin 4) * 256 + 1 * (j 3).val = (j 3).val; omega
  rw [hemb]
  unfold Gfin Cert.DeepFilter.Gm
  by_cases hl : (j 3).val < 192
  · have hx : (cfg0.win 2).xinj (grid0.coords t) j
        = (ix4 (⟨(j 0).val, hj0⟩ : Fin 4) (0 : Fin 1) (⟨(j 2).val, hj2⟩ : Fin 200) (⟨((⟨(j 3).val, hl⟩ : Fin 192)).val, by omega⟩ : Fin 256) : S4x1x200x256.Idx) := by
      funext a; apply Fin.ext
      match a with
      | ⟨0, _⟩ => rfl
      | ⟨1, _⟩ => show (j 1).val = 0; omega
      | ⟨2, _⟩ => rfl
      | ⟨3, _⟩ => rfl
    rw [hx, outBlk_apply_lo]
    rw [dif_pos (show ((ix4 (⟨4 * (t.val / 10) + (j 0).val, by omega⟩ : Fin 32) (0 : Fin 1) (⟨200 * (t.val % 10) + (j 2).val, by omega⟩ : Fin 2000)
          (⟨(j 3).val, by omega⟩ : Fin 962) : S32x1x2000x962.Idx) 3).val < 192 from hl)]
    refine (Cert.KernelIdeal.Lanes.outPay_apply (X0 m c t) (carryIn m c t) (iblk m c 1 t) ⟨(j 0).val, hj0⟩ ⟨(j 2).val, hj2⟩ ⟨(j 3).val, hl⟩).trans ?_
    exact lane_eq m c t ⟨(j 0).val, hj0⟩ ⟨(j 2).val, hj2⟩ ⟨(j 3).val, hl⟩
  · have hq : (j 3).val - 192 < 64 := by omega
    have hx : (cfg0.win 2).xinj (grid0.coords t) j
        = (ix4 (⟨(j 0).val, hj0⟩ : Fin 4) (0 : Fin 1) (⟨(j 2).val, hj2⟩ : Fin 200) (⟨192 + ((⟨(j 3).val - 192, hq⟩ : Fin 64)).val, by omega⟩ : Fin 256) : S4x1x200x256.Idx) := by
      funext a; apply Fin.ext
      match a with
      | ⟨0, _⟩ => rfl
      | ⟨1, _⟩ => show (j 1).val = 0; omega
      | ⟨2, _⟩ => rfl
      | ⟨3, _⟩ => show (j 3).val = 192 + ((j 3).val - 192); omega
    rw [hx, outBlk_apply_hi, Cert.KernelIdeal.Lanes.pass_apply, X0_apply]
    rw [dif_neg (show ¬ ((ix4 (⟨4 * (t.val / 10) + (j 0).val, by omega⟩ : Fin 32) (0 : Fin 1) (⟨200 * (t.val % 10) + (j 2).val, by omega⟩ : Fin 2000)
          (⟨(j 3).val, by omega⟩ : Fin 962) : S32x1x2000x962.Idx) 3).val < 192 from hl)]
    refine congrArg (V m c main_v0) ?_
    funext a; apply Fin.ext
    match a with
    | ⟨0, _⟩ => rfl
    | ⟨1, _⟩ => rfl
    | ⟨2, _⟩ => rfl
    | ⟨3, _⟩ => show 192 + ((j 3).val - 192) = (j 3).val; omega

/-- An index of the output array is in point `t`'s tile iff each coordinate is in the tile's range on its axis. -/
theorem mem_blk2 (t : Fin cfg0.N) (i : S32x1x2000x962.Idx) :
    i ∈ ((cfg0.win 2).blk t).view.set ↔ ∀ a : Fin 4, win0_2.index t a * S4x1x200x256.size a ≤ (i a).val ∧ (i a).val < win0_2.index t a * S4x1x200x256.size a + win0_2.xsize (grid0.coords t) a := by
  show i ∈ ((View.whole main_v2).slice (win0_2.rect t)).set ↔ _
  rw [View.set_slice_whole, Rect.mem_set_unit]
  exact Iff.rfl

theorem xsize2 (t : Fin cfg0.N) (a : Fin 4) : win0_2.xsize (grid0.coords t) a = S4x1x200x256.size a := by
  unfold Pipeline.Window.xsize; rw [hclip0_2 _ a]

/-- THE COVERED INDICES: the tiles fill lanes 0‥255 of every batch and frame. -/
theorem covered_iff2 (i : S32x1x2000x962.Idx) :
    (∃ t : Fin cfg0.N, (cfg0.win 2).flush t = true ∧ i ∈ ((cfg0.win 2).blk t).view.set) ↔ (i 3).val < 256 := by
  have hi0 : (i 0).val < 32 := (i 0).isLt
  have hi1 : (i 1).val < 1 := (i 1).isLt
  have hi2 : (i 2).val < 2000 := (i 2).isLt
  constructor
  · rintro ⟨t, -, hi⟩
    rw [mem_blk2] at hi
    have b3 := hi 3
    rw [xsize2] at b3
    obtain ⟨-, -, -, -, -, -, -, -, e0, e1, e2, e3⟩ := idx_facts t
    have b3' : win0_2.index t (3 : Fin 4) * 256 ≤ (i 3).val ∧ (i 3).val < win0_2.index t (3 : Fin 4) * 256 + 256 := b3
    omega
  · intro h
    have hN : cfg0.N = 80 := N_0
    refine ⟨⟨(i 0).val / 4 * 10 + (i 2).val / 200, by omega⟩, flush0_2 _, ?_⟩
    rw [mem_blk2]
    obtain ⟨-, -, -, -, -, -, -, -, e0, e1, e2, e3⟩ := idx_facts ⟨(i 0).val / 4 * 10 + (i 2).val / 200, by omega⟩
    intro a
    rw [xsize2]
    match a with
    | ⟨0, _⟩ => show win0_2.index _ (0 : Fin 4) * 4 ≤ (i 0).val ∧ (i 0).val < win0_2.index _ (0 : Fin 4) * 4 + 4; rw [e0]; show ((i 0).val / 4 * 10 + (i 2).val / 200) / 10 * 4 ≤ (i 0).val ∧ (i 0).val < ((i 0).val / 4 * 10 + (i 2).val / 200) / 10 * 4 + 4; omega
    | ⟨1, _⟩ => show win0_2.index _ (1 : Fin 4) * 1 ≤ (i 1).val ∧ (i 1).val < win0_2.index _ (1 : Fin 4) * 1 + 1; rw [e1]; omega
    | ⟨2, _⟩ => show win0_2.index _ (2 : Fin 4) * 200 ≤ (i 2).val ∧ (i 2).val < win0_2.index _ (2 : Fin 4) * 200 + 200; rw [e2]; show ((i 0).val / 4 * 10 + (i 2).val / 200) % 10 * 200 ≤ (i 2).val ∧ (i 2).val < ((i 0).val / 4 * 10 + (i 2).val / 200) % 10 * 200 + 200; omega
    | ⟨3, _⟩ => show win0_2.index _ (3 : Fin 4) * 256 ≤ (i 3).val ∧ (i 3).val < win0_2.index _ (3 : Fin 4) * 256 + 256; rw [e3]; omega

/-- THE OUTPUT ARRAY after the run: the merged operator on lanes 0‥255, its region-entry contents beyond. -/
theorem final2 (c : Dev nD) (i : S32x1x2000x962.Idx) :
    (dats m 0 c).arrAt 2 cfg0.N i = if (i 3).val < 256 then Gfin m c i else V m c main_v2 i := by
  rw [(dats m 0 c).arrAt_eq_piecewise 2 (Gfin m c) (fun t _ => flushed2_eq m c t) i, A_eq]
  exact if_congr (covered_iff2 i) rfl rfl

end Cert.KernelIdeal.Hand

end
-- ==== Proof.KI.Host.lean ====
/-
  The host operations around the region, read at an index: the merged spectrogram and coefficients the region finds
  are the two arguments with their last two axes merged; the output array starts as a copy of the merged spectrogram;
  and the program's result is the output array with its last axis split back.
-/
import proofs.«422068_j29231547416739_3_alg».proof.Proof.KI.Frame
import proofs.«422068_j29231547416739_3_alg».proof.Proof.Merged
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The merged spectrogram the region finds is the first argument with its last two axes merged. -/
theorem V_v0_eq (c : Dev nD) :
    (V m c main_v0 : S32x1x2000x962.Idx → EReal)
      = shapeCast S32x1x2000x962 (m ((c.tc : Thread nD τ).loc main_arg0)) shapeCasts_S32x1x2000x481x2_S32x1x2000x962 := by
  show StableHlo.after hostOps0 (fun b => m (c, b)) (Proc.devRef .tc main_v0) = _
  after_results
  rfl

/-- The merged coefficients the region finds are the second argument with its last two axes merged. -/
theorem V_v1_eq (c : Dev nD) :
    (V m c main_v1 : S32x5x2000x192.Idx → EReal)
      = shapeCast S32x5x2000x192 (m ((c.tc : Thread nD τ).loc main_arg1)) shapeCasts_S32x5x2000x96x2_S32x5x2000x192 := by
  show StableHlo.after hostOps0 (fun b => m (c, b)) (Proc.devRef .tc main_v1) = _
  after_results
  rfl

/-- The output array starts as the same merge of the first argument. -/
theorem V_v2_eq' (c : Dev nD) :
    (V m c main_v2 : S32x1x2000x962.Idx → EReal)
      = shapeCast S32x1x2000x962 (m ((c.tc : Thread nD τ).loc main_arg0)) shapeCasts_S32x1x2000x481x2_S32x1x2000x962 := by
  show StableHlo.after hostOps0 (fun b => m (c, b)) (Proc.devRef .tc main_v2) = _
  after_results
  rfl

/-- The merged spectrogram the region finds, at an index: the argument at the split index. -/
theorem V_v0_apply (c : Dev nD) (j : S32x1x2000x962.Idx) :
    V m c main_v0 j = m ((c.tc : Thread nD τ).loc main_arg0) (Cert.DeepFilter.splitX j) := by
  refine (congrFun (V_v0_eq m c) j).trans ?_
  refine shapeCast_apply _ _ j (Cert.DeepFilter.splitX j) ?_
  rw [Shape.rowMajor_val_five, Shape.rowMajor_val_four]
  have h0 : (j 0).val < 32 := (j 0).isLt
  have h1 : (j 1).val < 1 := (j 1).isLt
  have h2 : (j 2).val < 2000 := (j 2).isLt
  have h3 : (j 3).val < 962 := (j 3).isLt
  have hk : ((((j 0).val * 1 + 0) * 2000 + (j 2).val) * 481 + (j 3).val / 2) * 2 + (j 3).val % 2
      = (((j 0).val * 1 + (j 1).val) * 2000 + (j 2).val) * 962 + (j 3).val := by omega
  exact hk

/-- The merged coefficients the region finds, at an index. -/
theorem V_v1_apply (c : Dev nD) (j : S32x5x2000x192.Idx) :
    V m c main_v1 j = m ((c.tc : Thread nD τ).loc main_arg1) (Cert.DeepFilter.splitC j) := by
  refine (congrFun (V_v1_eq m c) j).trans ?_
  refine shapeCast_apply _ _ j (Cert.DeepFilter.splitC j) ?_
  rw [Shape.rowMajor_val_five, Shape.rowMajor_val_four]
  have h0 : (j 0).val < 32 := (j 0).isLt
  have h1 : (j 1).val < 5 := (j 1).isLt
  have h2 : (j 2).val < 2000 := (j 2).isLt
  have h3 : (j 3).val < 192 := (j 3).isLt
  have hk : ((((j 0).val * 5 + (j 1).val) * 2000 + (j 2).val) * 96 + (j 3).val / 2) * 2 + (j 3).val % 2
      = (((j 0).val * 5 + (j 1).val) * 2000 + (j 2).val) * 192 + (j 3).val := by omega
  exact hk

/-- The output array starts as a copy of the merged spectrogram. -/
theorem V_v2_eq (c : Dev nD) : V m c main_v2 = V m c main_v0 :=
  (V_v2_eq' m c).trans (V_v0_eq m c).symm

/-- The program's result is the output array after the region with its last axis split back. -/
theorem tail_v3_eq (c : Dev nD) :
    (Pipeline.afterTail₀ cfgs (dats m) 0 (V0 m) [hostOps1] c main_v3 : S32x1x2000x481x2.Idx → EReal)
      = shapeCast S32x1x2000x481x2 ((dats m 0 c).arrAt 2 cfg0.N) shapeCasts_S32x1x2000x962_S32x1x2000x481x2 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = (dats m 0 c).arrAt 2 cfg0.N :=
    Pipeline.withArrays_arr spec0 launch0.win.arr_inj c _ _ 2
  rw [hw]
  generalize (dats m 0 c).arrAt 2 cfg0.N = y
  rfl

/-- The program's result after the last reshape, at an index: the output array after the region at the merged index. -/
theorem tail_v3_apply (c : Dev nD) (i : S32x1x2000x481x2.Idx) :
    Pipeline.afterTail₀ cfgs (dats m) 0 (V0 m) [hostOps1] c main_v3 i = (dats m 0 c).arrAt 2 cfg0.N (Cert.DeepFilter.mergeX i) := by
  refine (congrFun (tail_v3_eq m c) i).trans ?_
  generalize (dats m 0 c).arrAt 2 cfg0.N = y
  refine shapeCast_apply _ _ i (Cert.DeepFilter.mergeX i) ?_
  rw [Shape.rowMajor_val_four, Shape.rowMajor_val_five]
  have h0 : (i 0).val < 32 := (i 0).isLt
  have h1 : (i 1).val < 1 := (i 1).isLt
  have h2 : (i 2).val < 2000 := (i 2).isLt
  have h3 : (i 3).val < 481 := (i 3).isLt
  have h4 : (i 4).val < 2 := (i 4).isLt
  have hk : (((i 0).val * 1 + 0) * 2000 + (i 2).val) * 962 + (2 * (i 3).val + (i 4).val)
      = ((((i 0).val * 1 + (i 1).val) * 2000 + (i 2).val) * 481 + (i 3).val) * 2 + (i 4).val := by omega
  exact hk

end Cert.KernelIdeal.Hand

end
-- ==== Proof.KI.Value.lean ====
/-
  The idealized kernel's run, read: its result array is the deep-filter operator of its two arguments.

  The output array after the region is the merged operator of the merged arguments on lanes 0‥255 and the merged
  spectrogram itself beyond (where the merged operator is the spectrogram too); split back into (bin, part) it is the
  operator of Spec.lean.
-/
import proofs.«422068_j29231547416739_3_alg».proof.Proof.KI.Final
import proofs.«422068_j29231547416739_3_alg».proof.Proof.KI.Host

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The merged operator of what the region finds, at a merged index, is the operator of the two arguments. -/
theorem Gfin_merge (c : Dev nD) (i : S32x1x2000x481x2.Idx) :
    Gfin m c (Cert.DeepFilter.mergeX i)
      = Cert.DeepFilter.G (m ((c.tc : Thread nD τ).loc main_arg0)) (m ((c.tc : Thread nD τ).loc main_arg1)) i := by
  unfold Gfin
  have e0 : (V m c main_v0 : Cert.DeepFilter.SXm.Idx → EReal) = fun j => m ((c.tc : Thread nD τ).loc main_arg0) (Cert.DeepFilter.splitX j) :=
    funext (V_v0_apply m c)
  have e1 : (V m c main_v1 : Cert.DeepFilter.SCm.Idx → EReal) = fun j => m ((c.tc : Thread nD τ).loc main_arg1) (Cert.DeepFilter.splitC j) :=
    funext (V_v1_apply m c)
  rw [e0, e1]
  exact Cert.DeepFilter.Gm_merge _ _ i

/-- The program's result, at an index. -/
theorem result_apply (c : Dev nD) (i : S32x1x2000x481x2.Idx) :
    Pipeline.afterTail₀ cfgs (dats m) 0 (V0 m) [hostOps1] c main_v3 i
      = Cert.DeepFilter.G (m ((c.tc : Thread nD τ).loc main_arg0)) (m ((c.tc : Thread nD τ).loc main_arg1)) i := by
  rw [tail_v3_apply, final2]
  by_cases h : ((Cert.DeepFilter.mergeX i) 3).val < 256
  · rw [if_pos h]; exact Gfin_merge m c i
  · rw [if_neg h, V_v2_eq, ← Gfin_merge m c i]
    unfold Gfin Cert.DeepFilter.Gm
    rw [dif_neg (by omega)]

/-- Every execution of the idealized kernel ends with its result array at the deep-filter operator of its arguments,
    which end unchanged. -/
theorem run_value : θ_run defs (onTc (τ := τ) (main (F := Ideal))) ⟨m, fun _ => 0, ρ⟩ (fun r => ∀ c : Dev nD,
      r.2.mem ((c.tc : Thread nD τ).loc main_v3)
        = Cert.DeepFilter.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (funext (result_apply m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.LibScatterSet.lean ====
/-
  The host's scatter whose body returns the update (an assignment into a window of the operand), read at one index.

  The scatter is a fold over the update positions; with an assigning body the value it leaves at operand index i is
  the update that lands at i when exactly one does, and the operand's own element when none does (general lemmas, any
  dimension numbers). Where an update lands is "start plus window coordinate on every axis" (general
  characterisation). For the four families of dimension numbers a rank-2 operand's rectangular assignment prints to —
  a K × N block written at a start given by two index components or by one (the column start then 0), and one row of
  N elements written at a start given by one or two index components — the start and the window coordinate are computed
  in closed form, and the scatter at (r, c) is the update's element when (r, c) lies in the written rectangle and the
  operand's element otherwise.
-/
import Mathlib.Data.BitVec
import Idealize.ShloMosaic.Lib.ValueIdx

namespace Cert.LibScatterSet

open Idealize.ShloMosaic Idealize.ShloMosaic.ValueIdx

/-! ## Any scatter with an assigning body -/

section General
variable {α : Type} {s si u : Shape} {w : Nat}

/-- One step of the scatter's fold, at update position n. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose update lands elsewhere (or nowhere) leaves the value at i. -/
theorem step_of_ne (d : ScatterDims s si u) (idx : IVec si w) (upd : u.Idx → α) (r : s.Idx → α) (n : Fin u.numel)
    (i : s.Idx) (h : d.resultIdx? (u.rowMajor.symm n) idx ≠ some i) : step d idx upd r n i = r i := by
  unfold step
  cases hk : d.resultIdx? (u.rowMajor.symm n) idx with
  | none => rfl
  | some k =>
    have hik : i ≠ k := fun e => h (by rw [hk, e])
    simp only [if_neg hik]

/-- A step whose update lands at i leaves the update there. -/
theorem step_of_eq (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  simp only [if_true]

/-- Over a list of update positions none of which lands at i, the fold leaves the value at i. -/
theorem foldl_of_none (d : ScatterDims s si u) (idx : IVec si w) (upd : u.Idx → α) (i : s.Idx) :
    ∀ (l : List (Fin u.numel)) (x : s.Idx → α), (∀ n ∈ l, d.resultIdx? (u.rowMajor.symm n) idx ≠ some i) →
      l.foldl (step d idx upd) x i = x i
  | [], _, _ => rfl
  | n :: l, x, h => by
    rw [List.foldl_cons, foldl_of_none d idx upd i l _ fun n' hn' => h n' (List.mem_cons_of_mem _ hn'),
      step_of_ne d idx upd x n i (h n List.mem_cons_self)]

/-- Over a list of update positions of which n₀, and no other, lands at i, the fold leaves n₀'s update at i. -/
theorem foldl_of_unique (d : ScatterDims s si u) (idx : IVec si w) (upd : u.Idx → α) (i : s.Idx) (n₀ : Fin u.numel)
    (h₀ : d.resultIdx? (u.rowMajor.symm n₀) idx = some i) :
    ∀ (l : List (Fin u.numel)) (x : s.Idx → α), n₀ ∈ l →
      (∀ n ∈ l, d.resultIdx? (u.rowMajor.symm n) idx = some i → n = n₀) →
      l.foldl (step d idx upd) x i = upd (u.rowMajor.symm n₀)
  | [], _, hm, _ => absurd hm List.not_mem_nil
  | n :: l, x, hm, hu => by
    rw [List.foldl_cons]
    by_cases hl : n₀ ∈ l
    · exact foldl_of_unique d idx upd i n₀ h₀ l _ hl fun n' hn' => hu n' (List.mem_cons_of_mem _ hn')
    · have hn : n = n₀ := by
        rcases List.mem_cons.mp hm with e | e
        · exact e.symm
        · exact absurd e hl
      subst hn
      rw [foldl_of_none d idx upd i l _ fun n' hn' e => hl (hu n' (List.mem_cons_of_mem _ hn') e ▸ hn'),
        step_of_eq d idx upd x n i h₀]

/-- No update lands at i: the scatter leaves the operand's element. -/
theorem scatter_set_apply_none (d : ScatterDims s si u) (x : s.Idx → α) (idx : IVec si w) (upd : u.Idx → α) (i : s.Idx)
    (h : ∀ j, d.resultIdx? j idx ≠ some i) : Host.scatter d (fun _ b => b) x idx upd i = x i := by
  rw [scatter_eq_foldl]
  exact foldl_of_none d idx upd i _ x fun n _ => h _

/-- Update j, and no other, lands at i: the scatter leaves update j's element. -/
theorem scatter_set_apply_some (d : ScatterDims s si u) (x : s.Idx → α) (idx : IVec si w) (upd : u.Idx → α) (i : s.Idx)
    (j : u.Idx) (hj : d.resultIdx? j idx = some i) (hu : ∀ j', d.resultIdx? j' idx = some i → j' = j) :
    Host.scatter d (fun _ b => b) x idx upd i = upd j := by
  rw [scatter_eq_foldl]
  have h₀ : d.resultIdx? (u.rowMajor.symm (u.rowMajor j)) idx = some i := by rw [Equiv.symm_apply_apply]; exact hj
  have := foldl_of_unique d idx upd i (u.rowMajor j) h₀ (List.finRange u.numel) x (List.mem_finRange _)
    fun n _ hn => by rw [← hu _ hn, Equiv.apply_symm_apply]
  rw [this, Equiv.symm_apply_apply]

/-- WHERE AN UPDATE LANDS: update j lands at operand index i exactly when, on every operand axis, the start plus the
    window coordinate is i's coordinate. -/
theorem resultIdx?_eq_some_iff (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · next hall =>
      have e := Option.some.inj h
      intro a
      have ea : (d.start j idx a + (d.window j a : ℤ)).toNat = (i a).val := congrArg Fin.val (congrFun e a)
      have := (hall a).1
      omega
    · cases h
  · intro h
    have hall : ∀ a, 0 ≤ d.start j idx a + (d.window j a : ℤ) ∧ d.start j idx a + (d.window j a : ℤ) < (s.size a : ℤ) := by
      intro a
      rw [h a]
      exact ⟨Int.natCast_nonneg _, Int.ofNat_lt.mpr (i a).isLt⟩
    rw [dif_pos hall]
    congr 1
    funext a
    refine Fin.ext ?_
    show (d.start j idx a + (d.window j a : ℤ)).toNat = (i a).val
    rw [h a]; rfl

end General

/-! ## A rectangle of a rank-2 operand assigned from a block or a row -/

section Rect
variable {α : Type} {R C K N w : Nat}

/-- A K × N block assigned with its corner at (r₀, c₀), read at (r, c): the block's element inside the rectangle, the
    operand's outside. What is asked of the dimension numbers and the indices is where an update lands. -/
theorem set_block_apply {si : Shape} (d : ScatterDims ⟨2, ![R, C]⟩ si ⟨2, ![K, N]⟩)
    (x : (⟨2, ![R, C]⟩ : Shape).Idx → α) (idx : IVec si w) (upd : (⟨2, ![K, N]⟩ : Shape).Idx → α) (r₀ c₀ : ℕ)
    (hiff : ∀ (j : (⟨2, ![K, N]⟩ : Shape).Idx) (i : (⟨2, ![R, C]⟩ : Shape).Idx),
      d.resultIdx? j idx = some i ↔ r₀ + (j 0).val = (i 0).val ∧ c₀ + (j 1).val = (i 1).val)
    (r : Fin R) (c : Fin C) :
    Host.scatter d (fun _ b => b) x idx upd (ix2 r c)
      = if h : (r₀ ≤ r.val ∧ r.val < r₀ + K) ∧ (c₀ ≤ c.val ∧ c.val < c₀ + N) then
          upd (ix2 ⟨r.val - r₀, by omega⟩ ⟨c.val - c₀, by omega⟩)
        else x (ix2 r c) := by
  by_cases h : (r₀ ≤ r.val ∧ r.val < r₀ + K) ∧ (c₀ ≤ c.val ∧ c.val < c₀ + N)
  · rw [dif_pos h]
    refine scatter_set_apply_some d x idx upd _ _ ((hiff _ _).mpr ⟨?_, ?_⟩) fun j' hj' => ?_
    · show r₀ + (r.val - r₀) = r.val
      omega
    · show c₀ + (c.val - c₀) = c.val
      omega
    · obtain ⟨h0, h1⟩ := (hiff _ _).mp hj'
      have h0' : r₀ + (j' 0).val = r.val := h0
      have h1' : c₀ + (j' 1).val = c.val := h1
      funext a
      match a with
      | ⟨0, _⟩ => exact Fin.ext (by show (j' 0).val = r.val - r₀; omega)
      | ⟨1, _⟩ => exact Fin.ext (by show (j' 1).val = c.val - c₀; omega)
  · rw [dif_neg h]
    refine scatter_set_apply_none d x idx upd _ fun j hj => h ?_
    obtain ⟨h0, h1⟩ := (hiff _ _).mp hj
    have h0' : r₀ + (j 0).val = r.val := h0
    have h1' : c₀ + (j 1).val = c.val := h1
    have := idx2_lt0 j
    have := idx2_lt1 j
    exact ⟨⟨by omega, by omega⟩, by omega, by omega⟩

/-- One row of N elements assigned at row r₀ from column c₀ on, read at (r, c). -/
theorem set_row_apply {si : Shape} (d : ScatterDims ⟨2, ![R, C]⟩ si ⟨1, ![N]⟩)
    (x : (⟨2, ![R, C]⟩ : Shape).Idx → α) (idx : IVec si w) (upd : (⟨1, ![N]⟩ : Shape).Idx → α) (r₀ c₀ : ℕ)
    (hiff : ∀ (j : (⟨1, ![N]⟩ : Shape).Idx) (i : (⟨2, ![R, C]⟩ : Shape).Idx),
      d.resultIdx? j idx = some i ↔ r₀ = (i 0).val ∧ c₀ + (j 0).val = (i 1).val)
    (r : Fin R) (c : Fin C) :
    Host.scatter d (fun _ b => b) x idx upd (ix2 r c)
      = if h : r.val = r₀ ∧ (c₀ ≤ c.val ∧ c.val < c₀ + N) then upd (ix1 ⟨c.val - c₀, by omega⟩) else x (ix2 r c) := by
  by_cases h : r.val = r₀ ∧ (c₀ ≤ c.val ∧ c.val < c₀ + N)
  · rw [dif_pos h]
    refine scatter_set_apply_some d x idx upd _ _ ((hiff _ _).mpr ⟨?_, ?_⟩) fun j' hj' => ?_
    · show r₀ = r.val
      omega
    · show c₀ + (c.val - c₀) = c.val
      omega
    · obtain ⟨_, h1⟩ := (hiff _ _).mp hj'
      have h1' : c₀ + (j' 0).val = c.val := h1
      funext a
      match a with
      | ⟨0, _⟩ => exact Fin.ext (by show (j' 0).val = c.val - c₀; omega)
  · rw [dif_neg h]
    refine scatter_set_apply_none d x idx upd _ fun j hj => h ?_
    obtain ⟨h0, h1⟩ := (hiff _ _).mp hj
    have h0' : r₀ = r.val := h0
    have h1' : c₀ + (j 0).val = c.val := h1
    have : (j 0).val < N := (j 0).isLt
    exact ⟨by omega, by omega, by omega⟩

end Rect

/-! ## The four families of dimension numbers -/

section Families
variable {α : Type} {R C K N w : Nat}

/-! ### A block at a start of two index components -/

/-- Operand [R, C], indices [2], updates [K, N]: both update axes are window axes, no operand axis is inserted, index
    component k is the start on operand axis k. -/
abbrev blk2Dims (R C K N : Nat) (wf : ScatterDims.WF ⟨2, ![R, C]⟩ ⟨1, ![2]⟩ ⟨2, ![K, N]⟩ [0, 1] [] [0, 1] 0) :
    ScatterDims ⟨2, ![R, C]⟩ ⟨1, ![2]⟩ ⟨2, ![K, N]⟩ where
  updateWindowDims := [0, 1]
  insertedWindowDims := []
  scatterDimsToOperandDims := [0, 1]
  indexVectorDim := 0
  wf := wf

section
variable (wf : ScatterDims.WF ⟨2, ![R, C]⟩ ⟨1, ![2]⟩ ⟨2, ![K, N]⟩ [0, 1] [] [0, 1] 0)

theorem blk2_start0 (j : (⟨2, ![K, N]⟩ : Shape).Idx) (idx : IVec ⟨1, ![2]⟩ w) :
    (blk2Dims R C K N wf).start j idx 0 = (idx (ix1 0)).toInt := by
  unfold ScatterDims.start
  rw [dif_pos (show (0 : Fin 2) ∈ (blk2Dims R C K N wf).scatterDimsToOperandDims from List.mem_cons_self)]
  have hsi : (blk2Dims R C K N wf).siIdx j ⟨List.idxOf (0 : Fin 2) (blk2Dims R C K N wf).scatterDimsToOperandDims,
      List.idxOf_lt_length_iff.2 List.mem_cons_self⟩ = ix1 0 := by
    funext b; refine Fin.ext ?_
    match b with
    | ⟨0, _⟩ => rfl
  rw [hsi]

theorem blk2_start1 (j : (⟨2, ![K, N]⟩ : Shape).Idx) (idx : IVec ⟨1, ![2]⟩ w) :
    (blk2Dims R C K N wf).start j idx 1 = (idx (ix1 1)).toInt := by
  unfold ScatterDims.start
  have hm : (1 : Fin 2) ∈ (blk2Dims R C K N wf).scatterDimsToOperandDims := List.mem_cons_of_mem _ List.mem_cons_self
  rw [dif_pos hm]
  have hsi : (blk2Dims R C K N wf).siIdx j ⟨List.idxOf (1 : Fin 2) (blk2Dims R C K N wf).scatterDimsToOperandDims,
      List.idxOf_lt_length_iff.2 hm⟩ = ix1 1 := by
    funext b; refine Fin.ext ?_
    match b with
    | ⟨0, _⟩ => rfl
  rw [hsi]

theorem blk2_sKept : (blk2Dims R C K N wf).sKept = [0, 1] := rfl

theorem blk2_window0 (j : (⟨2, ![K, N]⟩ : Shape).Idx) : (blk2Dims R C K N wf).window j 0 = (j 0).val := by
  unfold ScatterDims.window
  rw [dif_pos (show (0 : Fin 2) ∈ (blk2Dims R C K N wf).sKept from blk2_sKept wf ▸ List.mem_cons_self)]
  rfl

theorem blk2_window1 (j : (⟨2, ![K, N]⟩ : Shape).Idx) : (blk2Dims R C K N wf).window j 1 = (j 1).val := by
  unfold ScatterDims.window
  rw [dif_pos (show (1 : Fin 2) ∈ (blk2Dims R C K N wf).sKept from
    blk2_sKept wf ▸ List.mem_cons_of_mem _ List.mem_cons_self)]
  rfl

/-- Update (k, n) lands at (r₀ + k, c₀ + n), (r₀, c₀) the two index components. -/
theorem blk2_iff (idx : IVec ⟨1, ![2]⟩ w) (r₀ c₀ : ℕ) (hr : (idx (ix1 0)).toInt = (r₀ : ℤ)) (hc : (idx (ix1 1)).toInt = (c₀ : ℤ))
    (j : (⟨2, ![K, N]⟩ : Shape).Idx) (i : (⟨2, ![R, C]⟩ : Shape).Idx) :
    (blk2Dims R C K N wf).resultIdx? j idx = some i ↔ r₀ + (j 0).val = (i 0).val ∧ c₀ + (j 1).val = (i 1).val := by
  rw [resultIdx?_eq_some_iff]
  constructor
  · intro h
    have h0 : (blk2Dims R C K N wf).start j idx 0 + ((blk2Dims R C K N wf).window j 0 : ℤ) = ((i 0).val : ℤ) := h 0
    have h1 : (blk2Dims R C K N wf).start j idx 1 + ((blk2Dims R C K N wf).window j 1 : ℤ) = ((i 1).val : ℤ) := h 1
    rw [blk2_start0, blk2_window0, hr] at h0
    rw [blk2_start1, blk2_window1, hc] at h1
    exact ⟨by exact_mod_cast h0, by exact_mod_cast h1⟩
  · rintro ⟨h0, h1⟩ a
    match a with
    | ⟨0, _⟩ =>
      show (blk2Dims R C K N wf).start j idx 0 + ((blk2Dims R C K N wf).window j 0 : ℤ) = ((i 0).val : ℤ)
      rw [blk2_start0, blk2_window0, hr]; exact_mod_cast h0
    | ⟨1, _⟩ =>
      show (blk2Dims R C K N wf).start j idx 1 + ((blk2Dims R C K N wf).window j 1 : ℤ) = ((i 1).val : ℤ)
      rw [blk2_start1, blk2_window1, hc]; exact_mod_cast h1

/-- THE BLOCK ASSIGNMENT AT (r, c), start (r₀, c₀) read off the two index components. -/
theorem blk2_apply (x : (⟨2, ![R, C]⟩ : Shape).Idx → α) (idx : IVec ⟨1, ![2]⟩ w) (upd : (⟨2, ![K, N]⟩ : Shape).Idx → α)
    (r₀ c₀ : ℕ) (hr : (idx (ix1 0)).toInt = (r₀ : ℤ)) (hc : (idx (ix1 1)).toInt = (c₀ : ℤ)) (r : Fin R) (c : Fin C) :
    Host.scatter (blk2Dims R C K N wf) (fun _ b => b) x idx upd (ix2 r c)
      = if h : (r₀ ≤ r.val ∧ r.val < r₀ + K) ∧ (c₀ ≤ c.val ∧ c.val < c₀ + N) then
          upd (ix2 ⟨r.val - r₀, by omega⟩ ⟨c.val - c₀, by omega⟩)
        else x (ix2 r c) :=
  set_block_apply _ x idx upd r₀ c₀ (blk2_iff wf idx r₀ c₀ hr hc) r c

end

/-! ### A block at a start of one index component (the column start 0) -/

/-- Operand [R, C], indices [1], updates [K, N]: as above, but the one index component is the start on the row axis. -/
abbrev blk1Dims (R C K N : Nat) (wf : ScatterDims.WF ⟨2, ![R, C]⟩ ⟨1, ![1]⟩ ⟨2, ![K, N]⟩ [0, 1] [] [0] 0) :
    ScatterDims ⟨2, ![R, C]⟩ ⟨1, ![1]⟩ ⟨2, ![K, N]⟩ where
  updateWindowDims := [0, 1]
  insertedWindowDims := []
  scatterDimsToOperandDims := [0]
  indexVectorDim := 0
  wf := wf

section
variable (wf : ScatterDims.WF ⟨2, ![R, C]⟩ ⟨1, ![1]⟩ ⟨2, ![K, N]⟩ [0, 1] [] [0] 0)

theorem blk1_start0 (j : (⟨2, ![K, N]⟩ : Shape).Idx) (idx : IVec ⟨1, ![1]⟩ w) :
    (blk1Dims R C K N wf).start j idx 0 = (idx (ix1 0)).toInt := by
  unfold ScatterDims.start
  rw [dif_pos (show (0 : Fin 2) ∈ (blk1Dims R C K N wf).scatterDimsToOperandDims from List.mem_cons_self)]
  have hsi : (blk1Dims R C K N wf).siIdx j ⟨List.idxOf (0 : Fin 2) (blk1Dims R C K N wf).scatterDimsToOperandDims,
      List.idxOf_lt_length_iff.2 List.mem_cons_self⟩ = ix1 0 := by
    funext b; refine Fin.ext ?_
    match b with
    | ⟨0, _⟩ => rfl
  rw [hsi]

theorem blk1_start1 (j : (⟨2, ![K, N]⟩ : Shape).Idx) (idx : IVec ⟨1, ![1]⟩ w) :
    (blk1Dims R C K N wf).start j idx 1 = 0 := by
  unfold ScatterDims.start
  rw [dif_neg (show (1 : Fin 2) ∉ (blk1Dims R C K N wf).scatterDimsToOperandDims from
    fun h => Nat.one_ne_zero (congrArg Fin.val (List.mem_singleton.mp h)))]

theorem blk1_sKept : (blk1Dims R C K N wf).sKept = [0, 1] := rfl

theorem blk1_window0 (j : (⟨2, ![K, N]⟩ : Shape).Idx) : (blk1Dims R C K N wf).window j 0 = (j 0).val := by
  unfold ScatterDims.window
  rw [dif_pos (show (0 : Fin 2) ∈ (blk1Dims R C K N wf).sKept from blk1_sKept wf ▸ List.mem_cons_self)]
  rfl

theorem blk1_window1 (j : (⟨2, ![K, N]⟩ : Shape).Idx) : (blk1Dims R C K N wf).window j 1 = (j 1).val := by
  unfold ScatterDims.window
  rw [dif_pos (show (1 : Fin 2) ∈ (blk1Dims R C K N wf).sKept from
    blk1_sKept wf ▸ List.mem_cons_of_mem _ List.mem_cons_self)]
  rfl

/-- Update (k, n) lands at (r₀ + k, n), r₀ the index component. -/
theorem blk1_iff (idx : IVec ⟨1, ![1]⟩ w) (r₀ : ℕ) (hr : (idx (ix1 0)).toInt = (r₀ : ℤ))
    (j : (⟨2, ![K, N]⟩ : Shape).Idx) (i : (⟨2, ![R, C]⟩ : Shape).Idx) :
    (blk1Dims R C K N wf).resultIdx? j idx = some i ↔ r₀ + (j 0).val = (i 0).val ∧ 0 + (j 1).val = (i 1).val := by
  rw [resultIdx?_eq_some_iff]
  constructor
  · intro h
    have h0 : (blk1Dims R C K N wf).start j idx 0 + ((blk1Dims R C K N wf).window j 0 : ℤ) = ((i 0).val : ℤ) := h 0
    have h1 : (blk1Dims R C K N wf).start j idx 1 + ((blk1Dims R C K N wf).window j 1 : ℤ) = ((i 1).val : ℤ) := h 1
    rw [blk1_start0, blk1_window0, hr] at h0
    rw [blk1_start1, blk1_window1] at h1
    exact ⟨by exact_mod_cast h0, by omega⟩
  · rintro ⟨h0, h1⟩ a
    match a with
    | ⟨0, _⟩ =>
      show (blk1Dims R C K N wf).start j idx 0 + ((blk1Dims R C K N wf).window j 0 : ℤ) = ((i 0).val : ℤ)
      rw [blk1_start0, blk1_window0, hr]; exact_mod_cast h0
    | ⟨1, _⟩ =>
      show (blk1Dims R C K N wf).start j idx 1 + ((blk1Dims R C K N wf).window j 1 : ℤ) = ((i 1).val : ℤ)
      rw [blk1_start1, blk1_window1]; omega

/-- THE BLOCK ASSIGNMENT AT (r, c), start (r₀, 0), r₀ read off the index component. -/
theorem blk1_apply (x : (⟨2, ![R, C]⟩ : Shape).Idx → α) (idx : IVec ⟨1, ![1]⟩ w) (upd : (⟨2, ![K, N]⟩ : Shape).Idx → α)
    (r₀ : ℕ) (hr : (idx (ix1 0)).toInt = (r₀ : ℤ)) (r : Fin R) (c : Fin C) :
    Host.scatter (blk1Dims R C K N wf) (fun _ b => b) x idx upd (ix2 r c)
      = if h : (r₀ ≤ r.val ∧ r.val < r₀ + K) ∧ (0 ≤ c.val ∧ c.val < 0 + N) then
          upd (ix2 ⟨r.val - r₀, by omega⟩ ⟨c.val - 0, by omega⟩)
        else x (ix2 r c) :=
  set_block_apply _ x idx upd r₀ 0 (blk1_iff wf idx r₀ hr) r c

end

/-! ### A row at a start of one index component (from column 0) -/

/-- Operand [R, C], indices [1], updates [N]: the update's one axis is the window and goes to the column axis; the row
    axis is inserted and indexed by the one index component. -/
abbrev row1Dims (R C N : Nat) (wf : ScatterDims.WF ⟨2, ![R, C]⟩ ⟨1, ![1]⟩ ⟨1, ![N]⟩ [0] [0] [0] 0) :
    ScatterDims ⟨2, ![R, C]⟩ ⟨1, ![1]⟩ ⟨1, ![N]⟩ where
  updateWindowDims := [0]
  insertedWindowDims := [0]
  scatterDimsToOperandDims := [0]
  indexVectorDim := 0
  wf := wf

section
variable (wf : ScatterDims.WF ⟨2, ![R, C]⟩ ⟨1, ![1]⟩ ⟨1, ![N]⟩ [0] [0] [0] 0)

theorem row1_start0 (j : (⟨1, ![N]⟩ : Shape).Idx) (idx : IVec ⟨1, ![1]⟩ w) :
    (row1Dims R C N wf).start j idx 0 = (idx (ix1 0)).toInt := by
  unfold ScatterDims.start
  rw [dif_pos (show (0 : Fin 2) ∈ (row1Dims R C N wf).scatterDimsToOperandDims from List.mem_cons_self)]
  have hsi : (row1Dims R C N wf).siIdx j ⟨List.idxOf (0 : Fin 2) (row1Dims R C N wf).scatterDimsToOperandDims,
      List.idxOf_lt_length_iff.2 List.mem_cons_self⟩ = ix1 0 := by
    funext b; refine Fin.ext ?_
    match b with
    | ⟨0, _⟩ => rfl
  rw [hsi]

theorem row1_start1 (j : (⟨1, ![N]⟩ : Shape).Idx) (idx : IVec ⟨1, ![1]⟩ w) :
    (row1Dims R C N wf).start j idx 1 = 0 := by
  unfold ScatterDims.start
  rw [dif_neg (show (1 : Fin 2) ∉ (row1Dims R C N wf).scatterDimsToOperandDims from
    fun h => Nat.one_ne_zero (congrArg Fin.val (List.mem_singleton.mp h)))]

theorem row1_sKept : (row1Dims R C N wf).sKept = [1] := rfl

theorem row1_window0 (j : (⟨1, ![N]⟩ : Shape).Idx) : (row1Dims R C N wf).window j 0 = 0 := by
  unfold ScatterDims.window
  rw [dif_neg (show (0 : Fin 2) ∉ (row1Dims R C N wf).sKept from
    fun h => Nat.one_ne_zero (congrArg Fin.val (List.mem_singleton.mp (row1_sKept wf ▸ h))).symm)]

theorem row1_window1 (j : (⟨1, ![N]⟩ : Shape).Idx) : (row1Dims R C N wf).window j 1 = (j 0).val := by
  unfold ScatterDims.window
  rw [dif_pos (show (1 : Fin 2) ∈ (row1Dims R C N wf).sKept from row1_sKept wf ▸ List.mem_cons_self)]
  rfl

/-- Update n lands at (r₀, n), r₀ the index component. -/
theorem row1_iff (idx : IVec ⟨1, ![1]⟩ w) (r₀ : ℕ) (hr : (idx (ix1 0)).toInt = (r₀ : ℤ))
    (j : (⟨1, ![N]⟩ : Shape).Idx) (i : (⟨2, ![R, C]⟩ : Shape).Idx) :
    (row1Dims R C N wf).resultIdx? j idx = some i ↔ r₀ = (i 0).val ∧ 0 + (j 0).val = (i 1).val := by
  rw [resultIdx?_eq_some_iff]
  constructor
  · intro h
    have h0 : (row1Dims R C N wf).start j idx 0 + ((row1Dims R C N wf).window j 0 : ℤ) = ((i 0).val : ℤ) := h 0
    have h1 : (row1Dims R C N wf).start j idx 1 + ((row1Dims R C N wf).window j 1 : ℤ) = ((i 1).val : ℤ) := h 1
    rw [row1_start0, row1_window0, hr] at h0
    rw [row1_start1, row1_window1] at h1
    exact ⟨by omega, by omega⟩
  · rintro ⟨h0, h1⟩ a
    match a with
    | ⟨0, _⟩ =>
      show (row1Dims R C N wf).start j idx 0 + ((row1Dims R C N wf).window j 0 : ℤ) = ((i 0).val : ℤ)
      rw [row1_start0, row1_window0, hr]; omega
    | ⟨1, _⟩ =>
      show (row1Dims R C N wf).start j idx 1 + ((row1Dims R C N wf).window j 1 : ℤ) = ((i 1).val : ℤ)
      rw [row1_start1, row1_window1]; omega

/-- THE ROW ASSIGNMENT AT (r, c): row r₀ from column 0, r₀ read off the index component. -/
theorem row1_apply (x : (⟨2, ![R, C]⟩ : Shape).Idx → α) (idx : IVec ⟨1, ![1]⟩ w) (upd : (⟨1, ![N]⟩ : Shape).Idx → α)
    (r₀ : ℕ) (hr : (idx (ix1 0)).toInt = (r₀ : ℤ)) (r : Fin R) (c : Fin C) :
    Host.scatter (row1Dims R C N wf) (fun _ b => b) x idx upd (ix2 r c)
      = if h : r.val = r₀ ∧ (0 ≤ c.val ∧ c.val < 0 + N) then upd (ix1 ⟨c.val - 0, by omega⟩) else x (ix2 r c) :=
  set_row_apply _ x idx upd r₀ 0 (row1_iff wf idx r₀ hr) r c

end

/-! ### A row at a start of two index components -/

/-- Operand [R, C], indices [2], updates [N]: as above, with the column start the second index component. -/
abbrev row2Dims (R C N : Nat) (wf : ScatterDims.WF ⟨2, ![R, C]⟩ ⟨1, ![2]⟩ ⟨1, ![N]⟩ [0] [0] [0, 1] 0) :
    ScatterDims ⟨2, ![R, C]⟩ ⟨1, ![2]⟩ ⟨1, ![N]⟩ where
  updateWindowDims := [0]
  insertedWindowDims := [0]
  scatterDimsToOperandDims := [0, 1]
  indexVectorDim := 0
  wf := wf

section
variable (wf : ScatterDims.WF ⟨2, ![R, C]⟩ ⟨1, ![2]⟩ ⟨1, ![N]⟩ [0] [0] [0, 1] 0)

theorem row2_start0 (j : (⟨1, ![N]⟩ : Shape).Idx) (idx : IVec ⟨1, ![2]⟩ w) :
    (row2Dims R C N wf).start j idx 0 = (idx (ix1 0)).toInt := by
  unfold ScatterDims.start
  rw [dif_pos (show (0 : Fin 2) ∈ (row2Dims R C N wf).scatterDimsToOperandDims from List.mem_cons_self)]
  have hsi : (row2Dims R C N wf).siIdx j ⟨List.idxOf (0 : Fin 2) (row2Dims R C N wf).scatterDimsToOperandDims,
      List.idxOf_lt_length_iff.2 List.mem_cons_self⟩ = ix1 0 := by
    funext b; refine Fin.ext ?_
    match b with
    | ⟨0, _⟩ => rfl
  rw [hsi]

theorem row2_start1 (j : (⟨1, ![N]⟩ : Shape).Idx) (idx : IVec ⟨1, ![2]⟩ w) :
    (row2Dims R C N wf).start j idx 1 = (idx (ix1 1)).toInt := by
  unfold ScatterDims.start
  have hm : (1 : Fin 2) ∈ (row2Dims R C N wf).scatterDimsToOperandDims := List.mem_cons_of_mem _ List.mem_cons_self
  rw [dif_pos hm]
  have hsi : (row2Dims R C N wf).siIdx j ⟨List.idxOf (1 : Fin 2) (row2Dims R C N wf).scatterDimsToOperandDims,
      List.idxOf_lt_length_iff.2 hm⟩ = ix1 1 := by
    funext b; refine Fin.ext ?_
    match b with
    | ⟨0, _⟩ => rfl
  rw [hsi]

theorem row2_sKept : (row2Dims R C N wf).sKept = [1] := rfl

theorem row2_window0 (j : (⟨1, ![N]⟩ : Shape).Idx) : (row2Dims R C N wf).window j 0 = 0 := by
  unfold ScatterDims.window
  rw [dif_neg (show (0 : Fin 2) ∉ (row2Dims R C N wf).sKept from
    fun h => Nat.one_ne_zero (congrArg Fin.val (List.mem_singleton.mp (row2_sKept wf ▸ h))).symm)]

theorem row2_window1 (j : (⟨1, ![N]⟩ : Shape).Idx) : (row2Dims R C N wf).window j 1 = (j 0).val := by
  unfold ScatterDims.window
  rw [dif_pos (show (1 : Fin 2) ∈ (row2Dims R C N wf).sKept from row2_sKept wf ▸ List.mem_cons_self)]
  rfl

/-- Update n lands at (r₀, c₀ + n), (r₀, c₀) the two index components. -/
theorem row2_iff (idx : IVec ⟨1, ![2]⟩ w) (r₀ c₀ : ℕ) (hr : (idx (ix1 0)).toInt = (r₀ : ℤ)) (hc : (idx (ix1 1)).toInt = (c₀ : ℤ))
    (j : (⟨1, ![N]⟩ : Shape).Idx) (i : (⟨2, ![R, C]⟩ : Shape).Idx) :
    (row2Dims R C N wf).resultIdx? j idx = some i ↔ r₀ = (i 0).val ∧ c₀ + (j 0).val = (i 1).val := by
  rw [resultIdx?_eq_some_iff]
  constructor
  · intro h
    have h0 : (row2Dims R C N wf).start j idx 0 + ((row2Dims R C N wf).window j 0 : ℤ) = ((i 0).val : ℤ) := h 0
    have h1 : (row2Dims R C N wf).start j idx 1 + ((row2Dims R C N wf).window j 1 : ℤ) = ((i 1).val : ℤ) := h 1
    rw [row2_start0, row2_window0, hr] at h0
    rw [row2_start1, row2_window1, hc] at h1
    exact ⟨by omega, by exact_mod_cast h1⟩
  · rintro ⟨h0, h1⟩ a
    match a with
    | ⟨0, _⟩ =>
      show (row2Dims R C N wf).start j idx 0 + ((row2Dims R C N wf).window j 0 : ℤ) = ((i 0).val : ℤ)
      rw [row2_start0, row2_window0, hr]; omega
    | ⟨1, _⟩ =>
      show (row2Dims R C N wf).start j idx 1 + ((row2Dims R C N wf).window j 1 : ℤ) = ((i 1).val : ℤ)
      rw [row2_start1, row2_window1, hc]; exact_mod_cast h1

/-- THE ROW ASSIGNMENT AT (r, c): row r₀ from column c₀, both read off the index components. -/
theorem row2_apply (x : (⟨2, ![R, C]⟩ : Shape).Idx → α) (idx : IVec ⟨1, ![2]⟩ w) (upd : (⟨1, ![N]⟩ : Shape).Idx → α)
    (r₀ c₀ : ℕ) (hr : (idx (ix1 0)).toInt = (r₀ : ℤ)) (hc : (idx (ix1 1)).toInt = (c₀ : ℤ)) (r : Fin R) (c : Fin C) :
    Host.scatter (row2Dims R C N wf) (fun _ b => b) x idx upd (ix2 r c)
      = if h : r.val = r₀ ∧ (c₀ ≤ c.val ∧ c.val < c₀ + N) then upd (ix1 ⟨c.val - c₀, by omega⟩) else x (ix2 r c) :=
  set_row_apply _ x idx upd r₀ c₀ (row2_iff wf idx r₀ c₀ hr hc) r c

end

end Families

end Cert.LibScatterSet
-- ==== Proof.Ref.IsG.lean ====
/-
  The reference program's result, read index by index, is the deep-filter operator of its two arguments.

  The program slices the real and the imaginary part of the first 96 bins, pads each with four zero frames in front, stacks
  the five windows shifted by 0 … 4 frames, multiplies them with the transposed filter coefficients as complex numbers,
  sums over the five taps, stacks (re, im) and assigns the block into the first 96 bins of the spectrogram. Read at one
  index: the assignment writes index (b, 0, t, f, p) exactly when f < 96; the stacked block picks the real or the
  imaginary sum by p; each sum runs over the five taps n; tap n of the stack is window n of the padded slice, that is
  frame t + n of the padded array, which is frame t + n - 4 of the spectrogram, or zero when t + n < 4.
-/
import proofs.«422068_j29231547416739_3_alg».proof.Proof.Gen.ReferenceIdeal.Read
import proofs.«422068_j29231547416739_3_alg».proof.Proof.Spec
import proofs.«422068_j29231547416739_3_alg».proof.Proof.LibScatterSet
import Idealize.ShloMosaic.Lib.KernelVsHost

set_option maxRecDepth 16384

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.ShloMosaic.ValueIdx Idealize.SL.Sem

/-! ## The band assignment: a scatter whose window is the whole update block, at start bin 0 -/

section Band
variable {α : Type} {w : Nat}

/-- The spectrogram's shape, the one-component index array's, and the written band's. -/
abbrev BX : Shape := ⟨5, ![32, 1, 2000, 481, 2]⟩
abbrev BI : Shape := ⟨1, ![1]⟩
abbrev BU : Shape := ⟨5, ![32, 1, 2000, 96, 2]⟩

/-- Every update axis is a window axis, no operand axis is inserted, the one index component is the start on the bin axis. -/
abbrev bandDims (wf : ScatterDims.WF BX BI BU [0, 1, 2, 3, 4] [] [3] 0) : ScatterDims BX BI BU where
  updateWindowDims := [0, 1, 2, 3, 4]
  insertedWindowDims := []
  scatterDimsToOperandDims := [3]
  indexVectorDim := 0
  wf := wf

variable (wf : ScatterDims.WF BX BI BU [0, 1, 2, 3, 4] [] [3] 0)

/-- With every index component zero, the window starts at 0 on every axis. -/
theorem band_start (j : BU.Idx) (idx : IVec BI w) (hidx : ∀ k, (idx k).toInt = 0) (a : Fin 5) :
    (bandDims wf).start j idx a = 0 := by
  unfold ScatterDims.start
  split
  · exact hidx _
  · rfl

theorem band_sKept : (bandDims wf).sKept = [0, 1, 2, 3, 4] := rfl

/-- The window coordinate on each operand axis is the update's own coordinate. -/
theorem band_window (j : BU.Idx) (a : Fin 5) : (bandDims wf).window j a = (j a).val := by
  fin_cases a
  all_goals
    unfold ScatterDims.window
    rw [dif_pos (by rw [band_sKept]; decide)]
    rfl

/-- Update j lands at the operand index with the same coordinates. -/
theorem band_iff (idx : IVec BI w) (hidx : ∀ k, (idx k).toInt = 0) (j : BU.Idx) (i : BX.Idx) :
    (bandDims wf).resultIdx? j idx = some i ↔ ∀ a : Fin 5, (j a).val = (i a).val := by
  rw [Cert.LibScatterSet.resultIdx?_eq_some_iff]
  constructor
  · intro h a
    have := h a
    rw [band_start wf j idx hidx a, band_window wf j a] at this
    omega
  · intro h a
    rw [band_start wf j idx hidx a, band_window wf j a]
    have := h a
    omega

/-- THE BAND ASSIGNMENT AT AN INDEX: the update's element on the first 96 bins, the operand's on the others. -/
theorem band_apply (x : BX.Idx → α) (idx : IVec BI w) (hidx : ∀ k, (idx k).toInt = 0) (upd : BU.Idx → α)
    (b : Fin 32) (z : Fin 1) (t : Fin 2000) (f : Fin 481) (p : Fin 2) :
    Host.scatter (bandDims wf) (fun _ b => b) x idx upd (ix5 b z t f p)
      = if h : f.val < 96 then upd (ix5 b z t ⟨f.val, h⟩ p) else x (ix5 b z t f p) := by
  by_cases h : f.val < 96
  · rw [dif_pos h]
    refine Cert.LibScatterSet.scatter_set_apply_some (bandDims wf) x idx upd _ (ix5 b z t ⟨f.val, h⟩ p)
      ((band_iff wf idx hidx _ _).mpr fun a => ?_) fun j' hj' => ?_
    · match a with
      | ⟨0, _⟩ => rfl
      | ⟨1, _⟩ => rfl
      | ⟨2, _⟩ => rfl
      | ⟨3, _⟩ => rfl
      | ⟨4, _⟩ => rfl
    · have hh := (band_iff wf idx hidx _ _).mp hj'
      funext a
      match a with
      | ⟨0, _⟩ => exact Fin.ext (hh 0)
      | ⟨1, _⟩ => exact Fin.ext (hh 1)
      | ⟨2, _⟩ => exact Fin.ext (hh 2)
      | ⟨3, _⟩ => exact Fin.ext (hh 3)
      | ⟨4, _⟩ => exact Fin.ext (hh 4)
  · rw [dif_neg h]
    refine Cert.LibScatterSet.scatter_set_apply_none (bandDims wf) x idx upd _ fun j hj => h ?_
    have h3 : (j 3).val = f.val := (band_iff wf idx hidx _ _).mp hj 3
    have : (j 3).val < 96 := (j 3).isLt
    omega

end Band

/-! ## The two joins read at an index -/

section Joins
variable {α : Type}

abbrev P1 : Shape := ⟨5, ![1, 32, 1, 2000, 96]⟩
abbrev P5 : Shape := ⟨5, ![5, 32, 1, 2000, 96]⟩

/-- Five unit slabs joined along axis 0: slab n, at the same other coordinates. -/
theorem join5_apply (x0 x1 x2 x3 x4 : P1.Idx → α) (h : Shape.Concatenates [P1, P1, P1, P1, P1] P5 0)
    (n : Fin 5) (b : Fin 32) (z : Fin 1) (t : Fin 2000) (f : Fin 96) :
    concatenate P5 0 [⟨P1, x0⟩, ⟨P1, x1⟩, ⟨P1, x2⟩, ⟨P1, x3⟩, ⟨P1, x4⟩] h (ix5 n b z t f)
      = (![x0, x1, x2, x3, x4] n) (ix5 (0 : Fin 1) b z t f) := by
  have hi : ∀ b' : Fin P1.rank, b'.cast (rfl : P1.rank = P5.rank) ≠ (0 : Fin P5.rank) →
      ((ix5 (0 : Fin 1) b z t f : P1.Idx) b').val = ((ix5 n b z t f : P5.Idx) (b'.cast rfl)).val := fun b' hb =>
    match b', hb with
    | ⟨0, _⟩, hb => absurd rfl hb
    | ⟨1, _⟩, _ => rfl
    | ⟨2, _⟩, _ => rfl
    | ⟨3, _⟩, _ => rfl
    | ⟨4, _⟩, _ => rfl
  match n with
  | ⟨0, _⟩ => exact concatenate_apply_piece (0 : Fin P5.rank) [⟨P1, x0⟩, ⟨P1, x1⟩, ⟨P1, x2⟩, ⟨P1, x3⟩, ⟨P1, x4⟩] h _ 0 (by show (0 : ℕ) < 5; omega) P1 x0 rfl rfl 0 rfl _ hi rfl
  | ⟨1, _⟩ => exact concatenate_apply_piece (0 : Fin P5.rank) [⟨P1, x0⟩, ⟨P1, x1⟩, ⟨P1, x2⟩, ⟨P1, x3⟩, ⟨P1, x4⟩] h _ 1 (by show (1 : ℕ) < 5; omega) P1 x1 rfl rfl 1 rfl _ hi rfl
  | ⟨2, _⟩ => exact concatenate_apply_piece (0 : Fin P5.rank) [⟨P1, x0⟩, ⟨P1, x1⟩, ⟨P1, x2⟩, ⟨P1, x3⟩, ⟨P1, x4⟩] h _ 2 (by show (2 : ℕ) < 5; omega) P1 x2 rfl rfl 2 rfl _ hi rfl
  | ⟨3, _⟩ => exact concatenate_apply_piece (0 : Fin P5.rank) [⟨P1, x0⟩, ⟨P1, x1⟩, ⟨P1, x2⟩, ⟨P1, x3⟩, ⟨P1, x4⟩] h _ 3 (by show (3 : ℕ) < 5; omega) P1 x3 rfl rfl 3 rfl _ hi rfl
  | ⟨4, _⟩ => exact concatenate_apply_piece (0 : Fin P5.rank) [⟨P1, x0⟩, ⟨P1, x1⟩, ⟨P1, x2⟩, ⟨P1, x3⟩, ⟨P1, x4⟩] h _ 4 (by show (4 : ℕ) < 5; omega) P1 x4 rfl rfl 4 rfl _ hi rfl

abbrev R1 : Shape := ⟨5, ![32, 1, 2000, 96, 1]⟩
abbrev R2 : Shape := ⟨5, ![32, 1, 2000, 96, 2]⟩

/-- Two unit slabs joined along the last axis: the first at coordinate 0, the second at coordinate 1. -/
theorem join2_apply (xr xi : R1.Idx → α) (h : Shape.Concatenates [R1, R1] R2 4)
    (b : Fin 32) (z : Fin 1) (t : Fin 2000) (f : Fin 96) (p : Fin 2) :
    concatenate R2 4 [⟨R1, xr⟩, ⟨R1, xi⟩] h (ix5 b z t f p)
      = if p.val = 0 then xr (ix5 b z t f (0 : Fin 1)) else xi (ix5 b z t f (0 : Fin 1)) := by
  by_cases hp : p.val = 0
  · rw [if_pos hp]
    refine concatenate_pair_apply_left (4 : Fin R2.rank) xr xi h _ rfl _ fun b' => ?_
    match b' with
    | ⟨0, _⟩ => rfl
    | ⟨1, _⟩ => rfl
    | ⟨2, _⟩ => rfl
    | ⟨3, _⟩ => rfl
    | ⟨4, _⟩ => exact hp.symm
  · rw [if_neg hp]
    refine concatenate_pair_apply_right (4 : Fin R2.rank) xr xi h _ rfl rfl _ (fun b' hb => ?_) ?_
    · match b', hb with
      | ⟨0, _⟩, _ => rfl
      | ⟨1, _⟩, _ => rfl
      | ⟨2, _⟩, _ => rfl
      | ⟨3, _⟩, _ => rfl
      | ⟨4, _⟩, hb => exact absurd rfl hb
    · show (0 : ℕ) + 1 = p.val
      have := p.isLt
      omega

end Joins

/-! ## The front padding read at an index -/

section Pad
variable {α : Type}

abbrev Q0 : Shape := ⟨4, ![32, 1, 2000, 96]⟩
abbrev Q4 : Shape := ⟨4, ![32, 1, 2004, 96]⟩

/-- Four frames of padding in front: frame τ of the padded array is frame τ - 4 of the operand, the padding value
    before frame 4. -/
theorem padFront_apply (x : Q0.Idx → α) {u : Shape} (v : u.Idx → α)
    (h : Q0.Pads (![0, 0, 4, 0] : Fin 4 → Nat) ![0, 0, 0, 0] ![0, 0, 0, 0] Q4) (hu : 0 < u.numel)
    (b : Fin 32) (z : Fin 1) (τ : Fin 2004) (f : Fin 96) :
    pad Q4 ![0, 0, 4, 0] ![0, 0, 0, 0] ![0, 0, 0, 0] x v h hu (ix4 b z τ f)
      = if hτ : 4 ≤ τ.val then x (ix4 b z ⟨τ.val - 4, by have := τ.isLt; omega⟩ f) else v (Shape.Idx.first hu) := by
  by_cases hτ : 4 ≤ τ.val
  · rw [dif_pos hτ]
    refine pad_apply_of_inside _ _ _ x v h hu _ _ fun a => ?_
    match a with
    | ⟨0, _⟩ => show b.val = 0 + b.val * (0 + 1); omega
    | ⟨1, _⟩ => show z.val = 0 + z.val * (0 + 1); omega
    | ⟨2, _⟩ => show τ.val = 4 + (τ.val - 4) * (0 + 1); omega
    | ⟨3, _⟩ => show f.val = 0 + f.val * (0 + 1); omega
  · rw [dif_neg hτ]
    exact pad_apply_of_not_inside _ _ _ x v h hu _ (2 : Fin Q0.rank) fun hh => hτ hh.1

end Pad

/-! ## The reference's stages read at an index -/

section Stages
open Cert.DeepFilter

variable (x0 : (⟨S32x1x2000x481x2, .f32⟩ : BufTy).Contents (Elt Ideal))
variable (x1 : (⟨S32x5x2000x96x2, .f32⟩ : BufTy).Contents (Elt Ideal))

/-- A filtered bin as a bin of the spectrogram. -/
abbrev binOf (f : Fin 96) : Fin 481 := ⟨f.val, Nat.lt_of_lt_of_le f.isLt (by decide)⟩

/-- The padding value: the integer zero converted is the real zero. -/
theorem padValue0 (i : S_.Idx) : val_main_call0_v0 (F := Ideal) i = 0 := by
  rw [val_main_call0_v0_apply, val_main_c_apply]
  show ((((0#32 : BitVec 32).toInt : ℤ) : ℝ) : EReal) = 0
  simp

theorem padValue1 (i : S_.Idx) : val_main_call1_v0 (F := Ideal) i = 0 := by
  rw [val_main_call1_v0_apply, val_main_c_0_apply]
  show ((((0#32 : BitVec 32).toInt : ℤ) : ℝ) : EReal) = 0
  simp

/-- The padded real part at frame τ: the spectrogram's real part at frame τ - 4, zero before frame 4. -/
theorem v4_apply (b : Fin 32) (z : Fin 1) (τ : Fin 2004) (f : Fin 96) :
    val_main_v4 (F := Ideal) x0 (ix4 b z τ f)
      = if hτ : 4 ≤ τ.val then
          x0 (ix5 b z (⟨τ.val - 4, by have := τ.isLt; omega⟩ : Fin 2000) (binOf f) (0 : Fin 2))
        else 0 := by
  unfold val_main_v4
  rw [padFront_apply]
  by_cases hτ : 4 ≤ τ.val
  · rw [dif_pos hτ, dif_pos hτ, val_main_v1_apply, val_main_v0_apply]
    refine congrArg x0 (funext fun a => Fin.ext ?_)
    have hb := b.isLt
    have hz := z.isLt
    have ht := τ.isLt
    have hf := f.isLt
    match a with
    | ⟨0, _⟩ => show ((((b.val * 1 + z.val) * 2000 + (τ.val - 4)) * 96 + f.val) / 192000) = b.val; omega
    | ⟨1, _⟩ => show (0 : ℕ) = z.val; omega
    | ⟨2, _⟩ => show ((((b.val * 1 + z.val) * 2000 + (τ.val - 4)) * 96 + f.val) / 96 % 2000) = τ.val - 4; omega
    | ⟨3, _⟩ => show ((((b.val * 1 + z.val) * 2000 + (τ.val - 4)) * 96 + f.val) / 1 % 96) = f.val; omega
    | ⟨4, _⟩ => rfl
  · rw [dif_neg hτ, dif_neg hτ, padValue0]

/-- The padded imaginary part at frame τ. -/
theorem v5_apply (b : Fin 32) (z : Fin 1) (τ : Fin 2004) (f : Fin 96) :
    val_main_v5 (F := Ideal) x0 (ix4 b z τ f)
      = if hτ : 4 ≤ τ.val then
          x0 (ix5 b z (⟨τ.val - 4, by have := τ.isLt; omega⟩ : Fin 2000) (binOf f) (1 : Fin 2))
        else 0 := by
  unfold val_main_v5
  rw [padFront_apply]
  by_cases hτ : 4 ≤ τ.val
  · rw [dif_pos hτ, dif_pos hτ, val_main_v3_apply, val_main_v2_apply]
    refine congrArg x0 (funext fun a => Fin.ext ?_)
    have hb := b.isLt
    have hz := z.isLt
    have ht := τ.isLt
    have hf := f.isLt
    match a with
    | ⟨0, _⟩ => show ((((b.val * 1 + z.val) * 2000 + (τ.val - 4)) * 96 + f.val) / 192000) = b.val; omega
    | ⟨1, _⟩ => show (0 : ℕ) = z.val; omega
    | ⟨2, _⟩ => show ((((b.val * 1 + z.val) * 2000 + (τ.val - 4)) * 96 + f.val) / 96 % 2000) = τ.val - 4; omega
    | ⟨3, _⟩ => show ((((b.val * 1 + z.val) * 2000 + (τ.val - 4)) * 96 + f.val) / 1 % 96) = f.val; omega
    | ⟨4, _⟩ => rfl
  · rw [dif_neg hτ, dif_neg hτ, padValue1]

/-- The padded real part at frame n + t is tap n of the causal window at frame t. -/
theorem v4_tap (b : Fin 32) (t : Fin 2000) (n : Fin 5) (f : Fin 96) (j : S32x1x2004x96.Idx)
    (hj0 : (j 0).val = b.val) (hj2 : (j 2).val = n.val + t.val) (hj3 : (j 3).val = f.val) :
    val_main_v4 (F := Ideal) x0 j = tap x0 b t n (binOf f) 0 := by
  obtain ⟨jb, jz, jτ, jf, rfl⟩ : ∃ (jb : Fin 32) (jz : Fin 1) (jτ : Fin 2004) (jf : Fin 96), j = ix4 jb jz jτ jf :=
    ⟨_, _, _, _, eq_ix4 j⟩
  have h0 : jb.val = b.val := hj0
  have h2 : jτ.val = n.val + t.val := hj2
  have h3 : jf.val = f.val := hj3
  rw [v4_apply]
  unfold tap
  have ht := t.isLt
  have hn := n.isLt
  have hz := jz.isLt
  by_cases h : 4 ≤ t.val + n.val
  · rw [dif_pos (by omega), dif_pos h]
    refine congrArg x0 (funext fun a => Fin.ext ?_)
    match a with
    | ⟨0, _⟩ => exact h0
    | ⟨1, _⟩ => show jz.val = 0; omega
    | ⟨2, _⟩ => show jτ.val - 4 = t.val + n.val - 4; omega
    | ⟨3, _⟩ => show jf.val = f.val; exact h3
    | ⟨4, _⟩ => rfl
  · rw [dif_neg (by omega), dif_neg h]

/-- The padded imaginary part at frame n + t is tap n of the causal window at frame t. -/
theorem v5_tap (b : Fin 32) (t : Fin 2000) (n : Fin 5) (f : Fin 96) (j : S32x1x2004x96.Idx)
    (hj0 : (j 0).val = b.val) (hj2 : (j 2).val = n.val + t.val) (hj3 : (j 3).val = f.val) :
    val_main_v5 (F := Ideal) x0 j = tap x0 b t n (binOf f) 1 := by
  obtain ⟨jb, jz, jτ, jf, rfl⟩ : ∃ (jb : Fin 32) (jz : Fin 1) (jτ : Fin 2004) (jf : Fin 96), j = ix4 jb jz jτ jf :=
    ⟨_, _, _, _, eq_ix4 j⟩
  have h0 : jb.val = b.val := hj0
  have h2 : jτ.val = n.val + t.val := hj2
  have h3 : jf.val = f.val := hj3
  rw [v5_apply]
  unfold tap
  have ht := t.isLt
  have hn := n.isLt
  have hz := jz.isLt
  by_cases h : 4 ≤ t.val + n.val
  · rw [dif_pos (by omega), dif_pos h]
    refine congrArg x0 (funext fun a => Fin.ext ?_)
    match a with
    | ⟨0, _⟩ => exact h0
    | ⟨1, _⟩ => show jz.val = 0; omega
    | ⟨2, _⟩ => show jτ.val - 4 = t.val + n.val - 4; omega
    | ⟨3, _⟩ => show jf.val = f.val; exact h3
    | ⟨4, _⟩ => rfl
  · rw [dif_neg (by omega), dif_neg h]

/-- The stacked real windows: entry (n, b, 0, t, f) is tap n at frame t. -/
theorem v16_apply (n : Fin 5) (b : Fin 32) (z : Fin 1) (t : Fin 2000) (f : Fin 96) :
    val_main_v16 (F := Ideal) x0 (ix5 n b z t f) = tap x0 b t n (binOf f) 0 := by
  unfold val_main_v16
  rw [join5_apply]
  match n with
  | ⟨0, _⟩ =>
    show val_main_v11 (F := Ideal) x0 (ix5 (0 : Fin 1) b z t f) = _
    rw [val_main_v11_apply, val_main_v6_apply]
    exact v4_tap x0 b t _ f _ rfl (by show t.val = 0 + t.val; omega) rfl
  | ⟨1, _⟩ =>
    show val_main_v12 (F := Ideal) x0 (ix5 (0 : Fin 1) b z t f) = _
    rw [val_main_v12_apply, val_main_v7_apply]
    exact v4_tap x0 b t _ f _ rfl rfl rfl
  | ⟨2, _⟩ =>
    show val_main_v13 (F := Ideal) x0 (ix5 (0 : Fin 1) b z t f) = _
    rw [val_main_v13_apply, val_main_v8_apply]
    exact v4_tap x0 b t _ f _ rfl rfl rfl
  | ⟨3, _⟩ =>
    show val_main_v14 (F := Ideal) x0 (ix5 (0 : Fin 1) b z t f) = _
    rw [val_main_v14_apply, val_main_v9_apply]
    exact v4_tap x0 b t _ f _ rfl rfl rfl
  | ⟨4, _⟩ =>
    show val_main_v15 (F := Ideal) x0 (ix5 (0 : Fin 1) b z t f) = _
    rw [val_main_v15_apply, val_main_v10_apply]
    exact v4_tap x0 b t _ f _ rfl rfl rfl

/-- The stacked imaginary windows. -/
theorem v27_apply (n : Fin 5) (b : Fin 32) (z : Fin 1) (t : Fin 2000) (f : Fin 96) :
    val_main_v27 (F := Ideal) x0 (ix5 n b z t f) = tap x0 b t n (binOf f) 1 := by
  unfold val_main_v27
  rw [join5_apply]
  match n with
  | ⟨0, _⟩ =>
    show val_main_v22 (F := Ideal) x0 (ix5 (0 : Fin 1) b z t f) = _
    rw [val_main_v22_apply, val_main_v17_apply]
    exact v5_tap x0 b t _ f _ rfl (by show t.val = 0 + t.val; omega) rfl
  | ⟨1, _⟩ =>
    show val_main_v23 (F := Ideal) x0 (ix5 (0 : Fin 1) b z t f) = _
    rw [val_main_v23_apply, val_main_v18_apply]
    exact v5_tap x0 b t _ f _ rfl rfl rfl
  | ⟨2, _⟩ =>
    show val_main_v24 (F := Ideal) x0 (ix5 (0 : Fin 1) b z t f) = _
    rw [val_main_v24_apply, val_main_v19_apply]
    exact v5_tap x0 b t _ f _ rfl rfl rfl
  | ⟨3, _⟩ =>
    show val_main_v25 (F := Ideal) x0 (ix5 (0 : Fin 1) b z t f) = _
    rw [val_main_v25_apply, val_main_v20_apply]
    exact v5_tap x0 b t _ f _ rfl rfl rfl
  | ⟨4, _⟩ =>
    show val_main_v26 (F := Ideal) x0 (ix5 (0 : Fin 1) b z t f) = _
    rw [val_main_v26_apply, val_main_v21_apply]
    exact v5_tap x0 b t _ f _ rfl rfl rfl

/-- The transposed real coefficients: entry (n, b, 0, t, f) is the filter's (b, n, t, f, re). -/
theorem v31_apply (n : Fin 5) (b : Fin 32) (z : Fin 1) (t : Fin 2000) (f : Fin 96) :
    val_main_v31 (F := Ideal) x1 (ix5 n b z t f) = x1 (ix5 b n t f (0 : Fin 2)) := by
  rw [val_main_v31_apply, val_main_v30_apply, val_main_v29_apply, val_main_v28_apply]
  refine congrArg x1 (funext fun a => Fin.ext ?_)
  have hb := b.isLt
  have hn := n.isLt
  have ht := t.isLt
  have hf := f.isLt
  match a with
  | ⟨0, _⟩ => show ((((b.val * 5 + n.val) * 2000 + t.val) * 96 + f.val) / 960000) = b.val; omega
  | ⟨1, _⟩ => show ((((b.val * 5 + n.val) * 2000 + t.val) * 96 + f.val) / 192000 % 5) = n.val; omega
  | ⟨2, _⟩ => show ((((b.val * 5 + n.val) * 2000 + t.val) * 96 + f.val) / 96 % 2000) = t.val; omega
  | ⟨3, _⟩ => show ((((b.val * 5 + n.val) * 2000 + t.val) * 96 + f.val) / 1 % 96) = f.val; omega
  | ⟨4, _⟩ => rfl

/-- The transposed imaginary coefficients. -/
theorem v35_apply (n : Fin 5) (b : Fin 32) (z : Fin 1) (t : Fin 2000) (f : Fin 96) :
    val_main_v35 (F := Ideal) x1 (ix5 n b z t f) = x1 (ix5 b n t f (1 : Fin 2)) := by
  rw [val_main_v35_apply, val_main_v34_apply, val_main_v33_apply, val_main_v32_apply]
  refine congrArg x1 (funext fun a => Fin.ext ?_)
  have hb := b.isLt
  have hn := n.isLt
  have ht := t.isLt
  have hf := f.isLt
  match a with
  | ⟨0, _⟩ => show ((((b.val * 5 + n.val) * 2000 + t.val) * 96 + f.val) / 960000) = b.val; omega
  | ⟨1, _⟩ => show ((((b.val * 5 + n.val) * 2000 + t.val) * 96 + f.val) / 192000 % 5) = n.val; omega
  | ⟨2, _⟩ => show ((((b.val * 5 + n.val) * 2000 + t.val) * 96 + f.val) / 96 % 2000) = t.val; omega
  | ⟨3, _⟩ => show ((((b.val * 5 + n.val) * 2000 + t.val) * 96 + f.val) / 1 % 96) = f.val; omega
  | ⟨4, _⟩ => rfl

/-- The real sum over the five taps. -/
theorem v39_apply (b : Fin 32) (z : Fin 1) (t : Fin 2000) (f : Fin 96) :
    val_main_v39 (F := Ideal) x0 x1 (ix4 b z t f) = outRe x0 x1 b t f := by
  rw [val_main_v39_apply, val_main_cst_apply]
  show Ideal.ofBits .f32 0x00000000#32 + _ = _
  rw [Ideal.ofBits_zero_f32, zero_add]
  unfold outRe
  refine Finset.sum_congr rfl fun k _ => ?_
  have hk : idx_main_v39 (ix4 b z t f) k = ix5 k b z t f := by
    funext a
    match a with
    | ⟨0, _⟩ => rfl
    | ⟨1, _⟩ => rfl
    | ⟨2, _⟩ => rfl
    | ⟨3, _⟩ => rfl
    | ⟨4, _⟩ => rfl
  rw [hk, val_main_v38_apply, val_main_v36_apply, val_main_v37_apply, v16_apply, v27_apply, v31_apply, v35_apply]
  rfl

/-- The imaginary sum over the five taps. -/
theorem v43_apply (b : Fin 32) (z : Fin 1) (t : Fin 2000) (f : Fin 96) :
    val_main_v43 (F := Ideal) x0 x1 (ix4 b z t f) = outIm x0 x1 b t f := by
  rw [val_main_v43_apply, val_main_cst_1_apply]
  show Ideal.ofBits .f32 0x00000000#32 + _ = _
  rw [Ideal.ofBits_zero_f32, zero_add]
  unfold outIm
  refine Finset.sum_congr rfl fun k _ => ?_
  have hk : idx_main_v43 (ix4 b z t f) k = ix5 k b z t f := by
    funext a
    match a with
    | ⟨0, _⟩ => rfl
    | ⟨1, _⟩ => rfl
    | ⟨2, _⟩ => rfl
    | ⟨3, _⟩ => rfl
    | ⟨4, _⟩ => rfl
  rw [hk, val_main_v42_apply, val_main_v40_apply, val_main_v41_apply, v16_apply, v27_apply, v31_apply, v35_apply]
  rfl

/-- The stacked (re, im) block. -/
theorem v46_apply (b : Fin 32) (z : Fin 1) (t : Fin 2000) (f : Fin 96) (p : Fin 2) :
    val_main_v46 (F := Ideal) x0 x1 (ix5 b z t f p) = if p.val = 0 then outRe x0 x1 b t f else outIm x0 x1 b t f := by
  unfold val_main_v46
  rw [join2_apply, val_main_v44_apply, val_main_v45_apply]
  have h44 : idx_main_v44 (ix5 b z t f (0 : Fin 1)) = ix4 b (0 : Fin 1) t f := by
    funext a
    match a with
    | ⟨0, _⟩ => rfl
    | ⟨1, _⟩ => rfl
    | ⟨2, _⟩ => rfl
    | ⟨3, _⟩ => rfl
  have h45 : idx_main_v45 (ix5 b z t f (0 : Fin 1)) = ix4 b (0 : Fin 1) t f := by
    funext a
    match a with
    | ⟨0, _⟩ => rfl
    | ⟨1, _⟩ => rfl
    | ⟨2, _⟩ => rfl
    | ⟨3, _⟩ => rfl
  rw [h44, h45, v39_apply, v43_apply]

end Stages

/-! ## The result -/

/-- The last stage, the band assignment into the spectrogram, is the deep-filter operator. -/
theorem v48_apply (x0 : (⟨S32x1x2000x481x2, .f32⟩ : BufTy).Contents (Elt Ideal))
    (x1 : (⟨S32x5x2000x96x2, .f32⟩ : BufTy).Contents (Elt Ideal)) :
    val_main_v48 (F := Ideal) x0 x1 = Cert.DeepFilter.G x0 x1 := by
  funext i
  obtain ⟨b, z, t, f, p, rfl⟩ : ∃ b z t f p, i = ix5 b z t f p := ⟨_, _, _, _, _, eq_ix5 i⟩
  unfold val_main_v48
  have hd : scatter_S32x1x2000x481x2_S1_S32x1x2000x96x2_01234_n_3_0
      = bandDims scatter_S32x1x2000x481x2_S1_S32x1x2000x96x2_01234_n_3_0_wf := rfl
  have hidx : ∀ k, ((val_main_v47 (F := Ideal)) k).toInt = 0 := fun k => by
    rw [val_main_v47_apply, val_main_c_2_apply]
    rfl
  rw [hd]
  refine (band_apply scatter_S32x1x2000x481x2_S1_S32x1x2000x96x2_01234_n_3_0_wf x0 (val_main_v47 (F := Ideal)) hidx
    (val_main_v46 (F := Ideal) x0 x1) b z t f p).trans ?_
  show _ = if hf : f.val < 96 then
      (if p.val = 0 then Cert.DeepFilter.outRe x0 x1 b t ⟨f.val, hf⟩ else Cert.DeepFilter.outIm x0 x1 b t ⟨f.val, hf⟩)
    else x0 (ix5 b z t f p)
  by_cases hf : f.val < 96
  · rw [dif_pos hf, dif_pos hf]
    exact v46_apply x0 x1 b z t ⟨f.val, hf⟩ p
  · rw [dif_neg hf, dif_neg hf]

/-- The reference run's result term is the deep-filter operator of the two argument arrays. -/
theorem result_eq (m : (ℓ : Loc nD τ sig) → Buf (Elt Ideal) ℓ) (c : Dev nD) :
    res_main_v48 (F := Ideal) m c
      = Cert.DeepFilter.G (m ((c.tc : Thread nD τ).loc main_arg0)) (m ((c.tc : Thread nD τ).loc main_arg1)) :=
  (val_main_v48_eq m c).trans (v48_apply _ _)

end Cert.ReferenceIdeal.RefValue

end
-- ==== Proof.lean ====
/-
  The certificate's claims for the deep-filter kernel against its jnp reference.

  The kernel filters the first 96 bins of a complex spectrogram with a five-tap causal filter along the frames,
  working on (re, im)-interleaved lanes, one 4-batch × 200-frame tile per grid point, carrying the last four frames
  from one tile to the next; the reference pads, shifts, multiplies and sums over the taps, and writes the band
  back. Both compute, bin by bin, Σₙ (xr·cr − xi·ci) and Σₙ (xr·ci + xi·cr) of the same causal window — the
  function `Cert.DeepFilter.G` of the two arguments — and pass every other bin through; on the extended reals this
  needs only commutativity and associativity of the sum and x·(0 − c) = −(x·c), so the precondition is not used.
  The two frames of the kernel (word level and idealized) come from one proof of the body, written for any float
  instance; the reference's frame is its run; the ideal pass rewrote nothing, so `preserves` has nothing to state.
-/
import proofs.«422068_j29231547416739_3_alg».proof.Defs
import proofs.«422068_j29231547416739_3_alg».proof.Proof.Gen.Kernel
import proofs.«422068_j29231547416739_3_alg».proof.Proof.Gen.KernelIdeal
import proofs.«422068_j29231547416739_3_alg».proof.Proof.Gen.ReferenceIdeal
import proofs.«422068_j29231547416739_3_alg».proof.Proof.Gen.Pre_finite_inputs
import proofs.«422068_j29231547416739_3_alg».proof.Proof.K.Frame
import proofs.«422068_j29231547416739_3_alg».proof.Proof.KI.Value
import proofs.«422068_j29231547416739_3_alg».proof.Proof.Ref.IsG
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the deep-filter operator of the arguments. -/
theorem algebraic : Cert.algebraic_KernelIdeal_ReferenceIdeal := by
  intro m ρ m' ρ' _ hagree
  refine ⟨fun c => Cert.DeepFilter.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
